-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S500000 : Shape := ⟨1, ![500000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S500000 : S_.BroadcastsInDim S500000 (![] : Fin 0 → Fin S500000.rank)
  reducesTo_S500000_S_d0 : S500000.ReducesTo [0] S_

variable [Facts]

def fn_part4 {F : FTy → Type} [FloatOps F] (main_arg3 : IVec S500000 32) (main_arg4 : IVec S500000 32) (main_v67 : IVec S_ 1) : IVec S_ 1 :=
  let main_c_26 : IVec S_ 32 := constantI S_ 32 0#32
  let main_v68 : IVec S500000 32 := broadcastInDim S500000 ![] bcast_S_S500000 main_c_26
  let main_v69 : IVec S500000 1 := cmpi .sge main_arg3 main_v68
  let main_c_27 : IVec S_ 32 := constantI S_ 32 500000#32
  let main_v70 : IVec S500000 32 := broadcastInDim S500000 ![] bcast_S_S500000 main_c_27
  let main_v71 : IVec S500000 1 := cmpi .slt main_arg3 main_v70
  let main_v72 : IVec S500000 1 := andi main_v69 main_v71
  let main_c_28 : IVec S_ 1 := constantI S_ 1 1#1
  let main_v73 : IVec S_ 1 := (fun x v => Host.reduce IntOp.andi x v reducesTo_S500000_S_d0 h_S_) main_v72 main_c_28
  let main_v74 : IVec S_ 1 := andi main_v67 main_v73
  let main_c_29 : IVec S_ 32 := constantI S_ 32 0#32
  let main_v75 : IVec S500000 32 := broadcastInDim S500000 ![] bcast_S_S500000 main_c_29
  let main_v76 : IVec S500000 1 := cmpi .sge main_arg4 main_v75
  let main_c_30 : IVec S_ 32 := constantI S_ 32 80000#32
  let main_v77 : IVec S500000 32 := broadcastInDim S500000 ![] bcast_S_S500000 main_c_30
  let main_v78 : IVec S500000 1 := cmpi .slt main_arg4 main_v77
  let main_v79 : IVec S500000 1 := andi main_v76 main_v78
  let main_c_31 : IVec S_ 1 := constantI S_ 1 1#1
  let main_v80 : IVec S_ 1 := (fun x v => Host.reduce IntOp.andi x v reducesTo_S500000_S_d0 h_S_) main_v79 main_c_31
  let main_v81 : IVec S_ 1 := andi main_v74 main_v80
  main_v81

def fn_part3 {F : FTy → Type} [FloatOps F] (main_arg1 : IVec S500000 32) (main_arg2 : IVec S500000 32) (main_arg3 : IVec S500000 32) (main_arg4 : IVec S500000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S500000 32 := broadcastInDim S500000 ![] bcast_S_S500000 main_c_20
  let main_v55 : IVec S500000 1 := cmpi .sge main_arg1 main_v54
  let main_c_21 : IVec S_ 32 := constantI S_ 32 500000#32
  let main_v56 : IVec S500000 32 := broadcastInDim S500000 ![] bcast_S_S500000 main_c_21
  let main_v57 : IVec S500000 1 := cmpi .slt main_arg1 main_v56
  let main_v58 : IVec S500000 1 := andi main_v55 main_v57
  let main_c_22 : IVec S_ 1 := constantI S_ 1 1#1
  let main_v59 : IVec S_ 1 := (fun x v => Host.reduce IntOp.andi x v reducesTo_S500000_S_d0 h_S_) main_v58 main_c_22
  let main_v60 : IVec S_ 1 := andi main_v53 main_v59
  let main_c_23 : IVec S_ 32 := constantI S_ 32 0#32
  let main_v61 : IVec S500000 32 := broadcastInDim S500000 ![] bcast_S_S500000 main_c_23
  let main_v62 : IVec S500000 1 := cmpi .sge main_arg2 main_v61
  let main_c_24 : IVec S_ 32 := constantI S_ 32 100000#32
  let main_v63 : IVec S500000 32 := broadcastInDim S500000 ![] bcast_S_S500000 main_c_24
  let main_v64 : IVec S500000 1 := cmpi .slt main_arg2 main_v63
  let main_v65 : IVec S500000 1 := andi main_v62 main_v64
  let main_c_25 : IVec S_ 1 := constantI S_ 1 1#1
  let main_v66 : IVec S_ 1 := (fun x v => Host.reduce IntOp.andi x v reducesTo_S500000_S_d0 h_S_) main_v65 main_c_25
  let main_v67 : IVec S_ 1 := andi main_v60 main_v66
  fn_part4 (F := F) main_arg3 main_arg4 main_v67

def fn_part2 {F : FTy → Type} [FloatOps F] (main_arg1 : IVec S500000 32) (main_arg2 : IVec S500000 32) (main_arg3 : IVec S500000 32) (main_arg4 : IVec S500000 32) (main_arg11 : FVec F S4x128 .f32) (main_arg12 : FVec F S4x128x128 .f32) (main_arg13 : FVec F S128x1 .f32) (main_arg14 : FVec F S1 .f32) (main_v33 : IVec S_ 1) : IVec S_ 1 :=
  let main_v34 : FVec F S4x128 .f32 := Host.absf main_arg11
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg12
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S128x1 .f32 := Host.absf main_arg13
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_arg1 main_arg2 main_arg3 main_arg4 main_v48 main_v49 main_v50

def fn_part1 {F : FTy → Type} [FloatOps F] (main_arg1 : IVec S500000 32) (main_arg2 : IVec S500000 32) (main_arg3 : IVec S500000 32) (main_arg4 : IVec S500000 32) (main_arg8 : FVec F S4x128 .f32) (main_arg9 : FVec F S4x128x128 .f32) (main_arg10 : FVec F S4x128x128 .f32) (main_arg11 : FVec F S4x128 .f32) (main_arg12 : FVec F S4x128x128 .f32) (main_arg13 : FVec F S128x1 .f32) (main_arg14 : FVec F S1 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg8
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg9
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128x128 .f32 := Host.absf main_arg10
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg1 main_arg2 main_arg3 main_arg4 main_arg11 main_arg12 main_arg13 main_arg14 main_v33

def fn {F : FTy → Type} [FloatOps F] (main_arg0 : FVec F S500000x64 .f32) (main_arg1 : IVec S500000 32) (main_arg2 : IVec S500000 32) (main_arg3 : IVec S500000 32) (main_arg4 : IVec S500000 32) (main_arg5 : FVec F S64x128 .f32) (main_arg6 : FVec F S128 .f32) (main_arg7 : FVec F S4x128x128 .f32) (main_arg8 : FVec F S4x128 .f32) (main_arg9 : FVec F S4x128x128 .f32) (main_arg10 : FVec F S4x128x128 .f32) (main_arg11 : FVec F S4x128 .f32) (main_arg12 : FVec F S4x128x128 .f32) (main_arg13 : FVec F S128x1 .f32) (main_arg14 : FVec F S1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S64x128 .f32 := Host.absf main_arg5
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg7
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg2 main_arg3 main_arg4 main_arg8 main_arg9 main_arg10 main_arg11 main_arg12 main_arg13 main_arg14 main_v13 main_v16
-- ==== Kernel.lean ====
abbrev S500000x64 : Shape := ⟨2, ![500000, 64]⟩
abbrev S500000 : Shape := ⟨1, ![500000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x128 : Shape := ⟨2, ![1, 128]⟩
abbrev S500000x128 : Shape := ⟨2, ![500000, 128]⟩
abbrev S10000x64 : Shape := ⟨2, ![10000, 64]⟩
abbrev S10000x128 : Shape := ⟨2, ![10000, 128]⟩
abbrev S_ : Shape := ⟨0, ![]⟩
abbrev S500000x1 : Shape := ⟨2, ![500000, 1]⟩
abbrev S1x1 : Shape := ⟨2, ![1, 1]⟩
abbrev S100000x128 : Shape := ⟨2, ![100000, 128]⟩
abbrev S100000x1 : Shape := ⟨2, ![100000, 1]⟩
abbrev S80000x128 : Shape := ⟨2, ![80000, 128]⟩
abbrev S80000x1 : Shape := ⟨2, ![80000, 1]⟩
abbrev S1x128x128 : Shape := ⟨3, ![1, 128, 128]⟩
abbrev S128x128 : Shape := ⟨2, ![128, 128]⟩
abbrev S10000x1 : Shape := ⟨2, ![10000, 1]⟩

abbrev nBuf : Space → Nat
  | .hbm => 209
  | .vmem => 46
  | .smem => 0
  | _ => 0

abbrev hbmTy0_0 (i : Nat) : BufTy := match i % 128 with
  | 0 => ⟨S500000x64, .f32⟩
  | 1 => ⟨S500000, .i32⟩
  | 2 => ⟨S500000, .i32⟩
  | 3 => ⟨S500000, .i32⟩
  | 4 => ⟨S500000, .i32⟩
  | 5 => ⟨S64x128, .f32⟩
  | 6 => ⟨S128, .f32⟩
  | 7 => ⟨S4x128x128, .f32⟩
  | 8 => ⟨S4x128, .f32⟩
  | 9 => ⟨S4x128x128, .f32⟩
  | 10 => ⟨S4x128x128, .f32⟩
  | 11 => ⟨S4x128, .f32⟩
  | 12 => ⟨S4x128x128, .f32⟩
  | 13 => ⟨S128x1, .f32⟩
  | 14 => ⟨S1, .f32⟩
  | 15 => ⟨S1x128, .f32⟩
  | 16 => ⟨S500000x128, .f32⟩
  | 17 => ⟨S_, .f32⟩
  | 18 => ⟨S500000x1, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S1, .i32⟩
  | 28 => ⟨S_, .i32⟩
  | 29 => ⟨S500000x1, .i32⟩
  | 30 => ⟨S500000x1, .i1⟩
  | 31 => ⟨S1x1, .i32⟩
  | 32 => ⟨S500000x1, .i32⟩
  | 33 => ⟨S500000x1, .i1⟩
  | 34 => ⟨S500000x1, .i1⟩
  | 35 => ⟨S_, .i1⟩
  | 36 => ⟨S500000, .i1⟩
  | 37 => ⟨S500000x128, .f32⟩
  | 38 => ⟨S500000x128, .i1⟩
  | 39 => ⟨S_, .f32⟩
  | 40 => ⟨S500000x128, .f32⟩
  | 41 => ⟨S500000x128, .f32⟩
  | 42 => ⟨S_, .f32⟩
  | 43 => ⟨S100000x128, .f32⟩
  | 44 => ⟨S500000x1, .i32⟩
  | 45 => ⟨S100000x128, .f32⟩
  | 46 => ⟨S_, .f32⟩
  | 47 => ⟨S100000x1, .f32⟩
  | 48 => ⟨S500000x1, .i32⟩
  | 49 => ⟨S100000x1, .f32⟩
  | 50 => ⟨S_, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S1, .i32⟩
  | 65 => ⟨S_, .i32⟩
  | 66 => ⟨S500000x1, .i32⟩
  | 67 => ⟨S500000x1, .i1⟩
  | 68 => ⟨S1x1, .i32⟩
  | 69 => ⟨S500000x1, .i32⟩
  | 70 => ⟨S500000x1, .i1⟩
  | 71 => ⟨S500000x1, .i1⟩
  | 72 => ⟨S_, .i1⟩
  | 73 => ⟨S500000, .i1⟩
  | 74 => ⟨S500000x128, .f32⟩
  | 75 => ⟨S500000x128, .i1⟩
  | 76 => ⟨S_, .f32⟩
  | 77 => ⟨S500000x128, .f32⟩
  | 78 => ⟨S500000x128, .f32⟩
  | 79 => ⟨S_, .f32⟩
  | 80 => ⟨S80000x128, .f32⟩
  | 81 => ⟨S500000x1, .i32⟩
  | 82 => ⟨S80000x128, .f32⟩
  | 83 => ⟨S_, .f32⟩
  | 84 => ⟨S80000x1, .f32⟩
  | 85 => ⟨S500000x1, .i32⟩
  | 86 => ⟨S80000x1, .f32⟩
  | 87 => ⟨S_, .f32⟩
  | 88 => ⟨S80000x1, .f32⟩
  | 89 => ⟨S80000x1, .f32⟩
  | 90 => ⟨S_, .f32⟩
  | 91 => ⟨S80000x1, .f32⟩
  | 92 => ⟨S80000x1, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S80000x128, .f32⟩
  | 105 => ⟨S1x128x128, .f32⟩
  | 106 => ⟨S128x128, .f32⟩
  | 107 => ⟨S1x128x128, .f32⟩
  | 108 => ⟨S128x128, .f32⟩
  | 109 => ⟨S128x128, .f32⟩
  | 110 => ⟨S1x128, .f32⟩
  | 111 => ⟨S128, .f32⟩
  | 112 => ⟨S1x128, .f32⟩
  | 113 => ⟨S128, .f32⟩
  | 114 => ⟨S128, .f32⟩
  | 115 => ⟨S1x128, .f32⟩
  | 116 => ⟨S500000x128, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S1, .i32⟩
  | 126 => ⟨S_, .i32⟩
  | 127 => ⟨S500000x1, .i32⟩
  | _ => ⟨S500000x64, .f32⟩

abbrev hbmTy0_1 (i : Nat) : BufTy := match i % 128 with
  | 0 => ⟨S500000x1, .i1⟩
  | 1 => ⟨S1x1, .i32⟩
  | 2 => ⟨S500000x1, .i32⟩
  | 3 => ⟨S500000x1, .i1⟩
  | 4 => ⟨S500000x1, .i1⟩
  | 5 => ⟨S_, .i1⟩
  | 6 => ⟨S500000, .i1⟩
  | 7 => ⟨S500000x128, .f32⟩
  | 8 => ⟨S500000x128, .i1⟩
  | 9 => ⟨S_, .f32⟩
  | 10 => ⟨S500000x128, .f32⟩
  | 11 => ⟨S500000x128, .f32⟩
  | 12 => ⟨S_, .f32⟩
  | 13 => ⟨S500000x128, .f32⟩
  | 14 => ⟨S500000x1, .i32⟩
  | 15 => ⟨S500000x128, .f32⟩
  | 16 => ⟨S_, .f32⟩
  | 17 => ⟨S500000x1, .f32⟩
  | 18 => ⟨S500000x1, .i32⟩
  | 19 => ⟨S500000x1, .f32⟩
  | 20 => ⟨S_, .f32⟩
  | 21 => ⟨S500000x1, .f32⟩
  | 22 => ⟨S500000x1, .f32⟩
  | 23 => ⟨S_, .f32⟩
  | 24 => ⟨S500000x1, .f32⟩
  | 25 => ⟨S500000x1, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S1, .i32⟩
  | 35 => ⟨S_, .i32⟩
  | 36 => ⟨S500000x1, .i32⟩
  | 37 => ⟨S500000x1, .i1⟩
  | 38 => ⟨S1x1, .i32⟩
  | 39 => ⟨S500000x1, .i32⟩
  | 40 => ⟨S500000x1, .i1⟩
  | 41 => ⟨S500000x1, .i1⟩
  | 42 => ⟨S_, .i1⟩
  | 43 => ⟨S500000, .i1⟩
  | 44 => ⟨S500000x128, .f32⟩
  | 45 => ⟨S500000x128, .i1⟩
  | 46 => ⟨S_, .f32⟩
  | 47 => ⟨S500000x128, .f32⟩
  | 48 => ⟨S500000x128, .f32⟩
  | 49 => ⟨S_, .f32⟩
  | 50 => ⟨S500000x128, .f32⟩
  | 51 => ⟨S500000x1, .i32⟩
  | 52 => ⟨S500000x128, .f32⟩
  | 53 => ⟨S_, .f32⟩
  | 54 => ⟨S500000x1, .f32⟩
  | 55 => ⟨S500000x1, .i32⟩
  | 56 => ⟨S500000x1, .f32⟩
  | 57 => ⟨S_, .f32⟩
  | 58 => ⟨S500000x1, .f32⟩
  | 59 => ⟨S500000x1, .f32⟩
  | 60 => ⟨S_, .f32⟩
  | 61 => ⟨S500000x1, .f32⟩
  | 62 => ⟨S500000x1, .f32⟩
  | 63 => ⟨S1x128x128, .f32⟩
  | 64 => ⟨S128x128, .f32⟩
  | 65 => ⟨S1x128x128, .f32⟩
  | 66 => ⟨S128x128, .f32⟩
  | 67 => ⟨S128x128, .f32⟩
  | 68 => ⟨S1x128, .f32⟩
  | 69 => ⟨S128, .f32⟩
  | 70 => ⟨S1x128, .f32⟩
  | 71 => ⟨S128, .f32⟩
  | 72 => ⟨S128, .f32⟩
  | 73 => ⟨S1x128x128, .f32⟩
  | 74 => ⟨S128x128, .f32⟩
  | 75 => ⟨S1x128x128, .f32⟩
  | 76 => ⟨S128x128, .f32⟩
  | 77 => ⟨S1x128, .f32⟩
  | 78 => ⟨S1x1, .f32⟩
  | 79 => ⟨S500000x1, .f32⟩
  | 80 => ⟨S500000, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S10000x128, .f32⟩
  | .local _ .vmem, ⟨33, _⟩ => ⟨S10000x128, .f32⟩
  | .local _ .vmem, ⟨34, _⟩ => ⟨S10000x1, .f32⟩
  | .local _ .vmem, ⟨35, _⟩ => ⟨S10000x1, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S128x1, .f32⟩
  | .local _ .vmem, ⟨43, _⟩ => ⟨S1x1, .f32⟩
  | .local _ .vmem, ⟨44, _⟩ => ⟨S10000x1, .f32⟩
  | .local _ .vmem, ⟨45, _⟩ => ⟨S10000x1, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v3 : Ref sig .tc := ⟨.hbm, 41, rfl⟩
abbrev main_cst_0 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_cst_2 : Ref sig .tc := ⟨.hbm, 50, rfl⟩
abbrev main_v10 : Ref sig .tc := ⟨.hbm, 51, rfl⟩
abbrev main_v11 : Ref sig .tc := ⟨.hbm, 52, rfl⟩
abbrev main_cst_3 : Ref sig .tc := ⟨.hbm, 53, rfl⟩
abbrev main_v12 : Ref sig .tc := ⟨.hbm, 54, rfl⟩
abbrev main_v13 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v14 : Ref sig .tc := ⟨.hbm, 78, rfl⟩
abbrev main_cst_4 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_cst_5 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_cst_6 : Ref sig .tc := ⟨.hbm, 87, rfl⟩
abbrev main_v21 : Ref sig .tc := ⟨.hbm, 88, rfl⟩
abbrev main_v22 : Ref sig .tc := ⟨.hbm, 89, rfl⟩
abbrev main_cst_7 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_call2_c : Ref sig .tc := ⟨.hbm, 117, rfl⟩
abbrev main_call2_v0 : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_c_1 : Ref sig .tc := ⟨.hbm, 125, rfl⟩
abbrev main_call2_c_2 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_3 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_call2_cst : Ref sig .tc := ⟨.hbm, 137, rfl⟩
abbrev main_call2_v15 : Ref sig .tc := ⟨.hbm, 138, rfl⟩
abbrev main_v49 : Ref sig .tc := ⟨.hbm, 139, rfl⟩
abbrev main_cst_8 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_cst_9 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_10 : Ref sig .tc := ⟨.hbm, 148, rfl⟩
abbrev main_v56 : Ref sig .tc := ⟨.hbm, 149, rfl⟩
abbrev main_v57 : Ref sig .tc := ⟨.hbm, 150, rfl⟩
abbrev main_cst_11 : Ref sig .tc := ⟨.hbm, 151, rfl⟩
abbrev main_v58 : Ref sig .tc := ⟨.hbm, 152, rfl⟩
abbrev main_v59 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_c_1 : Ref sig .tc := ⟨.hbm, 162, rfl⟩
abbrev main_call3_c_2 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_3 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_call3_cst : Ref sig .tc := ⟨.hbm, 174, rfl⟩
abbrev main_call3_v15 : Ref sig .tc := ⟨.hbm, 175, rfl⟩
abbrev main_v60 : Ref sig .tc := ⟨.hbm, 176, rfl⟩
abbrev main_cst_12 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_cst_13 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_cst_14 : Ref sig .tc := ⟨.hbm, 185, rfl⟩
abbrev main_v67 : Ref sig .tc := ⟨.hbm, 186, rfl⟩
abbrev main_v68 : Ref sig .tc := ⟨.hbm, 187, rfl⟩
abbrev main_cst_15 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg11_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem11_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S10000x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S500000x1 : S_.BroadcastsInDim S500000x1 (![] : Fin 0 → Fin S500000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S_S80000x128 : S_.BroadcastsInDim S80000x128 (![] : Fin 0 → Fin S80000x128.rank)
  bcast_S_S80000x1 : S_.BroadcastsInDim S80000x1 (![] : Fin 0 → Fin S80000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128x128_S1x128x128_2_0_0 : S4x128x128.Slices ![2, 0, 0] S1x128x128
  slices_S4x128_S1x128_2_0 : S4x128.Slices ![2, 0] S1x128
  slices_S4x128x128_S1x128x128_1_0_0 : S4x128x128.Slices ![1, 0, 0] S1x128x128
  slices_S4x128x128_S1x128x128_3_0_0 : S4x128x128.Slices ![3, 0, 0] S1x128x128
  slices_S4x128_S1x128_1_0 : S4x128.Slices ![1, 0] S1x128
  slices_S4x128_S1x128_3_0 : S4x128.Slices ![3, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S500000x1_S500000 : S500000x1.ShapeCasts S500000
  dot_S10000x64_S64x128_S10000x128_1_0_0_1_n_n_wf : DotDims.WF S10000x64 S64x128 S10000x128 [1] [0] [0] [1] [] []
  gather_S500000x128_S500000x1_S500000x128_1_0_n_n_0_1_1128_wf : GatherDims.WF S500000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  scatter_S80000x128_S500000x1_S500000x128_1_0_0_1_wf : ScatterDims.WF S80000x128 S500000x1 S500000x128 [1] [0] [0] 1
  scatter_S80000x1_S500000x1_S500000x1_1_0_0_1_wf : ScatterDims.WF S80000x1 S500000x1 S500000x1 [1] [0] [0] 1
  dot_S10000x128_S128x128_S10000x128_1_0_0_1_n_n_wf : DotDims.WF S10000x128 S128x128 S10000x128 [1] [0] [0] [1] [] []
  gather_S100000x128_S500000x1_S500000x128_1_0_n_n_0_1_1128_wf : GatherDims.WF S100000x128 S500000x1 S500000x128 [1] [0] [] [0] [] 1 ![1, 128]
  scatter_S500000x128_S500000x1_S500000x128_1_0_0_1_wf : ScatterDims.WF S500000x128 S500000x1 S500000x128 [1] [0] [0] 1
  scatter_S500000x1_S500000x1_S500000x1_1_0_0_1_wf : ScatterDims.WF S500000x1 S500000x1 S500000x1 [1] [0] [0] 1
  gather_S80000x128_S500000x1_S500000x128_1_0_n_n_0_1_1128_wf : GatherDims.WF S80000x128 S500000x1 S500000x128 [1] [0] [] [0] [] 1 ![1, 128]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S80000x128.size a
  hwx2_0 : ∀ i : grid2.Coords, EltTy.bits .f32 = 32 ∨ (Rect.block (s := S80000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S80000x1.size a
  hwx2_1 : ∀ i : grid2.Coords, EltTy.bits .f32 = 32 ∨ (Rect.block (s := S80000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S80000x128.size a
  hwx2_4 : ∀ i : grid2.Coords, EltTy.bits .f32 = 32 ∨ (Rect.block (s := S80000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S500000x128.size a
  hwx3_0 : ∀ i : grid3.Coords, EltTy.bits .f32 = 32 ∨ (Rect.block (s := S500000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S500000x128.size a
  hwx3_3 : ∀ i : grid3.Coords, EltTy.bits .f32 = 32 ∨ (Rect.block (s := S500000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S500000x128.size a
  hwx4_0 : ∀ i : grid4.Coords, EltTy.bits .f32 = 32 ∨ (Rect.block (s := S500000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S500000x1.size a
  hwx4_1 : ∀ i : grid4.Coords, EltTy.bits .f32 = 32 ∨ (Rect.block (s := S500000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S500000x128.size a
  hwx4_2 : ∀ i : grid4.Coords, EltTy.bits .f32 = 32 ∨ (Rect.block (s := S500000x128) S10000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S500000x1.size a
  hwx4_3 : ∀ i : grid4.Coords, EltTy.bits .f32 = 32 ∨ (Rect.block (s := S500000x1) S10000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S500000x128.size a
  hwx4_4 : ∀ i : grid4.Coords, EltTy.bits .f32 = 32 ∨ (Rect.block (s := S500000x128) S10000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x1.size a ≤ S128x1.size a
  hwx4_9 : ∀ i : grid4.Coords, EltTy.bits .f32 = 32 ∨ (Rect.block (s := S128x1) S128x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S10000x1.size a ≤ S500000x1.size a
  hwx4_11 : ∀ i : grid4.Coords, EltTy.bits .f32 = 32 ∨ (Rect.block (s := S500000x1) S10000x1.size (cc4_transform_11 i) (hinb4_11 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S80000x128_S500000x1_S500000x128_1_0_0_1 : ScatterDims S80000x128 S500000x1 S500000x128 where
  updateWindowDims := [1]
  insertedWindowDims := [0]
  scatterDimsToOperandDims := [0]
  indexVectorDim := 1
  wf := scatter_S80000x128_S500000x1_S500000x128_1_0_0_1_wf
def scatter_S80000x1_S500000x1_S500000x1_1_0_0_1 : ScatterDims S80000x1 S500000x1 S500000x1 where
  updateWindowDims := [1]
  insertedWindowDims := [0]
  scatterDimsToOperandDims := [0]
  indexVectorDim := 1
  wf := scatter_S80000x1_S500000x1_S500000x1_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def gather_S80000x128_S500000x1_S500000x128_1_0_n_n_0_1_1128 : GatherDims S80000x128 S500000x1 S500000x128 where
  offsetDims := [1]
  collapsedSliceDims := [0]
  operandBatchingDims := []
  startIndicesBatchingDims := []
  startIndexMap := [0]
  indexVectorDim := 1
  sliceSizes := ![1, 128]
  wf := gather_S80000x128_S500000x1_S500000x128_1_0_n_n_0_1_1128_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v1) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v52) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v70) S10000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v48) S10000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v82) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v75) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v85) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg13) S128x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v86) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v87) S10000x1.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S500000x64 : Shape := ⟨2, ![500000, 64]⟩
abbrev S500000 : Shape := ⟨1, ![500000]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S500000x128 : Shape := ⟨2, ![500000, 128]⟩
abbrev S1x128 : Shape := ⟨2, ![1, 128]⟩
abbrev S_ : Shape := ⟨0, ![]⟩
abbrev S100000x128 : Shape := ⟨2, ![100000, 128]⟩
abbrev S80000x128 : Shape := ⟨2, ![80000, 128]⟩
abbrev S1x128x128 : Shape := ⟨3, ![1, 128, 128]⟩
abbrev S128x128 : Shape := ⟨2, ![128, 128]⟩
abbrev S500000x1 : Shape := ⟨2, ![500000, 1]⟩
abbrev S100000x1 : Shape := ⟨2, ![100000, 1]⟩
abbrev S80000x1 : Shape := ⟨2, ![80000, 1]⟩
abbrev S1x1 : Shape := ⟨2, ![1, 1]⟩

abbrev nBuf : Space → Nat
  | .hbm => 330
  | .vmem => 0
  | .smem => 0
  | _ => 0

abbrev hbmTy0_0 (i : Nat) : BufTy := match i % 128 with
  | 0 => ⟨S500000x64, .f32⟩
  | 1 => ⟨S500000, .i32⟩
  | 2 => ⟨S500000, .i32⟩
  | 3 => ⟨S500000, .i32⟩
  | 4 => ⟨S500000, .i32⟩
  | 5 => ⟨S64x128, .f32⟩
  | 6 => ⟨S128, .f32⟩
  | 7 => ⟨S4x128x128, .f32⟩
  | 8 => ⟨S4x128, .f32⟩
  | 9 => ⟨S4x128x128, .f32⟩
  | 10 => ⟨S4x128x128, .f32⟩
  | 11 => ⟨S4x128, .f32⟩
  | 12 => ⟨S4x128x128, .f32⟩
  | 13 => ⟨S128x1, .f32⟩
  | 14 => ⟨S1, .f32⟩
  | 15 => ⟨S500000x128, .f32⟩
  | 16 => ⟨S1x128, .f32⟩
  | 17 => ⟨S500000x128, .f32⟩
  | 18 => ⟨S500000x128, .f32⟩
  | 19 => ⟨S_, .f32⟩
  | 20 => ⟨S100000x128, .f32⟩
  | 21 => ⟨S_, .f32⟩
  | 22 => ⟨S80000x128, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .f32⟩
  | 39 => ⟨S100000x128, .f32⟩
  | 40 => ⟨S500000x1, .i32⟩
  | 41 => ⟨S100000x128, .f32⟩
  | 42 => ⟨S_, .f32⟩
  | 43 => ⟨S500000x1, .f32⟩
  | 44 => ⟨S_, .f32⟩
  | 45 => ⟨S100000x1, .f32⟩
  | 46 => ⟨S500000x1, .i32⟩
  | 47 => ⟨S100000x1, .f32⟩
  | 48 => ⟨S_, .f32⟩
  | 49 => ⟨S100000x1, .f32⟩
  | 50 => ⟨S100000x1, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S1x128x128, .f32⟩
  | 64 => ⟨S128x128, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x128, .f32⟩
  | 74 => ⟨S_, .f32⟩
  | 75 => ⟨S80000x128, .f32⟩
  | 76 => ⟨S500000x1, .i32⟩
  | 77 => ⟨S80000x128, .f32⟩
  | 78 => ⟨S_, .f32⟩
  | 79 => ⟨S500000x1, .f32⟩
  | 80 => ⟨S_, .f32⟩
  | 81 => ⟨S80000x1, .f32⟩
  | 82 => ⟨S500000x1, .i32⟩
  | 83 => ⟨S80000x1, .f32⟩
  | 84 => ⟨S_, .f32⟩
  | 85 => ⟨S80000x1, .f32⟩
  | 86 => ⟨S80000x1, .f32⟩
  | 87 => ⟨S80000x128, .f32⟩
  | 88 => ⟨S80000x128, .f32⟩
  | 89 => ⟨S80000x128, .f32⟩
  | 90 => ⟨S1x128, .f32⟩
  | 91 => ⟨S80000x128, .f32⟩
  | 92 => ⟨S80000x128, .f32⟩
  | 93 => ⟨S80000x128, .f32⟩
  | 94 => ⟨S80000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S_, .f32⟩
  | 111 => ⟨S500000x128, .f32⟩
  | 112 => ⟨S500000x1, .i32⟩
  | 113 => ⟨S500000x128, .f32⟩
  | 114 => ⟨S_, .f32⟩
  | 115 => ⟨S500000x1, .f32⟩
  | 116 => ⟨S_, .f32⟩
  | 117 => ⟨S500000x1, .f32⟩
  | 118 => ⟨S500000x1, .i32⟩
  | 119 => ⟨S500000x1, .f32⟩
  | 120 => ⟨S_, .f32⟩
  | 121 => ⟨S500000x1, .f32⟩
  | 122 => ⟨S500000x1, .f32⟩
  | 123 => ⟨S500000x128, .f32⟩
  | 124 => ⟨S500000x128, .f32⟩
  | 125 => ⟨S500000x128, .f32⟩
  | 126 => ⟨S1x128, .f32⟩
  | 127 => ⟨S500000x128, .f32⟩
  | _ => ⟨S500000x64, .f32⟩

abbrev hbmTy0_1 (i : Nat) : BufTy := match i % 128 with
  | 0 => ⟨S500000x128, .f32⟩
  | 1 => ⟨S500000x128, .f32⟩
  | 2 => ⟨S500000x128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S_, .f32⟩
  | 19 => ⟨S500000x128, .f32⟩
  | 20 => ⟨S500000x1, .i32⟩
  | 21 => ⟨S500000x128, .f32⟩
  | 22 => ⟨S_, .f32⟩
  | 23 => ⟨S500000x1, .f32⟩
  | 24 => ⟨S_, .f32⟩
  | 25 => ⟨S500000x1, .f32⟩
  | 26 => ⟨S500000x1, .i32⟩
  | 27 => ⟨S500000x1, .f32⟩
  | 28 => ⟨S_, .f32⟩
  | 29 => ⟨S500000x1, .f32⟩
  | 30 => ⟨S500000x1, .f32⟩
  | 31 => ⟨S500000x128, .f32⟩
  | 32 => ⟨S500000x128, .f32⟩
  | 33 => ⟨S500000x128, .f32⟩
  | 34 => ⟨S1x128, .f32⟩
  | 35 => ⟨S500000x128, .f32⟩
  | 36 => ⟨S500000x128, .f32⟩
  | 37 => ⟨S500000x128, .f32⟩
  | 38 => ⟨S500000x128, .f32⟩
  | 39 => ⟨S500000x128, .f32⟩
  | 40 => ⟨S_, .f32⟩
  | 41 => ⟨S500000x128, .f32⟩
  | 42 => ⟨S500000x128, .f32⟩
  | 43 => ⟨S_, .f32⟩
  | 44 => ⟨S100000x128, .f32⟩
  | 45 => ⟨S100000x128, .f32⟩
  | 46 => ⟨S_, .f32⟩
  | 47 => ⟨S80000x128, .f32⟩
  | 48 => ⟨S80000x128, .f32⟩
  | 49 => ⟨S1x128x128, .f32⟩
  | 50 => ⟨S128x128, .f32⟩
  | 51 => ⟨S1x128, .f32⟩
  | 52 => ⟨S128, .f32⟩
  | 53 => ⟨S1x128x128, .f32⟩
  | 54 => ⟨S128x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S_, .f32⟩
  | 69 => ⟨S500000x1, .f32⟩
  | 70 => ⟨S_, .f32⟩
  | 71 => ⟨S100000x1, .f32⟩
  | 72 => ⟨S500000x1, .i32⟩
  | 73 => ⟨S100000x1, .f32⟩
  | 74 => ⟨S_, .f32⟩
  | 75 => ⟨S100000x1, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x128, .f32⟩
  | 100 => ⟨S_, .f32⟩
  | 101 => ⟨S80000x128, .f32⟩
  | 102 => ⟨S500000x1, .i32⟩
  | 103 => ⟨S80000x128, .f32⟩
  | 104 => ⟨S_, .f32⟩
  | 105 => ⟨S500000x1, .f32⟩
  | 106 => ⟨S_, .f32⟩
  | 107 => ⟨S80000x1, .f32⟩
  | 108 => ⟨S500000x1, .i32⟩
  | 109 => ⟨S80000x1, .f32⟩
  | 110 => ⟨S_, .f32⟩
  | 111 => ⟨S80000x1, .f32⟩
  | 112 => ⟨S80000x1, .f32⟩
  | 113 => ⟨S80000x128, .f32⟩
  | 114 => ⟨S80000x128, .f32⟩
  | 115 => ⟨S80000x128, .f32⟩
  | 116 => ⟨S1x128, .f32⟩
  | 117 => ⟨S80000x128, .f32⟩
  | 118 => ⟨S80000x128, .f32⟩
  | 119 => ⟨S80000x128, .f32⟩
  | 120 => ⟨S80000x128, .f32⟩
  | 121 => ⟨S1x128x128, .f32⟩
  | 122 => ⟨S128x128, .f32⟩
  | 123 => ⟨S1x128, .f32⟩
  | 124 => ⟨S128, .f32⟩
  | 125 => ⟨S1x128x128, .f32⟩
  | 126 => ⟨S128x128, .f32⟩
  | 127 => ⟨S_, .i32⟩
  | _ => ⟨S500000x64, .f32⟩

abbrev hbmTy0_2 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .f32⟩
  | 8 => ⟨S_, .f32⟩
  | 9 => ⟨S500000x128, .f32⟩
  | 10 => ⟨S500000x1, .i32⟩
  | 11 => ⟨S500000x128, .f32⟩
  | 12 => ⟨S_, .f32⟩
  | 13 => ⟨S500000x1, .f32⟩
  | 14 => ⟨S_, .f32⟩
  | 15 => ⟨S500000x1, .f32⟩
  | 16 => ⟨S500000x1, .i32⟩
  | 17 => ⟨S500000x1, .f32⟩
  | 18 => ⟨S_, .f32⟩
  | 19 => ⟨S500000x1, .f32⟩
  | 20 => ⟨S500000x1, .f32⟩
  | 21 => ⟨S500000x128, .f32⟩
  | 22 => ⟨S500000x128, .f32⟩
  | 23 => ⟨S500000x128, .f32⟩
  | 24 => ⟨S1x128, .f32⟩
  | 25 => ⟨S500000x128, .f32⟩
  | 26 => ⟨S500000x128, .f32⟩
  | 27 => ⟨S500000x128, .f32⟩
  | 28 => ⟨S500000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x128, .f32⟩
  | 44 => ⟨S_, .f32⟩
  | 45 => ⟨S500000x128, .f32⟩
  | 46 => ⟨S500000x1, .i32⟩
  | 47 => ⟨S500000x128, .f32⟩
  | 48 => ⟨S_, .f32⟩
  | 49 => ⟨S500000x1, .f32⟩
  | 50 => ⟨S_, .f32⟩
  | 51 => ⟨S500000x1, .f32⟩
  | 52 => ⟨S500000x1, .i32⟩
  | 53 => ⟨S500000x1, .f32⟩
  | 54 => ⟨S_, .f32⟩
  | 55 => ⟨S500000x1, .f32⟩
  | 56 => ⟨S500000x1, .f32⟩
  | 57 => ⟨S500000x128, .f32⟩
  | 58 => ⟨S500000x128, .f32⟩
  | 59 => ⟨S500000x128, .f32⟩
  | 60 => ⟨S1x128, .f32⟩
  | 61 => ⟨S500000x128, .f32⟩
  | 62 => ⟨S500000x128, .f32⟩
  | 63 => ⟨S500000x128, .f32⟩
  | 64 => ⟨S500000x128, .f32⟩
  | 65 => ⟨S500000x128, .f32⟩
  | 66 => ⟨S_, .f32⟩
  | 67 => ⟨S500000x128, .f32⟩
  | 68 => ⟨S500000x128, .f32⟩
  | 69 => ⟨S500000x1, .f32⟩
  | 70 => ⟨S1x1, .f32⟩
  | 71 => ⟨S500000x1, .f32⟩
  | 72 => ⟨S500000x1, .f32⟩
  | 73 => ⟨S500000, .f32⟩
  | _ => ⟨S500000x64, .f32⟩

abbrev hbmTy (i : Nat) : BufTy := match i / 128 with
  | 0 => hbmTy0_0 i
  | 1 => hbmTy0_1 i
  | 2 => hbmTy0_2 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_c_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_18 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_20 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_21 : Ref sig .tc := ⟨.hbm, 150, rfl⟩
abbrev main_v112 : Ref sig .tc := ⟨.hbm, 151, rfl⟩
abbrev main_cst_22 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_23 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_call0_cst : Ref sig .tc := ⟨.hbm, 168, rfl⟩
abbrev main_call0_v0 : Ref sig .tc := ⟨.hbm, 169, rfl⟩
abbrev main_v127 : Ref sig .tc := ⟨.hbm, 170, rfl⟩
abbrev main_call1_cst : Ref sig .tc := ⟨.hbm, 171, rfl⟩
abbrev main_call1_v0 : Ref sig .tc := ⟨.hbm, 172, rfl⟩
abbrev main_v128 : Ref sig .tc := ⟨.hbm, 173, rfl⟩
abbrev main_call2_cst : Ref sig .tc := ⟨.hbm, 174, rfl⟩
abbrev main_call2_v0 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_24 : Ref sig .tc := ⟨.hbm, 183, rfl⟩
abbrev main_v136 : Ref sig .tc := ⟨.hbm, 184, rfl⟩
abbrev main_v137 : Ref sig .tc := ⟨.hbm, 185, rfl⟩
abbrev main_c_25 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_26 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_27 : Ref sig .tc := ⟨.hbm, 196, rfl⟩
abbrev main_v146 : Ref sig .tc := ⟨.hbm, 197, rfl⟩
abbrev main_cst_28 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_29 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_30 : Ref sig .tc := ⟨.hbm, 219, rfl⟩
abbrev main_v166 : Ref sig .tc := ⟨.hbm, 220, rfl⟩
abbrev main_v167 : Ref sig .tc := ⟨.hbm, 221, rfl⟩
abbrev main_c_31 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_32 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_33 : Ref sig .tc := ⟨.hbm, 232, rfl⟩
abbrev main_v176 : Ref sig .tc := ⟨.hbm, 233, rfl⟩
abbrev main_cst_34 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_35 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_c_36 : Ref sig .tc := ⟨.hbm, 255, rfl⟩
abbrev main_v196 : Ref sig .tc := ⟨.hbm, 256, rfl⟩
abbrev main_v197 : Ref sig .tc := ⟨.hbm, 257, rfl⟩
abbrev main_c_37 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_38 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_39 : Ref sig .tc := ⟨.hbm, 268, rfl⟩
abbrev main_v206 : Ref sig .tc := ⟨.hbm, 269, rfl⟩
abbrev main_cst_40 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_41 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_c_42 : Ref sig .tc := ⟨.hbm, 291, rfl⟩
abbrev main_v226 : Ref sig .tc := ⟨.hbm, 292, rfl⟩
abbrev main_v227 : Ref sig .tc := ⟨.hbm, 293, rfl⟩
abbrev main_c_43 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_cst_44 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_cst_45 : Ref sig .tc := ⟨.hbm, 304, rfl⟩
abbrev main_v236 : Ref sig .tc := ⟨.hbm, 305, rfl⟩
abbrev main_cst_46 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_47 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_call3_cst : Ref sig .tc := ⟨.hbm, 322, rfl⟩
abbrev main_call3_v0 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S100000x128 : S_.BroadcastsInDim S100000x128 (![] : Fin 0 → Fin S100000x128.rank)
  bcast_S_S80000x128 : S_.BroadcastsInDim S80000x128 (![] : Fin 0 → Fin S80000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S4x128x128_S1x128x128_2_0_0 : S4x128x128.Slices ![2, 0, 0] S1x128x128
  slices_S4x128_S1x128_2_0 : S4x128.Slices ![2, 0] S1x128
  bcast_S_S80000x1 : S_.BroadcastsInDim S80000x1 (![] : Fin 0 → Fin S80000x1.rank)
  bcast_S80000x1_S80000x128_0_1 : S80000x1.BroadcastsInDim S80000x128 (![0, 1] : Fin 2 → Fin S80000x128.rank)
  bcast_S1x128_S80000x128_0_1 : S1x128.BroadcastsInDim S80000x128 (![0, 1] : Fin 2 → Fin S80000x128.rank)
  slices_S4x128x128_S1x128x128_1_0_0 : S4x128x128.Slices ![1, 0, 0] S1x128x128
  slices_S4x128_S1x128_1_0 : S4x128.Slices ![1, 0] S1x128
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  slices_S4x128x128_S1x128x128_3_0_0 : S4x128x128.Slices ![3, 0, 0] S1x128x128
  slices_S4x128_S1x128_3_0 : S4x128.Slices ![3, 0] S1x128
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  dot_S500000x64_S64x128_S500000x128_1_0_0_1_n_n_wf : DotDims.WF S500000x64 S64x128 S500000x128 [1] [0] [0] [1] [] []
  gather_S500000x128_S500000x1_S500000x128_1_0_n_n_0_1_1128_wf : GatherDims.WF S500000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  dot_S100000x128_S128x128_S100000x128_1_0_0_1_n_n_wf : DotDims.WF S100000x128 S128x128 S100000x128 [1] [0] [0] [1] [] []
  scatter_S80000x128_S500000x1_S500000x128_1_0_0_1_wf : ScatterDims.WF S80000x128 S500000x1 S500000x128 [1] [0] [0] 1
  scatter_S80000x1_S500000x1_S500000x1_1_0_0_1_wf : ScatterDims.WF S80000x1 S500000x1 S500000x1 [1] [0] [0] 1
  dot_S80000x128_S128x128_S80000x128_1_0_0_1_n_n_wf : DotDims.WF S80000x128 S128x128 S80000x128 [1] [0] [0] [1] [] []
  gather_S100000x128_S500000x1_S500000x128_1_0_n_n_0_1_1128_wf : GatherDims.WF S100000x128 S500000x1 S500000x128 [1] [0] [] [0] [] 1 ![1, 128]
  scatter_S500000x128_S500000x1_S500000x128_1_0_0_1_wf : ScatterDims.WF S500000x128 S500000x1 S500000x128 [1] [0] [0] 1
  scatter_S500000x1_S500000x1_S500000x1_1_0_0_1_wf : ScatterDims.WF S500000x1 S500000x1 S500000x1 [1] [0] [0] 1
  dot_S500000x128_S128x128_S500000x128_1_0_0_1_n_n_wf : DotDims.WF S500000x128 S128x128 S500000x128 [1] [0] [0] [1] [] []
  gather_S80000x128_S500000x1_S500000x128_1_0_n_n_0_1_1128_wf : GatherDims.WF S80000x128 S500000x1 S500000x128 [1] [0] [] [0] [] 1 ![1, 128]
  dot_S500000x128_S128x1_S500000x1_1_0_0_1_n_n_wf : DotDims.WF S500000x128 S128x1 S500000x1 [1] [0] [0] [1] [] []

variable [Facts₀]

def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S80000x128_S500000x1_S500000x128_1_0_0_1 : ScatterDims S80000x128 S500000x1 S500000x128 where
  updateWindowDims := [1]
  insertedWindowDims := [0]
  scatterDimsToOperandDims := [0]
  indexVectorDim := 1
  wf := scatter_S80000x128_S500000x1_S500000x128_1_0_0_1_wf
def scatter_S80000x1_S500000x1_S500000x1_1_0_0_1 : ScatterDims S80000x1 S500000x1 S500000x1 where
  updateWindowDims := [1]
  insertedWindowDims := [0]
  scatterDimsToOperandDims := [0]
  indexVectorDim := 1
  wf := scatter_S80000x1_S500000x1_S500000x1_1_0_0_1_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S80000x128_S500000x1_S500000x128_1_0_n_n_0_1_1128 : GatherDims S80000x128 S500000x1 S500000x128 where
  offsetDims := [1]
  collapsedSliceDims := [0]
  operandBatchingDims := []
  startIndicesBatchingDims := []
  startIndexMap := [0]
  indexVectorDim := 1
  sliceSizes := ![1, 128]
  wf := gather_S80000x128_S500000x1_S500000x128_1_0_n_n_0_1_1128_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  The dense layers of the two programs, written once over coordinates.

  A rank-2 array is read by coordinates (`cur`) and a coordinate function is laid out again as an array (`unc`).
  Every dense layer of the graph network acts row by row: output row `r` is a function of row `r` of the
  row-blocked operands and of the whole weight matrices. The four row functions below are the four layers as the
  tiled kernels compute them: an affine map (`linear`), an affine map followed by the positive part
  (`linearRelu`), the mean-aggregated neighbour sum through one weight matrix (`sageCombine`: the sum of the
  neighbours times the reciprocal of their number, times `Wl`, plus the bias, positive part), and the second
  layer's two aggregations and the self term followed by the one-column classifier (`layer2`).
-/
import Idealize.ShloMosaic.PureOps.Ideal
import Idealize.ShloMosaic.Lib.ValueIdx

noncomputable section

namespace Cert.Spec

open Idealize.ShloMosaic Idealize.ShloMosaic.ValueIdx

/-- A matrix by coordinates. -/
abbrev Mat (a b : Nat) := Fin a → Fin b → EReal

/-- An array `[a, b]` read by coordinates. -/
def cur {a b : Nat} (A : (⟨2, ![a, b]⟩ : Shape).Idx → EReal) : Mat a b := fun r j => A (ix2 r j)

/-- A coordinate function laid out as an array `[a, b]`. -/
def unc {a b : Nat} (f : Mat a b) : (⟨2, ![a, b]⟩ : Shape).Idx → EReal := fun i => f (i 0) (i 1)

theorem unc_ix2 {a b : Nat} (f : Mat a b) (r : Fin a) (j : Fin b) : unc f (ix2 r j) = f r j := rfl

theorem unc_cur {a b : Nat} (A : (⟨2, ![a, b]⟩ : Shape).Idx → EReal) : unc (cur A) = A :=
  funext fun i => (congrArg A (eq_ix2 i)).symm

theorem cur_unc {a b : Nat} (f : Mat a b) : cur (unc f) = f := rfl

/-- A one-column array `[a, 1]` read as a vector. -/
def col {a : Nat} (A : (⟨2, ![a, 1]⟩ : Shape).Idx → EReal) : Fin a → EReal := fun r => A (ix2 r (0 : Fin 1))

/-- A one-row array `[1, b]` read as a vector. -/
def row {b : Nat} (A : (⟨2, ![1, b]⟩ : Shape).Idx → EReal) : Fin b → EReal := fun j => A (ix2 (0 : Fin 1) j)

/-- A vector laid out as a one-column array `[a, 1]`. -/
def uncol {a : Nat} (f : Fin a → EReal) : (⟨2, ![a, 1]⟩ : Shape).Idx → EReal := fun i => f (i 0)

theorem uncol_ix2 {a : Nat} (f : Fin a → EReal) (r : Fin a) (z : Fin 1) : uncol f (ix2 r z) = f r := rfl

/-- `y = x W + b`, row by row. -/
def linear {M K N : Nat} (x : Mat M K) (W : Mat K N) (b : Fin N → EReal) : Mat M N :=
  fun r j => (∑ k, x r k * W k j) + b j

/-- `y = max (x W + b) 0`, row by row. -/
def linearRelu {M K N : Nat} (x : Mat M K) (W : Mat K N) (b : Fin N → EReal) : Mat M N :=
  fun r j => max (linear x W b r j) 0

/-- The first layer's combine at a destination node `r`: the neighbours' sum `s r` times the reciprocal count
    `inv r`, through `Wl`, plus the bias, positive part. -/
def sageCombine {M K N : Nat} (s : Mat M K) (inv : Fin M → EReal) (Wl : Mat K N) (bl : Fin N → EReal) : Mat M N :=
  fun r j => max ((∑ k, (s r k * inv r) * Wl k j) + bl j) 0

/-- The second layer at a transaction node `r`, followed by the classifier: two mean aggregations through their own
    weight matrices, the node's own features through `Wr`, the bias, positive part; then the one-column classifier
    `cw` and its bias `cb`. -/
def layer2 {M K N : Nat} (s1 : Mat M K) (i1 : Fin M → EReal) (s3 : Mat M K) (i3 : Fin M → EReal) (t : Mat M K)
    (Wl1 Wl3 Wr : Mat K N) (b : Fin N → EReal) (cw : Fin N → EReal) (cb : EReal) : Fin M → EReal :=
  fun r => (∑ j, max ((((∑ k, (s1 r k * i1 r) * Wl1 k j) + (∑ k, (s3 r k * i3 r) * Wl3 k j))
      + (∑ k, t r k * Wr k j)) + b j) 0 * cw j) + cb

/-- An extended real that is a real number. -/
def IsReal (x : EReal) : Prop := ∃ r : ℝ, x = (r : EReal)

/-- The f32 pattern of one is the real one. -/
theorem ofBits_one : Ideal.ofBits .f32 0x3F800000#32 = 1 := by
  simp [Ideal.ofBits, Ideal.ieee, -EReal.coe_mul]; norm_num

/-- The reciprocal of a neighbour count clipped below at one. -/
def recip {M : Nat} (cnt : Fin M → EReal) : Fin M → EReal := fun r => Ideal.div 1 (max (cnt r) 1)

/-- One relation of a layer as the reference writes it, at a destination node `r`: the neighbours' sum divided by
    their count clipped below at one, through `Wl`, plus the bias, plus the node's own features through `Wr`. -/
def sageRef {M K N : Nat} (s : Mat M K) (cnt : Fin M → EReal) (xd : Mat M K) (Wl : Mat K N) (bl : Fin N → EReal)
    (Wr : Mat K N) : Mat M N :=
  fun r j => ((∑ k, Ideal.div (s r k) (max (cnt r) 1) * Wl k j) + bl j) + ∑ k, xd r k * Wr k j

/-- Relation `k`'s weight matrix out of the four stacked `[4, 128, 128]`. -/
def slab (W : (⟨3, ![4, 128, 128]⟩ : Shape).Idx → EReal) (k : Fin 4) : Mat 128 128 := fun a b => W (ix3 k a b)

/-- Relation `k`'s bias row out of the four stacked `[4, 128]`. -/
def rowOf (B : (⟨2, ![4, 128]⟩ : Shape).Idx → EReal) (k : Fin 4) : Fin 128 → EReal := fun j => B (ix2 k j)

/-- A vector `[b]` read by its coordinate. -/
def vec {b : Nat} (A : (⟨1, ![b]⟩ : Shape).Idx → EReal) : Fin b → EReal := fun j => A (ix1 j)

end Cert.Spec

end
-- ==== Proof.KReg03.lean ====
/-
  Regions 0 and 3 of the kernel program: the two affine layers.

  Each region runs over 50 grid points; point `t` reads rows `10000 t … 10000 t + 9999` of the row-blocked operand,
  the whole weight matrix and the whole bias row, and writes the same rows of the output. At an entry `(p, q)` of a
  block the body is `∑ k, x p k * W k q + b q` (region 3: its positive part): the product into the zero accumulator is
  the sum over the contracted axis, the bias row is repeated down the rows. Hence what point `t` writes back is block
  `t` of ONE array of the operand arrays — the row function of the layer laid out by coordinates —, the blocks cover
  the array (row `r` lies in block `r / 10000`), and the output array after the region is that array.
-/
import proofs.«422063_j25211458027581_2_alg».proof.Proof.Gen.KernelIdeal.Frame
import proofs.«422063_j25211458027581_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The contraction of region 0: which operand entries an output entry multiplies -/

theorem lin0_lhs_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lin0_lhs_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem lin0_rhs_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem lin0_rhs_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The product into the zero accumulator at an entry: the sum over the contracted axis. -/
theorem lin0_matmul_apply (x : FVec Ideal S10000x64 .f32) (W : FVec Ideal S64x128 .f32) (p : Fin 10000) (q : Fin 128) :
    matmul dot_S10000x64_S64x128_S10000x128_1_0_0_1_n_n (some .fp32) x W (constant (F := Ideal) S10000x128 .f32 0x00000000#32) (ix2 p q)
      = ∑ k : Fin 64, x (ix2 p k) * W (ix2 k q) := by
  refine (Ideal.matmul_constant_zero_apply dot_S10000x64_S64x128_S10000x128_1_0_0_1_n_n (some .fp32) x W (ix2 p q)).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun a => Fin.ext (by
    match a with
    | ⟨0, _⟩ => exact lin0_lhs_0 _ _
    | ⟨1, _⟩ => exact (lin0_lhs_1 _ _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun a => Fin.ext (by
    match a with
    | ⟨0, _⟩ => exact (lin0_rhs_0 _ _).trans hk
    | ⟨1, _⟩ => exact lin0_rhs_1 _ _)
  rw [el, er]

/-- A row `[1, b]` repeated down `a` rows, at an entry: the row's entry in the same column. -/
theorem lin0_rowBroadcast_apply {a b : Nat} (x : (⟨2, ![1, b]⟩ : Shape).Idx → EReal)
    (h : (⟨2, ![1, b]⟩ : Shape).Broadcasts ⟨2, ![a, b]⟩) (hb : b ≠ 1) (p : Fin a) (q : Fin b) :
    broadcastTo (⟨2, ![a, b]⟩ : Shape) x h (ix2 p q) = x (ix2 (0 : Fin 1) q) := by
  refine broadcastTo_apply x h (ix2 p q) (ix2 (0 : Fin 1) q) fun a => ?_
  match a with
  | ⟨0, _⟩ => exact (if_pos rfl).symm
  | ⟨1, _⟩ => exact (if_neg hb).symm

/-- The body of region 0 at an entry: the affine row formula. -/
theorem lin0_pay_apply (x : Vec Ideal S10000x64 .f32) (W : Vec Ideal S64x128 .f32) (b : Vec Ideal S1x128 .f32) (p : Fin 10000) (q : Fin 128) :
    k0_pay1 (F := Ideal) x W b (ix2 p q) = (∑ k : Fin 64, x (ix2 p k) * W (ix2 k q)) + b (ix2 (0 : Fin 1) q) := by
  unfold k0_pay1
  rw [addf_apply, lin0_matmul_apply, shapeCast_self, lin0_rowBroadcast_apply _ _ (by decide)]

/-! ## The contraction of region 3 -/

theorem lin3_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lin3_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem lin3_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem lin3_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator at an entry: the sum over the contracted axis. -/
theorem lin3_matmul_apply (x : FVec Ideal S10000x128 .f32) (W : FVec Ideal S128x128 .f32) (p : Fin 10000) (q : Fin 128) :
    matmul dot_S10000x128_S128x128_S10000x128_1_0_0_1_n_n (some .fp32) x W (constant (F := Ideal) S10000x128 .f32 0x00000000#32) (ix2 p q)
      = ∑ k : Fin 128, x (ix2 p k) * W (ix2 k q) := by
  refine (Ideal.matmul_constant_zero_apply dot_S10000x128_S128x128_S10000x128_1_0_0_1_n_n (some .fp32) x W (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lin3_lhs_0 _ _
    | ⟨1, _⟩ => exact (lin3_lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (lin3_rhs_0 _ _).trans hk
    | ⟨1, _⟩ => exact lin3_rhs_1 _ _)
  rw [el, er]

/-- The body of region 3 at an entry: the positive part of the affine row formula. -/
theorem lin3_pay_apply (x : Vec Ideal S10000x128 .f32) (W : Vec Ideal S128x128 .f32) (b : Vec Ideal S1x128 .f32) (p : Fin 10000) (q : Fin 128) :
    k3_pay1 (F := Ideal) x W b (ix2 p q) = max ((∑ k : Fin 128, x (ix2 p k) * W (ix2 k q)) + b (ix2 (0 : Fin 1) q)) 0 := by
  unfold k3_pay1
  rw [maximumf_apply, broadcast_apply, addf_apply]
  simp only [shapeCast_self]
  rw [lin3_matmul_apply, lin0_rowBroadcast_apply _ _ (by decide)]
  exact congrArg (max _) Ideal.ofBits_zero_f32

variable (V : (c : Dev nD) → (b : Ref sig .tc) → Buf (Elt Ideal) ((c : Thread nD τ).loc b))

/-! ## Region 0: from the blocks to the array -/

theorem lin0_zeroOff : (![0, 0] : Fin 2 → Nat) = fun _ => 0 := funext fun a => by fin_cases a <;> rfl

/-- The block indices of region 0 at a grid point: the row-blocked windows move with the point, the weight and
    the bias row stay. -/
theorem lin0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` of an array of 50 blocks of 10000 rows. -/
def lin0_blockRow (t : Fin 50) (p : Fin 10000) : Fin 500000 := ⟨t.val * 10000 + p.val, by have := t.isLt; have := p.isLt; omega⟩

theorem lin0_emb_0 (t : Fin cfg0.N) (p : Fin 10000) (k : Fin 64) :
    ((cfg0.win 0).blk t).view.emb (ix2 p k) = ix2 (lin0_blockRow t p) k := by
  obtain ⟨e0, e1, -⟩ := lin0_index t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem lin0_emb_1 (t : Fin cfg0.N) (k : Fin 64) (q : Fin 128) :
    ((cfg0.win 1).blk t).view.emb (ix2 k q) = ix2 k q := by
  obtain ⟨-, -, e0, e1, -⟩ := lin0_index t
  funext a; apply Fin.ext
  match a with
  | ⟨0, _⟩ => show win0_1.index t (0 : Fin 2) * 64 + 1 * k.val = k.val; omega
  | ⟨1, _⟩ => show win0_1.index t (1 : Fin 2) * 128 + 1 * q.val = q.val; omega

theorem lin0_emb_2 (t : Fin cfg0.N) (z : Fin 1) (q : Fin 128) :
    ((cfg0.win 2).blk t).view.emb (ix2 z q) = ix2 z q := by
  obtain ⟨-, -, -, -, e0, e1, -⟩ := lin0_index t
  funext a; apply Fin.ext
  match a with
  | ⟨0, _⟩ => show win0_2.index t (0 : Fin 2) * 1 + 1 * z.val = z.val; omega
  | ⟨1, _⟩ => show win0_2.index t (1 : Fin 2) * 128 + 1 * q.val = q.val; omega

theorem lin0_emb_3 (t : Fin cfg0.N) (p : Fin 10000) (q : Fin 128) :
    ((cfg0.win 3).blk t).view.emb (ix2 p q) = ix2 (lin0_blockRow t p) q := by
  obtain ⟨-, -, -, -, -, -, e0, e1⟩ := lin0_index t
  funext a; apply Fin.ext
  match a with
  | ⟨0, _⟩ => show win0_3.index t (0 : Fin 2) * 10000 + 1 * p.val = t.val * 10000 + p.val; omega
  | ⟨1, _⟩ => show win0_3.index t (1 : Fin 2) * 128 + 1 * q.val = q.val; omega

/-- The input blocks of region 0 at a grid point, entry by entry, are the operand arrays where the point's rows lie. -/
theorem lin0_read_0 (c : Dev nD) (t : Fin cfg0.N) (p : Fin 10000) (k : Fin 64) :
    (iblk0 V c 0 t : Vec Ideal S10000x64 .f32) (ix2 p k) = V c main_arg0 (ix2 (lin0_blockRow t p) k) :=
  show V c main_arg0 (((cfg0.win 0).blk t).view.emb (ix2 p k)) = _ from congrArg _ (lin0_emb_0 t p k)
theorem lin0_read_1 (c : Dev nD) (t : Fin cfg0.N) (k : Fin 64) (q : Fin 128) :
    (iblk0 V c 1 t : Vec Ideal S64x128 .f32) (ix2 k q) = V c main_arg5 (ix2 k q) :=
  show V c main_arg5 (((cfg0.win 1).blk t).view.emb (ix2 k q)) = _ from congrArg _ (lin0_emb_1 t k q)
theorem lin0_read_2 (c : Dev nD) (t : Fin cfg0.N) (z : Fin 1) (q : Fin 128) :
    (iblk0 V c 2 t : Vec Ideal S1x128 .f32) (ix2 z q) = V c main_v0 (ix2 z q) :=
  show V c main_v0 (((cfg0.win 2).blk t).view.emb (ix2 z q)) = _ from congrArg _ (lin0_emb_2 t z q)

/-- The affine layer of region 0 as one array of the operand arrays. -/
abbrev lin0_G (c : Dev nD) : S500000x128.Idx → EReal :=
  Spec.unc (Spec.linear (Spec.cur (V c main_arg0)) (Spec.cur (V c main_arg5)) (Spec.row (V c main_v0)))

/-- What grid point `t` writes back is block `t` of that array. -/
theorem lin0_flushed_eq (c : Dev nD) (t : Fin cfg0.N) :
    (dat0 V c).flushed 3 t = ((cfg0.win 3).blk t).view.read (Elt Ideal) (lin0_G V c) := by
  show (cfg0.win 3).cut (grid0.coords t) ((dat0 V c).after 3 t) = _
  rw [after0_3]
  unfold out0_3
  rw [View.canon_unit_zero lin0_zeroOff]
  simp only [View.ld_unit_zero (S := S10000x64) lin0_zeroOff, View.ld_unit_zero (S := S64x128) lin0_zeroOff, View.ld_unit_zero (S := S1x128) lin0_zeroOff]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q) = lin0_G V c (((cfg0.win 3).blk t).view.emb (ix2 p q))
  rw [lin0_pay_apply, lin0_emb_3, lin0_read_2]
  simp only [lin0_read_0, lin0_read_1]
  rfl

/-- An index of the array is in point `t`'s block iff each coordinate is in the block's range on its axis. -/
theorem lin0_mem_blk (t : Fin cfg0.N) (i : S500000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v1).slice (win0_3.rect t)).set ↔ _
  rw [View.set_slice_whole, Rect.mem_set_unit]
  exact Iff.rfl

/-- Every row lies in the block of the point numbered by the row's quotient by the block height. -/
theorem lin0_cover (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  obtain ⟨t, ht⟩ : ∃ t : Fin cfg0.N, t.val = (i 0).val / 10000 := ⟨⟨(i 0).val / 10000, by show _ < 50; omega⟩, rfl⟩
  obtain ⟨-, -, -, -, -, -, e0, e1⟩ := lin0_index t
  refine ⟨t, flush0_3 t, ?_⟩
  rw [lin0_mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- REGION 0: after all grid points have written back, the output array is the affine layer of the operand arrays. -/
theorem final0 (c : Dev nD) : (dat0 V c).arrAt 3 cfg0.N
    = Spec.unc (Spec.linear (Spec.cur (V c main_arg0)) (Spec.cur (V c main_arg5)) (Spec.row (V c main_v0))) :=
  (dat0 V c).arrAt_eq_of_cover 3 (lin0_G V c) (fun t _ => lin0_flushed_eq V c t) lin0_cover

/-! ## Region 3: from the blocks to the array -/

/-- The block indices of region 3 at a grid point: the row-blocked windows move with the point, the weight and
    the bias row stay. -/
theorem lin3_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lin3_emb_0 (t : Fin cfg3.N) (p : Fin 10000) (k : Fin 128) :
    ((cfg3.win 0).blk t).view.emb (ix2 p k) = ix2 (lin0_blockRow t p) k := by
  obtain ⟨e0, e1, -⟩ := lin3_index t
  funext a; apply Fin.ext
  match a with
  | ⟨0, _⟩ => show win3_0.index t (0 : Fin 2) * 10000 + 1 * p.val = t.val * 10000 + p.val; omega
  | ⟨1, _⟩ => show win3_0.index t (1 : Fin 2) * 128 + 1 * k.val = k.val; omega

theorem lin3_emb_1 (t : Fin cfg3.N) (k : Fin 128) (q : Fin 128) :
    ((cfg3.win 1).blk t).view.emb (ix2 k q) = ix2 k q := by
  obtain ⟨-, -, e0, e1, -⟩ := lin3_index t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

theorem lin3_emb_2 (t : Fin cfg3.N) (z : Fin 1) (q : Fin 128) :
    ((cfg3.win 2).blk t).view.emb (ix2 z q) = ix2 z q := by
  obtain ⟨-, -, -, -, e0, e1, -⟩ := lin3_index t
  funext a; apply Fin.ext
  match a with
  | ⟨0, _⟩ => show win3_2.index t (0 : Fin 2) * 1 + 1 * z.val = z.val; omega
  | ⟨1, _⟩ => show win3_2.index t (1 : Fin 2) * 128 + 1 * q.val = q.val; omega

theorem lin3_emb_3 (t : Fin cfg3.N) (p : Fin 10000) (q : Fin 128) :
    ((cfg3.win 3).blk t).view.emb (ix2 p q) = ix2 (lin0_blockRow t p) q := by
  obtain ⟨-, -, -, -, -, -, e0, e1⟩ := lin3_index t
  funext a; apply Fin.ext
  match a with
  | ⟨0, _⟩ => show win3_3.index t (0 : Fin 2) * 10000 + 1 * p.val = t.val * 10000 + p.val; omega
  | ⟨1, _⟩ => show win3_3.index t (1 : Fin 2) * 128 + 1 * q.val = q.val; omega

/-- The input blocks of region 3 at a grid point, entry by entry, are the operand arrays where the point's rows lie. -/
theorem lin3_read_0 (c : Dev nD) (t : Fin cfg3.N) (p : Fin 10000) (k : Fin 128) :
    (iblk3 V c 0 t : Vec Ideal S10000x128 .f32) (ix2 p k) = V c main_v1 (ix2 (lin0_blockRow t p) k) :=
  show V c main_v1 (((cfg3.win 0).blk t).view.emb (ix2 p k)) = _ from congrArg _ (lin3_emb_0 t p k)
theorem lin3_read_1 (c : Dev nD) (t : Fin cfg3.N) (k : Fin 128) (q : Fin 128) :
    (iblk3 V c 1 t : Vec Ideal S128x128 .f32) (ix2 k q) = V c main_v41 (ix2 k q) :=
  show V c main_v41 (((cfg3.win 1).blk t).view.emb (ix2 k q)) = _ from congrArg _ (lin3_emb_1 t k q)
theorem lin3_read_2 (c : Dev nD) (t : Fin cfg3.N) (z : Fin 1) (q : Fin 128) :
    (iblk3 V c 2 t : Vec Ideal S1x128 .f32) (ix2 z q) = V c main_v47 (ix2 z q) :=
  show V c main_v47 (((cfg3.win 2).blk t).view.emb (ix2 z q)) = _ from congrArg _ (lin3_emb_2 t z q)

/-- The affine layer with positive part of region 3 as one array of the operand arrays. -/
abbrev lin3_G (c : Dev nD) : S500000x128.Idx → EReal :=
  Spec.unc (Spec.linearRelu (Spec.cur (V c main_v1)) (Spec.cur (V c main_v41)) (Spec.row (V c main_v47)))

/-- What grid point `t` writes back is block `t` of that array. -/
theorem lin3_flushed_eq (c : Dev nD) (t : Fin cfg3.N) :
    (dat3 V c).flushed 3 t = ((cfg3.win 3).blk t).view.read (Elt Ideal) (lin3_G V c) := by
  show (cfg3.win 3).cut (grid3.coords t) ((dat3 V c).after 3 t) = _
  rw [after3_3]
  unfold out3_3
  rw [View.canon_unit_zero lin0_zeroOff]
  simp only [View.ld_unit_zero (S := S10000x128) lin0_zeroOff, View.ld_unit_zero (S := S128x128) lin0_zeroOff, View.ld_unit_zero (S := S1x128) lin0_zeroOff]
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (ix2 p q) = lin3_G V c (((cfg3.win 3).blk t).view.emb (ix2 p q))
  rw [lin3_pay_apply, lin3_emb_3, lin3_read_2]
  simp only [lin3_read_0, lin3_read_1]
  rfl

/-- An index of the array is in point `t`'s block iff each coordinate is in the block's range on its axis. -/
theorem lin3_mem_blk (t : Fin cfg3.N) (i : S500000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v48).slice (win3_3.rect t)).set ↔ _
  rw [View.set_slice_whole, Rect.mem_set_unit]
  exact Iff.rfl

/-- Every row lies in the block of the point numbered by the row's quotient by the block height. -/
theorem lin3_cover (i : S500000x128.Idx) :
    ∃ t : Fin cfg3.N, (cfg3.win 3).flush t = true ∧ i ∈ ((cfg3.win 3).blk t).view.set := by
  have hi0 : (i 0).val < 500000 := (i 0).isLt
  have hi1 : (i 1).val < 128 := (i 1).isLt
  obtain ⟨t, ht⟩ : ∃ t : Fin cfg3.N, t.val = (i 0).val / 10000 := ⟨⟨(i 0).val / 10000, by show _ < 50; omega⟩, rfl⟩
  obtain ⟨-, -, -, -, -, -, e0, e1⟩ := lin3_index t
  refine ⟨t, flush3_3 t, ?_⟩
  rw [lin3_mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- REGION 3: after all grid points have written back, the output array is the affine layer with positive part of the operand arrays. -/
theorem final3 (c : Dev nD) : (dat3 V c).arrAt 3 cfg3.N
    = Spec.unc (Spec.linearRelu (Spec.cur (V c main_v1)) (Spec.cur (V c main_v41)) (Spec.row (V c main_v47))) :=
  (dat3 V c).arrAt_eq_of_cover 3 (lin3_G V c) (fun t _ => lin3_flushed_eq V c t) lin3_cover

end Cert.KernelIdeal.RegionValue
end
-- ==== Proof.KReg12.lean ====
/-
  Regions 1 and 2 of the kernel program: the first layer's two mean-aggregation combines.

  Both regions run the same kernel, over 100000 rows in 10 blocks and over 80000 rows in 8 blocks. A block holds
  10000 rows of the neighbour sums [rows,128] and of the reciprocal neighbour counts [rows,1]; the weight matrix
  [128,128] and the bias [1,128] are whole at every point. At row `p`, column `q` of a block the kernel computes
  `max ((∑ k, (s p k * inv p) * W k q) + b q) 0`: the row of sums scaled by the row's reciprocal count, through the
  weight matrix, plus the bias, positive part. An output row depends on the same row of the row-blocked operands only,
  and block `t` holds rows `10000 t … 10000 t + 9999`; so what point `t` writes back is block `t` of ONE function
  of the whole operand arrays (`Spec.sageCombine`), and since the blocks tile the rows (row `r` is in block
  `r / 10000`) the output array ends holding that function.
-/
import proofs.«422063_j25211458027581_2_alg».proof.Proof.Gen.KernelIdeal.Frame
import proofs.«422063_j25211458027581_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The combine's payload at an index -/

/-- The dot's left operand index keeps the output's row. -/
theorem sageDot_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The dot's left operand index has the contraction index as its column. -/
theorem sageDot_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The dot's right operand index has the contraction index as its row. -/
theorem sageDot_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The dot's right operand index keeps the output's column. -/
theorem sageDot_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's matrix product into the zero accumulator, at row `p` and column `q`: the sum over the contraction
    coordinate of the products of the left operand's row and the right operand's column. -/
theorem sageMatmul_apply (a : FVec Ideal S10000x128 .f32) (w : FVec Ideal S128x128 .f32) (p : Fin 10000) (q : Fin 128) :
    matmul dot_S10000x128_S128x128_S10000x128_1_0_0_1_n_n (some .fp32) a w (constant (F := Ideal) S10000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact sageDot_lhs_0 _ _
    | ⟨1, _⟩ => exact (sageDot_lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (sageDot_rhs_0 _ _).trans hk
    | ⟨1, _⟩ => exact sageDot_rhs_1 _ _)
  rw [el, er]

/-- A one-column block broadcast along the columns reads its row's entry. -/
theorem sageBcastCol_apply (x : FVec Ideal S10000x1 .f32) (h : S10000x1.Broadcasts S10000x128) (p : Fin 10000) (q : Fin 128) :
    broadcastTo S10000x128 x h (ix2 p q) = x (ix2 p (0 : Fin 1)) :=
  broadcastTo_apply x h (ix2 p q) (ix2 p (0 : Fin 1)) (fun a => by
    match a with
    | ⟨0, _⟩ => rfl
    | ⟨1, _⟩ => rfl)

/-- A one-row block broadcast along the rows reads its column's entry. -/
theorem sageBcastRow_apply (x : FVec Ideal S1x128 .f32) (h : S1x128.Broadcasts S10000x128) (p : Fin 10000) (q : Fin 128) :
    broadcastTo S10000x128 x h (ix2 p q) = x (ix2 (0 : Fin 1) q) :=
  broadcastTo_apply x h (ix2 p q) (ix2 (0 : Fin 1) q) (fun a => by
    match a with
    | ⟨0, _⟩ => rfl
    | ⟨1, _⟩ => rfl)

/-- The combine's payload at row `p` and column `q` of a block: the row of neighbour sums scaled by the row's
    reciprocal count, through the weight matrix, plus the bias, positive part. -/
theorem sagePay1_apply (x0 : Vec Ideal S10000x128 .f32) (x1 : Vec Ideal S10000x1 .f32) (x2 : Vec Ideal S128x128 .f32)
    (x3 : Vec Ideal S1x128 .f32) (p : Fin 10000) (q : Fin 128) :
    k1_pay1 x0 x1 x2 x3 (ix2 p q)
      = max ((∑ k : Fin 128, (x0 (ix2 p k) * x1 (ix2 p (0 : Fin 1))) * x2 (ix2 k q)) + x3 (ix2 (0 : Fin 1) q)) 0 := by
  unfold k1_pay1
  rw [maximumf_apply, addf_apply, broadcast_apply, sageMatmul_apply, sageBcastRow_apply]
  simp only [shapeCast_self, mulf_apply, sageBcastCol_apply]
  rw [show (Scalar.ofBits .f32 0x00000000#32 : Ideal .f32) = 0 from Ideal.ofBits_zero_f32]

/-- The second combine's kernel has the same payload. -/
theorem sagePay2_apply (x0 : Vec Ideal S10000x128 .f32) (x1 : Vec Ideal S10000x1 .f32) (x2 : Vec Ideal S128x128 .f32)
    (x3 : Vec Ideal S1x128 .f32) (p : Fin 10000) (q : Fin 128) :
    k2_pay1 x0 x1 x2 x3 (ix2 p q)
      = max ((∑ k : Fin 128, (x0 (ix2 p k) * x1 (ix2 p (0 : Fin 1))) * x2 (ix2 k q)) + x3 (ix2 (0 : Fin 1) q)) 0 := by
  unfold k2_pay1
  rw [maximumf_apply, addf_apply, broadcast_apply, sageMatmul_apply, sageBcastRow_apply]
  simp only [shapeCast_self, mulf_apply, sageBcastCol_apply]
  rw [show (Scalar.ofBits .f32 0x00000000#32 : Ideal .f32) = 0 from Ideal.ofBits_zero_f32]

/-- The zero offsets of a whole-block access, however they are spelt. -/
theorem zeroOffsets : (![0, 0] : Fin 2 → Nat) = fun _ => 0 :=
  funext fun a => by match a with | ⟨0, _⟩ => rfl | ⟨1, _⟩ => rfl

/-! ## Region 1: the combine over 100000 rows, in 10 blocks of 10000 rows -/

section Region1
variable (V : (c : Dev nD) → (b : Ref sig .tc) → Buf (Elt Ideal) ((c : Thread nD τ).loc b))

/-- The neighbour sums as the region finds them. -/
abbrev sums1 (c : Dev nD) : S100000x128.Idx → EReal := V c main_v6
/-- The reciprocal neighbour counts as the region finds them. -/
abbrev invs1 (c : Dev nD) : S100000x1.Idx → EReal := V c main_v13
/-- The weight matrix as the region finds it. -/
abbrev wts1 (c : Dev nD) : S128x128.Idx → EReal := V c main_v26
/-- The bias row as the region finds it. -/
abbrev bias1 (c : Dev nD) : S1x128.Idx → EReal := V c main_v29

/-- The whole output: the combine of the four operand arrays, row by row. -/
abbrev combined1 (c : Dev nD) : S100000x128.Idx → EReal :=
  Spec.unc (Spec.sageCombine (Spec.cur (sums1 V c)) (Spec.col (invs1 V c)) (Spec.cur (wts1 V c)) (Spec.row (bias1 V c)))

/-- The index maps over the grid: the row-blocked windows sit at block `t` of the rows, the weight and bias windows
    at the one block there is. -/
theorem sage1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the block of neighbour sums at point `t` is row `10000 t + p` of the array. -/
theorem sage1_blk0 (c : Dev nD) (t : Fin cfg1.N) (p : Fin 10000) (k : Fin 128) (r : Fin 100000)
    (hr : r.val = t.val * 10000 + p.val) :
    (iblk1 V c 0 t : Vec Ideal S10000x128 .f32) (ix2 p k) = sums1 V c (ix2 r k) := by
  obtain ⟨e0, e1, -⟩ := sage1_idx_facts t
  show V c main_v6 (((cfg1.win 0).blk t).view.emb (ix2 p k)) = V c main_v6 (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- Row `p` of the block of reciprocal counts at point `t` is row `10000 t + p` of the array. -/
theorem sage1_blk1 (c : Dev nD) (t : Fin cfg1.N) (p : Fin 10000) (r : Fin 100000)
    (hr : r.val = t.val * 10000 + p.val) :
    (iblk1 V c 1 t : Vec Ideal S10000x1 .f32) (ix2 p (0 : Fin 1)) = invs1 V c (ix2 r (0 : Fin 1)) := by
  obtain ⟨-, -, e0, e1, -⟩ := sage1_idx_facts t
  show V c main_v13 (((cfg1.win 1).blk t).view.emb (ix2 p (0 : Fin 1))) = V c main_v13 (ix2 r (0 : Fin 1))
  refine congrArg _ (funext fun a => Fin.ext ?_)
  match a with
  | ⟨0, _⟩ => show win1_1.index t (0 : Fin 2) * 10000 + 1 * p.val = r.val; omega
  | ⟨1, _⟩ => show win1_1.index t (1 : Fin 2) * 1 + 1 * (0 : Fin 1).val = (0 : Fin 1).val; omega

/-- The weight window's block is the whole matrix, at every point. -/
theorem sage1_blk2 (c : Dev nD) (t : Fin cfg1.N) (k : Fin 128) (q : Fin 128) :
    (iblk1 V c 2 t : Vec Ideal S128x128 .f32) (ix2 k q) = wts1 V c (ix2 k q) := by
  obtain ⟨-, -, -, -, e0, e1, -⟩ := sage1_idx_facts t
  show V c main_v26 (((cfg1.win 2).blk t).view.emb (ix2 k q)) = V c main_v26 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias window's block is the whole row, at every point. -/
theorem sage1_blk3 (c : Dev nD) (t : Fin cfg1.N) (q : Fin 128) :
    (iblk1 V c 3 t : Vec Ideal S1x128 .f32) (ix2 (0 : Fin 1) q) = bias1 V c (ix2 (0 : Fin 1) q) := by
  obtain ⟨-, -, -, -, -, -, e0, e1, -⟩ := sage1_idx_facts t
  show V c main_v29 (((cfg1.win 3).blk t).view.emb (ix2 (0 : Fin 1) q)) = V c main_v29 (ix2 (0 : Fin 1) q)
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- Row `p`, column `q` of the output's block at point `t` sits at row `10000 t + p`, column `q` of the array. -/
theorem sage1_emb4 (t : Fin cfg1.N) (p : Fin 10000) (q : Fin 128) (r : Fin 100000)
    (hr : r.val = t.val * 10000 + p.val) :
    ((cfg1.win 4).blk t).view.emb (ix2 p q) = (ix2 r q : S100000x128.Idx) := by
  obtain ⟨-, -, -, -, -, -, -, -, e0, e1⟩ := sage1_idx_facts t
  refine funext fun a => Fin.ext ?_
  match a with
  | ⟨0, _⟩ => show win1_4.index t (0 : Fin 2) * 10000 + 1 * p.val = r.val; omega
  | ⟨1, _⟩ => show win1_4.index t (1 : Fin 2) * 128 + 1 * q.val = q.val; omega

/-- WHAT POINT `t` WRITES BACK is block `t` of the combine of the whole operand arrays: the payload at a row of the
    block only reads that row of the row-blocked operands, and the whole weight matrix and bias. -/
theorem sage1_flushed_eq (c : Dev nD) (t : Fin cfg1.N) :
    (dat1 V c).flushed 4 t = ((cfg1.win 4).blk t).view.read (Elt Ideal) (combined1 V c) := by
  show (cfg1.win 4).cut (grid1.coords t) ((dat1 V c).after 4 t) = _
  rw [after1_4]
  unfold out1_4
  rw [View.canon_unit_zero zeroOffsets]
  simp only [View.ld_unit_zero (S := S10000x128) zeroOffsets, View.ld_unit_zero (S := S10000x1) zeroOffsets,
    View.ld_unit_zero (S := S128x128) zeroOffsets, View.ld_unit_zero (S := S1x128) zeroOffsets]
  funext j
  obtain ⟨p, q, rfl⟩ : ∃ (p : Fin 10000) (q : Fin 128), j = ix2 p q := ⟨j 0, j 1, eq_ix2 j⟩
  have ht : t.val < 10 := t.isLt.trans_eq N_1
  have hp : p.val < 10000 := p.isLt
  let r : Fin 100000 := ⟨t.val * 10000 + p.val, by omega⟩
  have hr : r.val = t.val * 10000 + p.val := rfl
  show k1_pay1 (iblk1 V c 0 t) (iblk1 V c 1 t) (iblk1 V c 2 t) (iblk1 V c 3 t) (ix2 p q)
    = combined1 V c (((cfg1.win 4).blk t).view.emb (ix2 p q))
  rw [sage1_emb4 t p q r hr]
  refine (sagePay1_apply (iblk1 V c 0 t) (iblk1 V c 1 t) (iblk1 V c 2 t) (iblk1 V c 3 t) p q).trans ?_
  show _ = max ((∑ k : Fin 128, (sums1 V c (ix2 r k) * invs1 V c (ix2 r (0 : Fin 1))) * wts1 V c (ix2 k q))
    + bias1 V c (ix2 (0 : Fin 1) q)) 0
  refine congrArg (fun z => max z 0) ?_
  refine congrArg₂ (· + ·) (Finset.sum_congr rfl fun k _ => ?_) (sage1_blk3 V c t q)
  exact congrArg₂ (· * ·) (congrArg₂ (· * ·) (sage1_blk0 V c t p k r hr) (sage1_blk1 V c t p r hr)) (sage1_blk2 V c t k q)

/-- An index of the array is in point `t`'s block iff each coordinate is in the block's range on its axis. -/
theorem sage1_mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v30).slice (win1_4.rect t)).set ↔ _
  rw [View.set_slice_whole, Rect.mem_set_unit]
  exact Iff.rfl

/-- Row `r` of the array is in the block of point `r / 10000`. -/
theorem sage1_cover (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  let t : Fin cfg1.N := ⟨(i 0).val / 10000, (show (i 0).val / 10000 < 10 by omega).trans_eq N_1.symm⟩
  have htv : t.val = (i 0).val / 10000 := rfl
  obtain ⟨-, -, -, -, -, -, -, -, e0, e1⟩ := sage1_idx_facts t
  refine ⟨t, flush1_4 t, ?_⟩
  rw [sage1_mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- THE OUTPUT ARRAY after the region: the combine of the region's four operand arrays, row by row. -/
theorem final1 (c : Dev nD) : (dat1 V c).arrAt 4 cfg1.N
    = Spec.unc (Spec.sageCombine (Spec.cur (V c main_v6)) (Spec.col (V c main_v13)) (Spec.cur (V c main_v26)) (Spec.row (V c main_v29))) :=
  (dat1 V c).arrAt_eq_of_cover 4 (combined1 V c) (fun t _ => sage1_flushed_eq V c t) sage1_cover

end Region1

/-! ## Region 2: the combine over 80000 rows, in 8 blocks of 10000 rows -/

section Region2
variable (V : (c : Dev nD) → (b : Ref sig .tc) → Buf (Elt Ideal) ((c : Thread nD τ).loc b))

/-- The neighbour sums as the region finds them. -/
abbrev sums2 (c : Dev nD) : S80000x128.Idx → EReal := V c main_v17
/-- The reciprocal neighbour counts as the region finds them. -/
abbrev invs2 (c : Dev nD) : S80000x1.Idx → EReal := V c main_v24
/-- The weight matrix as the region finds it. -/
abbrev wts2 (c : Dev nD) : S128x128.Idx → EReal := V c main_v32
/-- The bias row as the region finds it. -/
abbrev bias2 (c : Dev nD) : S1x128.Idx → EReal := V c main_v35

/-- The whole output: the combine of the four operand arrays, row by row. -/
abbrev combined2 (c : Dev nD) : S80000x128.Idx → EReal :=
  Spec.unc (Spec.sageCombine (Spec.cur (sums2 V c)) (Spec.col (invs2 V c)) (Spec.cur (wts2 V c)) (Spec.row (bias2 V c)))

/-- The index maps over the grid: the row-blocked windows sit at block `t` of the rows, the weight and bias windows
    at the one block there is. -/
theorem sage2_idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the block of neighbour sums at point `t` is row `10000 t + p` of the array. -/
theorem sage2_blk0 (c : Dev nD) (t : Fin cfg2.N) (p : Fin 10000) (k : Fin 128) (r : Fin 80000)
    (hr : r.val = t.val * 10000 + p.val) :
    (iblk2 V c 0 t : Vec Ideal S10000x128 .f32) (ix2 p k) = sums2 V c (ix2 r k) := by
  obtain ⟨e0, e1, -⟩ := sage2_idx_facts t
  show V c main_v17 (((cfg2.win 0).blk t).view.emb (ix2 p k)) = V c main_v17 (ix2 r k)
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- Row `p` of the block of reciprocal counts at point `t` is row `10000 t + p` of the array. -/
theorem sage2_blk1 (c : Dev nD) (t : Fin cfg2.N) (p : Fin 10000) (r : Fin 80000)
    (hr : r.val = t.val * 10000 + p.val) :
    (iblk2 V c 1 t : Vec Ideal S10000x1 .f32) (ix2 p (0 : Fin 1)) = invs2 V c (ix2 r (0 : Fin 1)) := by
  obtain ⟨-, -, e0, e1, -⟩ := sage2_idx_facts t
  show V c main_v24 (((cfg2.win 1).blk t).view.emb (ix2 p (0 : Fin 1))) = V c main_v24 (ix2 r (0 : Fin 1))
  refine congrArg _ (funext fun a => Fin.ext ?_)
  match a with
  | ⟨0, _⟩ => show win2_1.index t (0 : Fin 2) * 10000 + 1 * p.val = r.val; omega
  | ⟨1, _⟩ => show win2_1.index t (1 : Fin 2) * 1 + 1 * (0 : Fin 1).val = (0 : Fin 1).val; omega

/-- The weight window's block is the whole matrix, at every point. -/
theorem sage2_blk2 (c : Dev nD) (t : Fin cfg2.N) (k : Fin 128) (q : Fin 128) :
    (iblk2 V c 2 t : Vec Ideal S128x128 .f32) (ix2 k q) = wts2 V c (ix2 k q) := by
  obtain ⟨-, -, -, -, e0, e1, -⟩ := sage2_idx_facts t
  show V c main_v32 (((cfg2.win 2).blk t).view.emb (ix2 k q)) = V c main_v32 (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias window's block is the whole row, at every point. -/
theorem sage2_blk3 (c : Dev nD) (t : Fin cfg2.N) (q : Fin 128) :
    (iblk2 V c 3 t : Vec Ideal S1x128 .f32) (ix2 (0 : Fin 1) q) = bias2 V c (ix2 (0 : Fin 1) q) := by
  obtain ⟨-, -, -, -, -, -, e0, e1, -⟩ := sage2_idx_facts t
  show V c main_v35 (((cfg2.win 3).blk t).view.emb (ix2 (0 : Fin 1) q)) = V c main_v35 (ix2 (0 : Fin 1) q)
  refine congrArg _ (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-- Row `p`, column `q` of the output's block at point `t` sits at row `10000 t + p`, column `q` of the array. -/
theorem sage2_emb4 (t : Fin cfg2.N) (p : Fin 10000) (q : Fin 128) (r : Fin 80000)
    (hr : r.val = t.val * 10000 + p.val) :
    ((cfg2.win 4).blk t).view.emb (ix2 p q) = (ix2 r q : S80000x128.Idx) := by
  obtain ⟨-, -, -, -, -, -, -, -, e0, e1⟩ := sage2_idx_facts t
  refine funext fun a => Fin.ext ?_
  match a with
  | ⟨0, _⟩ => show win2_4.index t (0 : Fin 2) * 10000 + 1 * p.val = r.val; omega
  | ⟨1, _⟩ => show win2_4.index t (1 : Fin 2) * 128 + 1 * q.val = q.val; omega

/-- WHAT POINT `t` WRITES BACK is block `t` of the combine of the whole operand arrays: the payload at a row of the
    block only reads that row of the row-blocked operands, and the whole weight matrix and bias. -/
theorem sage2_flushed_eq (c : Dev nD) (t : Fin cfg2.N) :
    (dat2 V c).flushed 4 t = ((cfg2.win 4).blk t).view.read (Elt Ideal) (combined2 V c) := by
  show (cfg2.win 4).cut (grid2.coords t) ((dat2 V c).after 4 t) = _
  rw [after2_4]
  unfold out2_4
  rw [View.canon_unit_zero zeroOffsets]
  simp only [View.ld_unit_zero (S := S10000x128) zeroOffsets, View.ld_unit_zero (S := S10000x1) zeroOffsets,
    View.ld_unit_zero (S := S128x128) zeroOffsets, View.ld_unit_zero (S := S1x128) zeroOffsets]
  funext j
  obtain ⟨p, q, rfl⟩ : ∃ (p : Fin 10000) (q : Fin 128), j = ix2 p q := ⟨j 0, j 1, eq_ix2 j⟩
  have ht : t.val < 8 := t.isLt.trans_eq N_2
  have hp : p.val < 10000 := p.isLt
  let r : Fin 80000 := ⟨t.val * 10000 + p.val, by omega⟩
  have hr : r.val = t.val * 10000 + p.val := rfl
  show k2_pay1 (iblk2 V c 0 t) (iblk2 V c 1 t) (iblk2 V c 2 t) (iblk2 V c 3 t) (ix2 p q)
    = combined2 V c (((cfg2.win 4).blk t).view.emb (ix2 p q))
  rw [sage2_emb4 t p q r hr]
  refine (sagePay2_apply (iblk2 V c 0 t) (iblk2 V c 1 t) (iblk2 V c 2 t) (iblk2 V c 3 t) p q).trans ?_
  show _ = max ((∑ k : Fin 128, (sums2 V c (ix2 r k) * invs2 V c (ix2 r (0 : Fin 1))) * wts2 V c (ix2 k q))
    + bias2 V c (ix2 (0 : Fin 1) q)) 0
  refine congrArg (fun z => max z 0) ?_
  refine congrArg₂ (· + ·) (Finset.sum_congr rfl fun k _ => ?_) (sage2_blk3 V c t q)
  exact congrArg₂ (· * ·) (congrArg₂ (· * ·) (sage2_blk0 V c t p k r hr) (sage2_blk1 V c t p r hr)) (sage2_blk2 V c t k q)

/-- An index of the array is in point `t`'s block iff each coordinate is in the block's range on its axis. -/
theorem sage2_mem_blk (t : Fin cfg2.N) (i : S80000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v36).slice (win2_4.rect t)).set ↔ _
  rw [View.set_slice_whole, Rect.mem_set_unit]
  exact Iff.rfl

/-- Row `r` of the array is in the block of point `r / 10000`. -/
theorem sage2_cover (i : S80000x128.Idx) :
    ∃ t : Fin cfg2.N, (cfg2.win 4).flush t = true ∧ i ∈ ((cfg2.win 4).blk t).view.set := by
  have hi0 : (i 0).val < 80000 := idx2_lt0 i
  have hi1 : (i 1).val < 128 := idx2_lt1 i
  let t : Fin cfg2.N := ⟨(i 0).val / 10000, (show (i 0).val / 10000 < 8 by omega).trans_eq N_2.symm⟩
  have htv : t.val = (i 0).val / 10000 := rfl
  obtain ⟨-, -, -, -, -, -, -, -, e0, e1⟩ := sage2_idx_facts t
  refine ⟨t, flush2_4 t, ?_⟩
  rw [sage2_mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 128 ≤ (i 1).val ∧ (i 1).val < win2_4.index t (1 : Fin 2) * 128 + 128; omega

/-- THE OUTPUT ARRAY after the region: the combine of the region's four operand arrays, row by row. -/
theorem final2 (c : Dev nD) : (dat2 V c).arrAt 4 cfg2.N
    = Spec.unc (Spec.sageCombine (Spec.cur (V c main_v17)) (Spec.col (V c main_v24)) (Spec.cur (V c main_v32)) (Spec.row (V c main_v35))) :=
  (dat2 V c).arrAt_eq_of_cover 4 (combined2 V c) (fun t _ => sage2_flushed_eq V c t) sage2_cover

end Region2

end Cert.KernelIdeal.RegionValue

end
-- ==== Proof.KReg4.lean ====
/-
  Region 4 of the kernel program: the fused second layer and classifier, as one function of the operand arrays.

  The region's grid has 50 points; point `t` reads rows `10000 t … 10000 t + 9999` of the five row-blocked operands
  (the two neighbour sums, their two reciprocal-count columns, the nodes' own features), the whole of the three weight
  matrices, of the bias row, of the classifier column and of its one-entry bias, and writes rows
  `10000 t … 10000 t + 9999` of the one-column result. The body's value at a row of its blocks is, entry by entry, the
  row function `Spec.layer2` of those blocks: each product into the zero splat is the sum over the contracted axis,
  the column broadcasts read their row, the row broadcasts read their column, and the positive part is the maximum
  with zero. Since every block row is a row of the whole arrays and the 50 output blocks tile the result array, the
  result array after the region is `Spec.layer2` of the whole operand arrays, laid out as one column.
-/
import proofs.«422063_j25211458027581_2_alg».proof.Proof.Gen.KernelIdeal.Frame
import proofs.«422063_j25211458027581_2_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat Cfg Window)

/-- A one-column array `[a, 1]` broadcast to `[a, b]` reads, at `(p, c)`, the operand's row `p`. -/
theorem l2_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The hidden-layer product: `[10000,128] × [128,128]` -/

/-- The four axis readings of the hidden-layer product's operand indices: the left operand at (row of the output, contracted
    coordinate), the right operand at (contracted coordinate, column of the output). -/
theorem l2_lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem l2_lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem l2_rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem l2_rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero splat, at `(p, q)`: row `p` of the left operand against column `q` of the right. -/
theorem l2_matmulA_apply (x : FVec Ideal S10000x128 .f32) (w : FVec Ideal S128x128 .f32) (p : Fin 10000) (q : Fin 128) :
    matmul dot_S10000x128_S128x128_S10000x128_1_0_0_1_n_n (some .fp32) x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n (some .fp32) x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact l2_lhsA_0 _ _
    | ⟨1, _⟩ => exact (l2_lhsA_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (l2_rhsA_0 _ _).trans hk
    | ⟨1, _⟩ => exact l2_rhsA_1 _ _)
  rw [el, er]

/-! ## The classifier's product: `[10000,128] × [128,1]` -/

/-- The same four axis readings for the one-column product. -/
theorem l2_lhsB_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem l2_lhsB_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem l2_rhsB_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem l2_rhsB_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- The one-column product into the zero splat, at `(p, z)`: row `p` of the left operand against the one column. -/
theorem l2_matmulB_apply (x : FVec Ideal S10000x128 .f32) (w : FVec Ideal S128x1 .f32) (p : Fin 10000) (z : Fin 1) :
    matmul dot_S10000x128_S128x1_S10000x1_1_0_0_1_n_n (some .fp32) x w (constant (F := Ideal) S10000x1 .f32 0x00000000#32) (ix2 p z)
      = ∑ k : Fin 128, x (ix2 p k) * w (ix2 k z) := by
  refine (Ideal.matmul_constant_zero_apply dot_S10000x128_S128x1_S10000x1_1_0_0_1_n_n (some .fp32) x w (ix2 p z)).trans ?_
  rw [← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p z) ((contrEquiv1 dot_S10000x128_S128x1_S10000x1_1_0_0_1_n_n 128 rfl rfl).symm k) = ix2 p k := funext fun a => Fin.ext (by
    match a with
    | ⟨0, _⟩ => exact l2_lhsB_0 _ _
    | ⟨1, _⟩ => exact (l2_lhsB_1 _ _).trans hk)
  have er : dot_S10000x128_S128x1_S10000x1_1_0_0_1_n_n.rhsIdx (ix2 p z) ((contrEquiv1 dot_S10000x128_S128x1_S10000x1_1_0_0_1_n_n 128 rfl rfl).symm k) = ix2 k z := funext fun a => Fin.ext (by
    match a with
    | ⟨0, _⟩ => exact (l2_rhsB_0 _ _).trans hk
    | ⟨1, _⟩ => exact l2_rhsB_1 _ _)
  rw [el, er]

/-! ## The body's value at a row -/

/-- The body's value at row `p` of its blocks: the two mean aggregations through their weight matrices, the row's own
    features through the third, the bias, the positive part; then the one-column classifier and its bias. -/
theorem l2_pay_apply (x0 : Vec Ideal S10000x128 .f32) (x1 : Vec Ideal S10000x1 .f32) (x2 : Vec Ideal S10000x128 .f32)
    (x3 : Vec Ideal S10000x1 .f32) (x4 : Vec Ideal S10000x128 .f32) (x5 x6 x7 : Vec Ideal S128x128 .f32)
    (x8 : Vec Ideal S1x128 .f32) (x9 : Vec Ideal S128x1 .f32) (x10 : Vec Ideal S1x1 .f32) (p : Fin 10000) (z : Fin 1) :
    k4_pay1 (k4_pay2 x0 x1 x2 x3 x4 x5 x6 x7 x8 x9) x10 (ix2 p z)
      = (∑ j : Fin 128, max ((((∑ k : Fin 128, (x0 (ix2 p k) * x1 (ix2 p (0 : Fin 1))) * x5 (ix2 k j))
            + (∑ k : Fin 128, (x2 (ix2 p k) * x3 (ix2 p (0 : Fin 1))) * x6 (ix2 k j)))
            + (∑ k : Fin 128, x4 (ix2 p k) * x7 (ix2 k j))) + x8 (ix2 (0 : Fin 1) j)) 0 * x9 (ix2 j z))
        + x10 (ix2 (0 : Fin 1) z) := by
  unfold k4_pay1 k4_pay2
  set_option maxHeartbeats 400000 in
  simp only [shapeCast_self, addf_apply, mulf_apply, maximumf_apply, broadcast_apply, l2_matmulA_apply, l2_matmulB_apply,
    l2_broadcastTo_a1_ab_apply, broadcastTo_1b_ab_apply]
  rw [show (FloatOps.ofBits (F := Ideal) FTy.f32 0x00000000#32 : Ideal .f32) = 0 from Ideal.ofBits_zero_f32]

/-- The row of the whole arrays that a row of the blocks is: the body's value there is the second layer and
    classifier of the whole arrays at that row. -/
theorem l2_row (x0 : Vec Ideal S10000x128 .f32) (x1 : Vec Ideal S10000x1 .f32) (x2 : Vec Ideal S10000x128 .f32)
    (x3 : Vec Ideal S10000x1 .f32) (x4 : Vec Ideal S10000x128 .f32) (x5 x6 x7 : Vec Ideal S128x128 .f32)
    (x8 : Vec Ideal S1x128 .f32) (x9 : Vec Ideal S128x1 .f32) (x10 : Vec Ideal S1x1 .f32)
    (A0 : S500000x128.Idx → EReal) (A1 : S500000x1.Idx → EReal) (A2 : S500000x128.Idx → EReal) (A3 : S500000x1.Idx → EReal)
    (A4 : S500000x128.Idx → EReal) (A5 A6 A7 : S128x128.Idx → EReal) (A8 : S1x128.Idx → EReal) (A9 : S128x1.Idx → EReal)
    (A10 : S1x1.Idx → EReal) (r : Fin 500000) (p : Fin 10000) (z : Fin 1)
    (h0 : ∀ k : Fin 128, x0 (ix2 p k) = A0 (ix2 r k)) (h1 : x1 (ix2 p (0 : Fin 1)) = A1 (ix2 r (0 : Fin 1)))
    (h2 : ∀ k : Fin 128, x2 (ix2 p k) = A2 (ix2 r k)) (h3 : x3 (ix2 p (0 : Fin 1)) = A3 (ix2 r (0 : Fin 1)))
    (h4 : ∀ k : Fin 128, x4 (ix2 p k) = A4 (ix2 r k)) (h5 : x5 = A5) (h6 : x6 = A6) (h7 : x7 = A7) (h8 : x8 = A8)
    (h9 : x9 = A9) (h10 : x10 = A10) :
    k4_pay1 (k4_pay2 x0 x1 x2 x3 x4 x5 x6 x7 x8 x9) x10 (ix2 p z)
      = Spec.layer2 (Spec.cur A0) (Spec.col A1) (Spec.cur A2) (Spec.col A3) (Spec.cur A4) (Spec.cur A5) (Spec.cur A6)
          (Spec.cur A7) (Spec.row A8) (Spec.col A9) (A10 (ix2 (0 : Fin 1) (0 : Fin 1))) r := by
  obtain rfl : z = 0 := Subsingleton.elim _ _
  subst h5 h6 h7 h8 h9 h10
  rw [l2_pay_apply]
  unfold Spec.layer2 Spec.cur Spec.col Spec.row
  simp only [h0, h1, h2, h3, h4]

variable (V : (c : Dev nD) → (b : Ref sig .tc) → Buf (Elt Ideal) ((c : Thread nD τ).loc b))

/-! ## From the blocks to the arrays -/

/-- The zero offsets of a whole-buffer access. -/
theorem l2_hz : (![0, 0] : Fin 2 → Nat) = fun _ => 0 := funext fun a => by
  match a with
  | ⟨0, _⟩ => rfl
  | ⟨1, _⟩ => rfl

/-- The printed index maps over the grid: the row-blocked windows are at block row `t`, the weight windows at block 0. -/
theorem l2_idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_11.index t (0 : Fin 2) = t.val ∧ win4_11.index t (1 : Fin 2) = 0) :=
  (by decide +kernel : ∀ t : Fin grid4.N, _)

/-- The weight, bias and classifier windows stay at block 0. -/
theorem l2_idx_whole : ∀ t : Fin cfg4.N,
    (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0) :=
  (by decide +kernel : ∀ t : Fin grid4.N, _)

/-- Window 0's block at point `t` is rows `10000 t … 10000 t + 9999` of its array. -/
theorem l2_iblk0 (c : Dev nD) (t : Fin cfg4.N) (p : Fin 10000) (k : Fin 128) (r : Fin 500000) (hr : r.val = t.val * 10000 + p.val) :
    (iblk4 V c 0 t : Vec Ideal S10000x128 .f32) (ix2 p k) = (V c main_v52 : S500000x128.Idx → EReal) (ix2 r k) := by
  unfold iblk4
  show V c main_v52 (((cfg4.win 0).blk t).view.emb (ix2 p k)) = _
  refine congrArg (V c main_v52) (funext fun a => Fin.ext ?_)
  obtain ⟨⟨e0, e1⟩, -⟩ := l2_idx_rows t
  match a with
  | ⟨0, _⟩ => show win4_0.index t (0 : Fin 2) * 10000 + 1 * p.val = r.val; omega
  | ⟨1, _⟩ => show win4_0.index t (1 : Fin 2) * 128 + 1 * k.val = k.val; omega

/-- Window 1's block at point `t` is rows `10000 t … 10000 t + 9999` of its array. -/
theorem l2_iblk1 (c : Dev nD) (t : Fin cfg4.N) (p : Fin 10000) (k : Fin 1) (r : Fin 500000) (hr : r.val = t.val * 10000 + p.val) :
    (iblk4 V c 1 t : Vec Ideal S10000x1 .f32) (ix2 p k) = (V c main_v59 : S500000x1.Idx → EReal) (ix2 r k) := by
  unfold iblk4
  show V c main_v59 (((cfg4.win 1).blk t).view.emb (ix2 p k)) = _
  refine congrArg (V c main_v59) (funext fun a => Fin.ext ?_)
  obtain ⟨-, ⟨e0, e1⟩, -⟩ := l2_idx_rows t
  match a with
  | ⟨0, _⟩ => show win4_1.index t (0 : Fin 2) * 10000 + 1 * p.val = r.val; omega
  | ⟨1, _⟩ => show win4_1.index t (1 : Fin 2) * 1 + 1 * k.val = k.val; omega

/-- Window 2's block at point `t` is rows `10000 t … 10000 t + 9999` of its array. -/
theorem l2_iblk2 (c : Dev nD) (t : Fin cfg4.N) (p : Fin 10000) (k : Fin 128) (r : Fin 500000) (hr : r.val = t.val * 10000 + p.val) :
    (iblk4 V c 2 t : Vec Ideal S10000x128 .f32) (ix2 p k) = (V c main_v63 : S500000x128.Idx → EReal) (ix2 r k) := by
  unfold iblk4
  show V c main_v63 (((cfg4.win 2).blk t).view.emb (ix2 p k)) = _
  refine congrArg (V c main_v63) (funext fun a => Fin.ext ?_)
  obtain ⟨-, -, ⟨e0, e1⟩, -⟩ := l2_idx_rows t
  match a with
  | ⟨0, _⟩ => show win4_2.index t (0 : Fin 2) * 10000 + 1 * p.val = r.val; omega
  | ⟨1, _⟩ => show win4_2.index t (1 : Fin 2) * 128 + 1 * k.val = k.val; omega

/-- Window 3's block at point `t` is rows `10000 t … 10000 t + 9999` of its array. -/
theorem l2_iblk3 (c : Dev nD) (t : Fin cfg4.N) (p : Fin 10000) (k : Fin 1) (r : Fin 500000) (hr : r.val = t.val * 10000 + p.val) :
    (iblk4 V c 3 t : Vec Ideal S10000x1 .f32) (ix2 p k) = (V c main_v70 : S500000x1.Idx → EReal) (ix2 r k) := by
  unfold iblk4
  show V c main_v70 (((cfg4.win 3).blk t).view.emb (ix2 p k)) = _
  refine congrArg (V c main_v70) (funext fun a => Fin.ext ?_)
  obtain ⟨-, -, -, ⟨e0, e1⟩, -⟩ := l2_idx_rows t
  match a with
  | ⟨0, _⟩ => show win4_3.index t (0 : Fin 2) * 10000 + 1 * p.val = r.val; omega
  | ⟨1, _⟩ => show win4_3.index t (1 : Fin 2) * 1 + 1 * k.val = k.val; omega

/-- Window 4's block at point `t` is rows `10000 t … 10000 t + 9999` of its array. -/
theorem l2_iblk4 (c : Dev nD) (t : Fin cfg4.N) (p : Fin 10000) (k : Fin 128) (r : Fin 500000) (hr : r.val = t.val * 10000 + p.val) :
    (iblk4 V c 4 t : Vec Ideal S10000x128 .f32) (ix2 p k) = (V c main_v48 : S500000x128.Idx → EReal) (ix2 r k) := by
  unfold iblk4
  show V c main_v48 (((cfg4.win 4).blk t).view.emb (ix2 p k)) = _
  refine congrArg (V c main_v48) (funext fun a => Fin.ext ?_)
  obtain ⟨-, -, -, -, ⟨e0, e1⟩, -⟩ := l2_idx_rows t
  match a with
  | ⟨0, _⟩ => show win4_4.index t (0 : Fin 2) * 10000 + 1 * p.val = r.val; omega
  | ⟨1, _⟩ => show win4_4.index t (1 : Fin 2) * 128 + 1 * k.val = k.val; omega

/-- Window 5's one block is its whole array, at every point. -/
theorem l2_iblk5 (c : Dev nD) (t : Fin cfg4.N) :
    (iblk4 V c 5 t : Vec Ideal S128x128 .f32) = (V c main_v82 : S128x128.Idx → EReal) := by
  funext j
  unfold iblk4
  show V c main_v82 (((cfg4.win 5).blk t).view.emb j) = _
  refine congrArg (V c main_v82) (funext fun a => Fin.ext ?_)
  obtain ⟨⟨e0, e1⟩, -⟩ := l2_idx_whole t
  match a with
  | ⟨0, _⟩ => show win4_5.index t (0 : Fin 2) * 128 + 1 * (j 0).val = (j 0).val; omega
  | ⟨1, _⟩ => show win4_5.index t (1 : Fin 2) * 128 + 1 * (j 1).val = (j 1).val; omega

/-- Window 6's one block is its whole array, at every point. -/
theorem l2_iblk6 (c : Dev nD) (t : Fin cfg4.N) :
    (iblk4 V c 6 t : Vec Ideal S128x128 .f32) = (V c main_v84 : S128x128.Idx → EReal) := by
  funext j
  unfold iblk4
  show V c main_v84 (((cfg4.win 6).blk t).view.emb j) = _
  refine congrArg (V c main_v84) (funext fun a => Fin.ext ?_)
  obtain ⟨-, ⟨e0, e1⟩, -⟩ := l2_idx_whole t
  match a with
  | ⟨0, _⟩ => show win4_6.index t (0 : Fin 2) * 128 + 1 * (j 0).val = (j 0).val; omega
  | ⟨1, _⟩ => show win4_6.index t (1 : Fin 2) * 128 + 1 * (j 1).val = (j 1).val; omega

/-- Window 7's one block is its whole array, at every point. -/
theorem l2_iblk7 (c : Dev nD) (t : Fin cfg4.N) :
    (iblk4 V c 7 t : Vec Ideal S128x128 .f32) = (V c main_v75 : S128x128.Idx → EReal) := by
  funext j
  unfold iblk4
  show V c main_v75 (((cfg4.win 7).blk t).view.emb j) = _
  refine congrArg (V c main_v75) (funext fun a => Fin.ext ?_)
  obtain ⟨-, -, ⟨e0, e1⟩, -⟩ := l2_idx_whole t
  match a with
  | ⟨0, _⟩ => show win4_7.index t (0 : Fin 2) * 128 + 1 * (j 0).val = (j 0).val; omega
  | ⟨1, _⟩ => show win4_7.index t (1 : Fin 2) * 128 + 1 * (j 1).val = (j 1).val; omega

/-- Window 8's one block is its whole array, at every point. -/
theorem l2_iblk8 (c : Dev nD) (t : Fin cfg4.N) :
    (iblk4 V c 8 t : Vec Ideal S1x128 .f32) = (V c main_v85 : S1x128.Idx → EReal) := by
  funext j
  unfold iblk4
  show V c main_v85 (((cfg4.win 8).blk t).view.emb j) = _
  refine congrArg (V c main_v85) (funext fun a => Fin.ext ?_)
  obtain ⟨-, -, -, ⟨e0, e1⟩, -⟩ := l2_idx_whole t
  match a with
  | ⟨0, _⟩ => show win4_8.index t (0 : Fin 2) * 1 + 1 * (j 0).val = (j 0).val; omega
  | ⟨1, _⟩ => show win4_8.index t (1 : Fin 2) * 128 + 1 * (j 1).val = (j 1).val; omega

/-- Window 9's one block is its whole array, at every point. -/
theorem l2_iblk9 (c : Dev nD) (t : Fin cfg4.N) :
    (iblk4 V c 9 t : Vec Ideal S128x1 .f32) = (V c main_arg13 : S128x1.Idx → EReal) := by
  funext j
  unfold iblk4
  show V c main_arg13 (((cfg4.win 9).blk t).view.emb j) = _
  refine congrArg (V c main_arg13) (funext fun a => Fin.ext ?_)
  obtain ⟨-, -, -, -, ⟨e0, e1⟩, -⟩ := l2_idx_whole t
  match a with
  | ⟨0, _⟩ => show win4_9.index t (0 : Fin 2) * 128 + 1 * (j 0).val = (j 0).val; omega
  | ⟨1, _⟩ => show win4_9.index t (1 : Fin 2) * 1 + 1 * (j 1).val = (j 1).val; omega

/-- Window 10's one block is its whole array, at every point. -/
theorem l2_iblk10 (c : Dev nD) (t : Fin cfg4.N) :
    (iblk4 V c 10 t : Vec Ideal S1x1 .f32) = (V c main_v86 : S1x1.Idx → EReal) := by
  funext j
  unfold iblk4
  show V c main_v86 (((cfg4.win 10).blk t).view.emb j) = _
  refine congrArg (V c main_v86) (funext fun a => Fin.ext ?_)
  obtain ⟨-, -, -, -, -, ⟨e0, e1⟩⟩ := l2_idx_whole t
  match a with
  | ⟨0, _⟩ => show win4_10.index t (0 : Fin 2) * 1 + 1 * (j 0).val = (j 0).val; omega
  | ⟨1, _⟩ => show win4_10.index t (1 : Fin 2) * 1 + 1 * (j 1).val = (j 1).val; omega

/-- The whole result: the second layer and the classifier at every row of the operand arrays as the region finds them. -/
abbrev l2_G (c : Dev nD) : S500000x1.Idx → EReal :=
  Spec.uncol (Spec.layer2 (Spec.cur (V c main_v52)) (Spec.col (V c main_v59)) (Spec.cur (V c main_v63)) (Spec.col (V c main_v70))
    (Spec.cur (V c main_v48)) (Spec.cur (V c main_v82)) (Spec.cur (V c main_v84)) (Spec.cur (V c main_v75)) (Spec.row (V c main_v85))
    (Spec.col (V c main_arg13)) ((V c main_v86 : S1x1.Idx → EReal) (ix2 (0 : Fin 1) (0 : Fin 1))))

/-- Row `p` of the output's block at point `t` is row `10000 t + p` of the output array. -/
theorem l2_emb11 (t : Fin cfg4.N) (p : Fin 10000) (z : Fin 1) (r : Fin 500000) (hr : r.val = t.val * 10000 + p.val) :
    ((cfg4.win 11).blk t).view.emb (ix2 p z) = (ix2 r z : S500000x1.Idx) := by
  refine funext fun a => Fin.ext ?_
  obtain ⟨-, -, -, -, -, ⟨e0, e1⟩⟩ := l2_idx_rows t
  match a with
  | ⟨0, _⟩ => show win4_11.index t (0 : Fin 2) * 10000 + 1 * p.val = r.val; omega
  | ⟨1, _⟩ => show win4_11.index t (1 : Fin 2) * 1 + 1 * z.val = z.val; omega

/-- What point `t` writes back is block `t` of the whole result. -/
theorem l2_flushed_eq (c : Dev nD) (t : Fin cfg4.N) :
    (dat4 V c).flushed 11 t = ((cfg4.win 11).blk t).view.read (Elt Ideal) (l2_G V c) := by
  show (cfg4.win 11).cut (grid4.coords t) ((dat4 V c).after 11 t) = _
  rw [after4_11]
  unfold out4_11
  rw [View.canon_unit_zero l2_hz]
  simp only [View.ld_unit_zero (S := S10000x128) l2_hz, View.ld_unit_zero (S := S10000x1) l2_hz, View.ld_unit_zero (S := S128x128) l2_hz,
    View.ld_unit_zero (S := S1x128) l2_hz, View.ld_unit_zero (S := S128x1) l2_hz, View.ld_unit_zero (S := S1x1) l2_hz]
  funext j
  obtain ⟨p, z, rfl⟩ : ∃ (p : Fin 10000) (z : Fin 1), j = ix2 p z := ⟨j 0, j 1, eq_ix2 j⟩
  have hN : cfg4.N = 50 := N_4
  have hr : t.val * 10000 + p.val < 500000 := by have := t.isLt; have := p.isLt; omega
  show k4_pay1 (k4_pay2 (iblk4 V c 0 t) (iblk4 V c 1 t) (iblk4 V c 2 t) (iblk4 V c 3 t) (iblk4 V c 4 t) (iblk4 V c 5 t) (iblk4 V c 6 t)
      (iblk4 V c 7 t) (iblk4 V c 8 t) (iblk4 V c 9 t)) (iblk4 V c 10 t) (ix2 p z)
    = l2_G V c (((cfg4.win 11).blk t).view.emb (ix2 p z))
  rw [l2_emb11 t p z ⟨t.val * 10000 + p.val, hr⟩ rfl]
  exact l2_row (iblk4 V c 0 t) (iblk4 V c 1 t) (iblk4 V c 2 t) (iblk4 V c 3 t) (iblk4 V c 4 t) (iblk4 V c 5 t) (iblk4 V c 6 t)
    (iblk4 V c 7 t) (iblk4 V c 8 t) (iblk4 V c 9 t) (iblk4 V c 10 t)
    (V c main_v52) (V c main_v59) (V c main_v63) (V c main_v70) (V c main_v48) (V c main_v82) (V c main_v84) (V c main_v75)
    (V c main_v85) (V c main_arg13) (V c main_v86) ⟨t.val * 10000 + p.val, hr⟩ p z
    (fun k => l2_iblk0 V c t p k _ rfl) (l2_iblk1 V c t p 0 _ rfl) (fun k => l2_iblk2 V c t p k _ rfl) (l2_iblk3 V c t p 0 _ rfl)
    (fun k => l2_iblk4 V c t p k _ rfl) (l2_iblk5 V c t) (l2_iblk6 V c t) (l2_iblk7 V c t) (l2_iblk8 V c t)
    (l2_iblk9 V c t) (l2_iblk10 V c t)

/-- An index of the output array is in point `t`'s block iff each coordinate is in the block's range on its axis. -/
theorem l2_mem_blk (t : Fin cfg4.N) (i : S500000x1.Idx) :
    i ∈ ((cfg4.win 11).blk t).view.set ↔ ∀ a : Fin 2, win4_11.index t a * S10000x1.size a ≤ (i a).val ∧ (i a).val < win4_11.index t a * S10000x1.size a + S10000x1.size a := by
  show i ∈ ((View.whole main_v87).slice (win4_11.rect t)).set ↔ _
  rw [View.set_slice_whole, Rect.mem_set_unit]
  exact Iff.rfl

/-- Every row of the output array is in some point's block: row `r` in that of point `r / 10000`. -/
theorem l2_cover (i : S500000x1.Idx) : ∃ t : Fin cfg4.N, (cfg4.win 11).flush t = true ∧ i ∈ ((cfg4.win 11).blk t).view.set := by
  have hN : cfg4.N = 50 := N_4
  have hi0 : (i 0).val < 500000 := (i 0).isLt
  have hi1 : (i 1).val < 1 := (i 1).isLt
  refine ⟨⟨(i 0).val / 10000, by omega⟩, flush4_11 _, ?_⟩
  rw [l2_mem_blk]
  obtain ⟨-, -, -, -, -, ⟨e0, e1⟩⟩ := l2_idx_rows ⟨(i 0).val / 10000, by omega⟩
  intro a
  match a with
  | ⟨0, _⟩ =>
    show win4_11.index ⟨(i 0).val / 10000, _⟩ (0 : Fin 2) * 10000 ≤ (i 0).val ∧ (i 0).val < win4_11.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win4_11.index ⟨(i 0).val / 10000, _⟩ (1 : Fin 2) * 1 ≤ (i 1).val ∧ (i 1).val < win4_11.index ⟨(i 0).val / 10000, _⟩ (1 : Fin 2) * 1 + 1
    rw [e1]; omega

/-- THE ARRAY after region 4: at every row, the second layer and the classifier of the operand arrays as the region finds them. -/
theorem final4 (c : Dev nD) : (dat4 V c).arrAt 11 cfg4.N
    = Spec.uncol (Spec.layer2 (Spec.cur (V c main_v52)) (Spec.col (V c main_v59)) (Spec.cur (V c main_v63)) (Spec.col (V c main_v70))
        (Spec.cur (V c main_v48)) (Spec.cur (V c main_v82)) (Spec.cur (V c main_v84)) (Spec.cur (V c main_v75)) (Spec.row (V c main_v85))
        (Spec.col (V c main_arg13)) ((V c main_v86 : S1x1.Idx → EReal) (ix2 (0 : Fin 1) (0 : Fin 1)))) :=
  (dat4 V c).arrAt_eq_of_cover 11 (l2_G V c) (fun t _ => l2_flushed_eq V c t) l2_cover

end Cert.KernelIdeal.RegionValue
end
-- ==== Proof.KTake.lean ====
/-
  `jnp.take(src, idx, axis = 0)` at its default mode, as the kernel program's host code spells it: a negative index is
  wrapped by the axis length, the row is gathered at the wrapped index (the gather itself clamps), and a row whose
  wrapped index falls outside `[0, n − 1]` is replaced by the not-a-number pattern. Where every index lies in
  `[0, n)` no row is replaced: the result is the plain gather at the wrapped indices, which is what the reference's
  `src[idx]` computes.
-/
import proofs.«422063_j25211458027581_2_alg».proof.Proof.Gen.KernelIdeal
import Idealize.ShloMosaic.Lib.ValueIdx
import Idealize.ShloMosaic.Lib.Affine
import Idealize.ShloMosaic.PureOps.Reduce

noncomputable section

namespace Cert.KernelIdeal.Glue

open Cert.KernelIdeal Cert.KernelIdeal.Gen Cert.KernelIdeal.Facts Idealize.ShloMosaic Idealize.ShloMosaic.ValueIdx

variable {F : FTy → Type} [FloatOps F]

/-- The indices with the negative ones wrapped by the axis length `n`, as a column `[500000, 1]`. -/
def wrapIdx (n : BitVec 32) (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 n))) idx)

/-- Row by row: is the wrapped index inside `[0, last]`? -/
def inRange (last : BitVec 32) (w : IVec S500000x1 32) : IVec S500000 1 :=
  (fun x v => Host.reduce IntOp.andi x v reducesTo_S500000x1_S500000_d1 h_S_)
    (andi (cmpi .sge w (broadcastInDim S500000x1 ![] bcast_S_S500000x1 (constantI S_ 32 0#32)))
      (cmpi .sle w (broadcastInDim S500000x1 ![0, 1] bcast_S1x1_S500000x1_0_1
        (broadcastInDim S1x1 ![1] bcast_S1_S1x1_1 (constantI S1 32 last)))))
    (constantI S_ 1 1#1)

/-- The gathered rows, a row outside the range replaced by the not-a-number pattern. -/
def nanFill (mask : IVec S500000 1) (g : FVec F S500000x128 .f32) : FVec F S500000x128 .f32 :=
  select (broadcastInDim S500000x128 ![0] bcast_S500000_S500000x128_0 mask) g
    (broadcastInDim S500000x128 ![] bcast_S_S500000x128 (constant S_ .f32 0x7FC00000#32))

/-- `jnp.take` of the rows of a `[500000, 128]` array. -/
def take500k (src : FVec F S500000x128 .f32) (idx : IVec S500000 32) : FVec F S500000x128 .f32 :=
  nanFill (inRange 499999#32 (wrapIdx 500000#32 idx))
    (Host.gather gather_S500000x128_S500000x1_S500000x128_1_0_n_n_0_1_1128 src (wrapIdx 500000#32 idx))

/-- `jnp.take` of the rows of a `[100000, 128]` array. -/
def take100k (src : FVec F S100000x128 .f32) (idx : IVec S500000 32) : FVec F S500000x128 .f32 :=
  nanFill (inRange 99999#32 (wrapIdx 100000#32 idx))
    (Host.gather gather_S100000x128_S500000x1_S500000x128_1_0_n_n_0_1_1128 src (wrapIdx 100000#32 idx))

/-- `jnp.take` of the rows of a `[80000, 128]` array. -/
def take80k (src : FVec F S80000x128 .f32) (idx : IVec S500000 32) : FVec F S500000x128 .f32 :=
  nanFill (inRange 79999#32 (wrapIdx 80000#32 idx))
    (Host.gather gather_S80000x128_S500000x1_S500000x128_1_0_n_n_0_1_1128 src (wrapIdx 80000#32 idx))

/-- Every index read signed lies in `[0, n)`. -/
def InRange (n : Nat) (idx : IVec S500000 32) : Prop :=
  ∀ e : Fin 500000, 0 ≤ (idx (ix1 e)).toInt ∧ (idx (ix1 e)).toInt < (n : ℤ)

/-- A left fold by `and` from the bit 1 over bits that are all 1 is 1. -/
theorem foldl_andi_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := by rw [h a (List.mem_cons_self ..)]; rfl
    rw [List.foldl_cons, ha]
    exact foldl_andi_one f l fun i hi => h i (List.mem_cons_of_mem _ hi)

/-- No index in range is negative: the wrapping select keeps every index. -/
theorem select_wrap (n : BitVec 32) (N : Nat) (idx : IVec S500000 32) (h : InRange N idx) :
    select (cmpi .slt idx (broadcastInDim S500000 ![] bcast_S_S500000 (constantI S_ 32 0#32)))
      (addi idx (broadcastInDim S500000 ![] bcast_S_S500000 (constantI S_ 32 n))) idx = idx := by
  funext k
  obtain ⟨e, rfl⟩ : ∃ e : Fin 500000, k = ix1 e := ⟨k 0, eq_ix1 k⟩
  rw [select_apply]
  have hc : cmpi .slt idx (broadcastInDim S500000 ![] bcast_S_S500000 (constantI S_ 32 0#32)) (ix1 e) = 0#1 := by
    refine eq_zero_of_ne_one fun hc => ?_
    have h1 : (idx (ix1 e)).toInt < (0#32 : BitVec 32).toInt := IntOp.cmpi_slt.1 hc
    have h0 : (0#32 : BitVec 32).toInt = 0 := by decide
    have := (h e).1
    omega
  rw [hc, select_zero]

/-- Every wrapped index is one of the given indices. -/
theorem wrapIdx_apply (n : BitVec 32) (N : Nat) (idx : IVec S500000 32) (h : InRange N idx) (i : S500000x1.Idx) :
    ∃ e : Fin 500000, wrapIdx n idx i = idx (ix1 e) := by
  unfold wrapIdx
  rw [select_wrap n N idx h]
  unfold broadcastInDim
  exact ⟨_, congrArg idx (eq_ix1 _)⟩

/-- With every index in `[0, N)` and `last = N − 1`, every row passes the range test. -/
theorem inRange_wrapIdx (n last : BitVec 32) (N : Nat) (hlast : last.toInt = (N : ℤ) - 1) (idx : IVec S500000 32)
    (h : InRange N idx) : inRange last (wrapIdx n idx) = fun _ => 1#1 := by
  funext j
  unfold inRange
  dsimp only
  rw [Host.reduce_eq_foldl]
  refine foldl_andi_one _ _ fun i _ => ?_
  obtain ⟨e, he⟩ := wrapIdx_apply n N idx h i
  show IntOp.andi (IntOp.cmpi .sge (wrapIdx n idx i) 0#32) (IntOp.cmpi .sle (wrapIdx n idx i) last) = 1#1
  rw [he]
  have h0 : (0#32 : BitVec 32).toInt = 0 := by decide
  refine IntOp.andi_eq_one.2 ⟨IntOp.cmpi_sge.2 ?_, IntOp.cmpi_sle.2 ?_⟩
  · have := (h e).1; omega
  · have := (h e).2; omega

/-- With every index in range no row is replaced. -/
theorem nanFill_inRange (n last : BitVec 32) (N : Nat) (hlast : last.toInt = (N : ℤ) - 1) (idx : IVec S500000 32)
    (h : InRange N idx) (g : FVec F S500000x128 .f32) : nanFill (inRange last (wrapIdx n idx)) g = g := by
  rw [inRange_wrapIdx n last N hlast idx h]
  funext c
  unfold nanFill
  rw [select_apply]
  exact select_one _ _

theorem take500k_eq (src : FVec F S500000x128 .f32) (idx : IVec S500000 32) (h : InRange 500000 idx) :
    take500k src idx = Host.gather gather_S500000x128_S500000x1_S500000x128_1_0_n_n_0_1_1128 src (wrapIdx 500000#32 idx) :=
  nanFill_inRange 500000#32 499999#32 500000 (by decide) idx h _

theorem take100k_eq (src : FVec F S100000x128 .f32) (idx : IVec S500000 32) (h : InRange 100000 idx) :
    take100k src idx = Host.gather gather_S100000x128_S500000x1_S500000x128_1_0_n_n_0_1_1128 src (wrapIdx 100000#32 idx) :=
  nanFill_inRange 100000#32 99999#32 100000 (by decide) idx h _

theorem take80k_eq (src : FVec F S80000x128 .f32) (idx : IVec S500000 32) (h : InRange 80000 idx) :
    take80k src idx = Host.gather gather_S80000x128_S500000x1_S500000x128_1_0_n_n_0_1_1128 src (wrapIdx 80000#32 idx) :=
  nanFill_inRange 80000#32 79999#32 80000 (by decide) idx h _

end Cert.KernelIdeal.Glue

end
-- ==== Proof.KGlue.lean ====
/-
  The kernel program's host code between its dense layers, named: the zero and the one splat, the ids as a column,
  and per destination node set (cards: 100000, e-mail addresses: 80000, transactions: 500000) the segment sum of the
  gathered rows, the edge count per node, and the reciprocal of the count clipped below at one.
-/
import proofs.«422063_j25211458027581_2_alg».proof.Proof.KTake
import proofs.«422063_j25211458027581_2_alg».proof.Proof.Spec

noncomputable section

namespace Cert.KernelIdeal.Glue

open Cert.KernelIdeal Cert.KernelIdeal.Gen Cert.KernelIdeal.Facts Idealize.ShloMosaic Idealize.ShloMosaic.ValueIdx

variable {F : FTy → Type} [FloatOps F]

/-- The zero splat of a shape. -/
def zeros (s : Shape) (h : S_.BroadcastsInDim s (![] : Fin 0 → Fin s.rank)) : FVec F s .f32 :=
  broadcastInDim s ![] h (constant S_ .f32 0x00000000#32)

/-- The splat of one. -/
def ones (s : Shape) (h : S_.BroadcastsInDim s (![] : Fin 0 → Fin s.rank)) : FVec F s .f32 :=
  broadcastInDim s ![] h (constant S_ .f32 0x3F800000#32)

/-- The ids as a column `[500000, 1]`. -/
def ids (i : IVec S500000 32) : IVec S500000x1 32 := broadcastInDim S500000x1 ![0] bcast_S500000_S500000x1_0 i

/-- The segment sum over 100000 destination nodes of the update rows, by the ids. -/
def segC (i : IVec S500000 32) (u : FVec F S500000x128 .f32) : FVec F S100000x128 .f32 :=
  Host.scatterAdd scatter_S100000x128_S500000x1_S500000x128_1_0_0_1 (zeros S100000x128 bcast_S_S100000x128) (ids i) u

/-- How many edges land on each of the 100000 destination nodes. -/
def cntC (i : IVec S500000 32) : FVec F S100000x1 .f32 :=
  Host.scatterAdd scatter_S100000x1_S500000x1_S500000x1_1_0_0_1 (zeros S100000x1 bcast_S_S100000x1) (ids i) (ones S500000x1 bcast_S_S500000x1)

/-- The reciprocal of that count clipped below at one. -/
def invC (i : IVec S500000 32) : FVec F S100000x1 .f32 :=
  Host.divf (ones S100000x1 bcast_S_S100000x1) (maximumf (cntC (F := F) i) (ones S100000x1 bcast_S_S100000x1))

/-- The segment sum over 80000 destination nodes of the update rows, by the ids. -/
def segE (i : IVec S500000 32) (u : FVec F S500000x128 .f32) : FVec F S80000x128 .f32 :=
  Host.scatterAdd scatter_S80000x128_S500000x1_S500000x128_1_0_0_1 (zeros S80000x128 bcast_S_S80000x128) (ids i) u

/-- How many edges land on each of the 80000 destination nodes. -/
def cntE (i : IVec S500000 32) : FVec F S80000x1 .f32 :=
  Host.scatterAdd scatter_S80000x1_S500000x1_S500000x1_1_0_0_1 (zeros S80000x1 bcast_S_S80000x1) (ids i) (ones S500000x1 bcast_S_S500000x1)

/-- The reciprocal of that count clipped below at one. -/
def invE (i : IVec S500000 32) : FVec F S80000x1 .f32 :=
  Host.divf (ones S80000x1 bcast_S_S80000x1) (maximumf (cntE (F := F) i) (ones S80000x1 bcast_S_S80000x1))

/-- The segment sum over 500000 destination nodes of the update rows, by the ids. -/
def segT (i : IVec S500000 32) (u : FVec F S500000x128 .f32) : FVec F S500000x128 .f32 :=
  Host.scatterAdd scatter_S500000x128_S500000x1_S500000x128_1_0_0_1 (zeros S500000x128 bcast_S_S500000x128) (ids i) u

/-- How many edges land on each of the 500000 destination nodes. -/
def cntT (i : IVec S500000 32) : FVec F S500000x1 .f32 :=
  Host.scatterAdd scatter_S500000x1_S500000x1_S500000x1_1_0_0_1 (zeros S500000x1 bcast_S_S500000x1) (ids i) (ones S500000x1 bcast_S_S500000x1)

/-- The reciprocal of that count clipped below at one. -/
def invT (i : IVec S500000 32) : FVec F S500000x1 .f32 :=
  Host.divf (ones S500000x1 bcast_S_S500000x1) (maximumf (cntT (F := F) i) (ones S500000x1 bcast_S_S500000x1))

/-- At the extended reals the reciprocal column is the reciprocal of the count column, node by node. -/
theorem col_invC (i : IVec S500000 32) : Cert.Spec.col (invC (F := Ideal) i) = Cert.Spec.recip (Cert.Spec.col (cntC (F := Ideal) i)) := by
  funext r
  have hd : ∀ {s : Shape} (a b : FVec Ideal s .f32) (j : s.Idx), Host.divf a b j = Ideal.div (a j) (b j) :=
    fun _ _ _ => rfl
  simp only [Cert.Spec.col, Cert.Spec.recip, invC, ones, hd, maximumf_apply, broadcastInDim, constant_apply,
    Cert.Spec.ofBits_one]

theorem col_invE (i : IVec S500000 32) : Cert.Spec.col (invE (F := Ideal) i) = Cert.Spec.recip (Cert.Spec.col (cntE (F := Ideal) i)) := by
  funext r
  have hd : ∀ {s : Shape} (a b : FVec Ideal s .f32) (j : s.Idx), Host.divf a b j = Ideal.div (a j) (b j) :=
    fun _ _ _ => rfl
  simp only [Cert.Spec.col, Cert.Spec.recip, invE, ones, hd, maximumf_apply, broadcastInDim, constant_apply,
    Cert.Spec.ofBits_one]

theorem col_invT (i : IVec S500000 32) : Cert.Spec.col (invT (F := Ideal) i) = Cert.Spec.recip (Cert.Spec.col (cntT (F := Ideal) i)) := by
  funext r
  have hd : ∀ {s : Shape} (a b : FVec Ideal s .f32) (j : s.Idx), Host.divf a b j = Ideal.div (a j) (b j) :=
    fun _ _ _ => rfl
  simp only [Cert.Spec.col, Cert.Spec.recip, invT, ones, hd, maximumf_apply, broadcastInDim, constant_apply,
    Cert.Spec.ofBits_one]

/-! ## The arguments' launch contents, at their literal array types -/

section Args
open Idealize.ShloMosaic.TcCoe Idealize.SL.Sem
variable (m : (ℓ : Loc nD τ sig) → Buf (Elt Ideal) ℓ) (c : Dev nD)
/-- Argument 0 of the program as launched on device `c`. -/
abbrev a0 : S500000x64.Idx → EReal := m ((c.tc : Thread nD τ).loc main_arg0)
/-- Argument 1 of the program as launched on device `c`. -/
abbrev a1 : IVec S500000 32 := m ((c.tc : Thread nD τ).loc main_arg1)
/-- Argument 2 of the program as launched on device `c`. -/
abbrev a2 : IVec S500000 32 := m ((c.tc : Thread nD τ).loc main_arg2)
/-- Argument 3 of the program as launched on device `c`. -/
abbrev a3 : IVec S500000 32 := m ((c.tc : Thread nD τ).loc main_arg3)
/-- Argument 4 of the program as launched on device `c`. -/
abbrev a4 : IVec S500000 32 := m ((c.tc : Thread nD τ).loc main_arg4)
/-- Argument 5 of the program as launched on device `c`. -/
abbrev a5 : S64x128.Idx → EReal := m ((c.tc : Thread nD τ).loc main_arg5)
/-- Argument 6 of the program as launched on device `c`. -/
abbrev a6 : S128.Idx → EReal := m ((c.tc : Thread nD τ).loc main_arg6)
/-- Argument 7 of the program as launched on device `c`. -/
abbrev a7 : S4x128x128.Idx → EReal := m ((c.tc : Thread nD τ).loc main_arg7)
/-- Argument 8 of the program as launched on device `c`. -/
abbrev a8 : S4x128.Idx → EReal := m ((c.tc : Thread nD τ).loc main_arg8)
/-- Argument 9 of the program as launched on device `c`. -/
abbrev a9 : S4x128x128.Idx → EReal := m ((c.tc : Thread nD τ).loc main_arg9)
/-- Argument 10 of the program as launched on device `c`. -/
abbrev a10 : S4x128x128.Idx → EReal := m ((c.tc : Thread nD τ).loc main_arg10)
/-- Argument 11 of the program as launched on device `c`. -/
abbrev a11 : S4x128.Idx → EReal := m ((c.tc : Thread nD τ).loc main_arg11)
/-- Argument 12 of the program as launched on device `c`. -/
abbrev a12 : S4x128x128.Idx → EReal := m ((c.tc : Thread nD τ).loc main_arg12)
/-- Argument 13 of the program as launched on device `c`. -/
abbrev a13 : S128x1.Idx → EReal := m ((c.tc : Thread nD τ).loc main_arg13)
/-- Argument 14 of the program as launched on device `c`. -/
abbrev a14 : S1.Idx → EReal := m ((c.tc : Thread nD τ).loc main_arg14)
end Args

end Cert.KernelIdeal.Glue

end
-- ==== Proof.KChainA.lean ====
/-
  What the first four dense layers of the kernel program find in their operands when they are entered, read back
  through the host code to the launch contents of the arguments and to the earlier layers' outputs: the projected
  features, the per-card and per-e-mail segment sums of the gathered features with their reciprocal counts, and
  the weight matrices and bias rows sliced out of the stacked parameters (for the transactions' first layer the two
  relations' own-feature weights and biases added).
-/
import proofs.«422063_j25211458027581_2_alg».proof.Proof.Gen.KernelIdeal.Frame
import proofs.«422063_j25211458027581_2_alg».proof.Proof.KGlue
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.KernelIdeal.Glue Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A host stretch leaves a buffer none of its operations writes as it was. -/
local macro "keeps " b:term " across " ops:ident : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The four host stretches between the first dense layer and the cards' layer, and the two-operation stretch before
    them, leave a buffer none of them writes as it was. -/
local macro "keeps7 " b:term : term =>
  `((keeps $b across hostOps1_4).trans <| (keeps $b across hostOps1_3).trans <| (keeps $b across hostOps1_2).trans <|
      (keeps $b across hostOps1_1).trans <| (keeps $b across hostOps1))

/-! ## The launch arguments at the first dense layer's exit: neither the layer nor the reshape before it writes one -/

theorem W2_arg1 : (W2 m ρ c (Proc.devRef .tc main_arg1) : IVec S500000 32) = a1 m c :=
  (W2_of_ne m ρ c main_arg1 (by decide)).trans (keeps main_arg1 across hostOps0)
theorem W2_arg2 : (W2 m ρ c (Proc.devRef .tc main_arg2) : IVec S500000 32) = a2 m c :=
  (W2_of_ne m ρ c main_arg2 (by decide)).trans (keeps main_arg2 across hostOps0)
theorem W2_arg3 : (W2 m ρ c (Proc.devRef .tc main_arg3) : IVec S500000 32) = a3 m c :=
  (W2_of_ne m ρ c main_arg3 (by decide)).trans (keeps main_arg3 across hostOps0)
theorem W2_arg4 : (W2 m ρ c (Proc.devRef .tc main_arg4) : IVec S500000 32) = a4 m c :=
  (W2_of_ne m ρ c main_arg4 (by decide)).trans (keeps main_arg4 across hostOps0)
theorem W2_arg7 : (W2 m ρ c (Proc.devRef .tc main_arg7) : S4x128x128.Idx → EReal) = a7 m c :=
  (W2_of_ne m ρ c main_arg7 (by decide)).trans (keeps main_arg7 across hostOps0)
theorem W2_arg8 : (W2 m ρ c (Proc.devRef .tc main_arg8) : S4x128.Idx → EReal) = a8 m c :=
  (W2_of_ne m ρ c main_arg8 (by decide)).trans (keeps main_arg8 across hostOps0)
theorem W2_arg9 : (W2 m ρ c (Proc.devRef .tc main_arg9) : S4x128x128.Idx → EReal) = a9 m c :=
  (W2_of_ne m ρ c main_arg9 (by decide)).trans (keeps main_arg9 across hostOps0)

/-! ## One relation's weights and bias out of the stacked parameters, read by coordinates -/

/-- Matrix `g` of four stacked ones, cut out at offset `o = g` and its unit axis dropped, read at `(k, j)`. -/
theorem slab_apply (o : Nat) (X : S4x128x128.Idx → EReal) (hs : S4x128x128.Slices ![o, 0, 0] S1x128x128)
    (hc : S1x128x128.ShapeCasts S128x128) (g : Fin 4) (hg : g.val = o) (k j : Fin 128) :
    shapeCast S128x128 (extractStridedSlice S1x128x128 ![o, 0, 0] X hs) hc (ix2 k j) = X (ix3 g k j) :=
  (shapeCast_1ab_ab_apply _ hc k j).trans
    (extractStridedSlice_apply _ _ _ _ _ fun ax => by
      match ax with
      | ⟨0, _⟩ => exact hg.trans (Nat.add_zero o).symm
      | ⟨1, _⟩ => exact (Nat.zero_add _).symm
      | ⟨2, _⟩ => exact (Nat.zero_add _).symm)

/-- Row `g` of four stacked bias rows, cut out at offset `o = g` and flattened to a vector, read at `j`. -/
theorem biasVec_apply (o : Nat) (B : S4x128.Idx → EReal) (hs : S4x128.Slices ![o, 0] S1x128)
    (h1 : S1x128.ShapeCasts S128) (g : Fin 4) (hg : g.val = o) (j : Fin 128) :
    shapeCast S128 (extractStridedSlice S1x128 ![o, 0] B hs) h1 (ix1 j) = B (ix2 g j) :=
  (shapeCast_1a_a_apply _ h1 j).trans (slice2_axis0_apply o B hs (0 : Fin 1) j g (hg.trans (Nat.add_zero o).symm))

/-- The same row laid out again as a one-row matrix. -/
theorem biasRow_apply (o : Nat) (B : S4x128.Idx → EReal) (hs : S4x128.Slices ![o, 0] S1x128)
    (h1 : S1x128.ShapeCasts S128) (h2 : S128.ShapeCasts S1x128) (g : Fin 4) (hg : g.val = o) (j : Fin 128) :
    shapeCast S1x128 (shapeCast S128 (extractStridedSlice S1x128 ![o, 0] B hs) h1) h2 (ix2 (0 : Fin 1) j) = B (ix2 g j) :=
  (shapeCast_a_1a_apply _ h2 (0 : Fin 1) j).trans (biasVec_apply o B hs h1 g hg j)

/-! ## The two gathers of the projected features, over any contents of the buffers they read -/

/-- The first call of the row gather: its twenty-three operations are `take500k` of the projected features by the
    first index argument. -/
theorem take_call0 (Wp : Valuation τ sig (Elt Ideal)) :
    (StableHlo.after hostOps1_1 Wp (Proc.devRef .tc main_v3) : S500000x128.Idx → EReal)
      = take500k (F := Ideal) (Wp (Proc.devRef .tc main_v1)) (Wp (Proc.devRef .tc main_arg1)) := by
  after_results_simp
  simp only [StableHlo.TRef.ofBuf, StableHlo.TRef.toBuf, cast_cast, cast_eq]
  unfold take500k nanFill inRange wrapIdx
  rfl

/-- The second call, by the third index argument. -/
theorem take_call1 (Wp : Valuation τ sig (Elt Ideal)) :
    (StableHlo.after hostOps1_3 Wp (Proc.devRef .tc main_v14) : S500000x128.Idx → EReal)
      = take500k (F := Ideal) (Wp (Proc.devRef .tc main_v1)) (Wp (Proc.devRef .tc main_arg3)) := by
  after_results_simp
  simp only [StableHlo.TRef.ofBuf, StableHlo.TRef.toBuf, cast_cast, cast_eq]
  unfold take500k nanFill inRange wrapIdx
  rfl

/-- The rows gathered for the cards. -/
theorem W4_v3 : (W4 m ρ c (Proc.devRef .tc main_v3) : S500000x128.Idx → EReal)
    = take500k (F := Ideal) (V2 m ρ c main_v1 : S500000x128.Idx → EReal) (a1 m c) :=
  (take_call0 (W3 m ρ c)).trans (congrArg₂ (take500k (F := Ideal)) (keeps main_v1 across hostOps1)
    ((keeps main_arg1 across hostOps1).trans (W2_arg1 m ρ c)))

/-- The rows gathered for the e-mail addresses. -/
theorem W6_v14 : (W6 m ρ c (Proc.devRef .tc main_v14) : S500000x128.Idx → EReal)
    = take500k (F := Ideal) (V2 m ρ c main_v1 : S500000x128.Idx → EReal) (a3 m c) :=
  (take_call1 (W5 m ρ c)).trans (congrArg₂ (take500k (F := Ideal))
    ((keeps main_v1 across hostOps1_2).trans <| (keeps main_v1 across hostOps1_1).trans (keeps main_v1 across hostOps1))
    ((keeps main_arg3 across hostOps1_2).trans <| (keeps main_arg3 across hostOps1_1).trans <|
      (keeps main_arg3 across hostOps1).trans (W2_arg3 m ρ c)))

/-- The column of ones every edge count adds up. -/
theorem W3_v2 : (W3 m ρ c (Proc.devRef .tc main_v2) : S500000x1.Idx → EReal) = ones (F := Ideal) S500000x1 bcast_S_S500000x1 := by
  show StableHlo.after hostOps1 (W2 m ρ c) (Proc.devRef .tc main_v2) = _
  after_results
  rfl

/-! ## Region 0's entry -/

theorem V1_arg0 : (V1 m ρ c main_arg0 : S500000x64.Idx → EReal) = a0 m c :=
  keeps main_arg0 across hostOps0
theorem V1_arg5 : (V1 m ρ c main_arg5 : S64x128.Idx → EReal) = a5 m c :=
  keeps main_arg5 across hostOps0
theorem row_V1_v0 : row (V1 m ρ c main_v0) = fun j => a6 m c (ix1 j) := by
  have h : V1 m ρ c main_v0 = StableHlo.after hostOps0 (W0 m ρ c) (Proc.devRef .tc main_v0) := rfl
  rw [h]
  after_results
  funext j
  exact shapeCast_a_1a_apply (a6 m c) shapeCasts_S128_S1x128 (0 : Fin 1) j

/-! ## Region 1's entry: the cards -/

set_option maxHeartbeats 1000000 in
theorem V7_v6 : (V7 m ρ c main_v6 : S100000x128.Idx → EReal) = segC (F := Ideal) (a2 m c) (take500k (F := Ideal) (V2 m ρ c main_v1 : S500000x128.Idx → EReal) (a1 m c)) := by
  refine (keeps main_v6 across hostOps1_4).trans ((keeps main_v6 across hostOps1_3).trans ?_)
  have h3 := W4_v3 m ρ c
  have h2 : (W4 m ρ c (Proc.devRef .tc main_arg2) : IVec S500000 32) = a2 m c :=
    (keeps main_arg2 across hostOps1_1).trans ((keeps main_arg2 across hostOps1).trans (W2_arg2 m ρ c))
  show StableHlo.after hostOps1_2 (W4 m ρ c) (Proc.devRef .tc main_v6) = _
  generalize W4 m ρ c = Wp at h2 h3 ⊢
  after_results
  rw [h2, h3]
  rfl

set_option maxHeartbeats 1000000 in
theorem V7_v13 : (V7 m ρ c main_v13 : S100000x1.Idx → EReal) = invC (F := Ideal) (a2 m c) := by
  refine (keeps main_v13 across hostOps1_4).trans ((keeps main_v13 across hostOps1_3).trans ?_)
  have h1 : (W4 m ρ c (Proc.devRef .tc main_v2) : S500000x1.Idx → EReal) = ones (F := Ideal) S500000x1 bcast_S_S500000x1 :=
    (keeps main_v2 across hostOps1_1).trans (W3_v2 m ρ c)
  have h2 : (W4 m ρ c (Proc.devRef .tc main_arg2) : IVec S500000 32) = a2 m c :=
    (keeps main_arg2 across hostOps1_1).trans ((keeps main_arg2 across hostOps1).trans (W2_arg2 m ρ c))
  show StableHlo.after hostOps1_2 (W4 m ρ c) (Proc.devRef .tc main_v13) = _
  generalize W4 m ρ c = Wp at h1 h2 ⊢
  after_results
  rw [h1, h2]
  rfl

set_option maxHeartbeats 1000000 in
theorem cur_V7_v26 : cur (V7 m ρ c main_v26) = fun k j => a7 m c (ix3 (0 : Fin 4) k j) := by
  have h7 : (W6 m ρ c (Proc.devRef .tc main_arg7) : S4x128x128.Idx → EReal) = a7 m c :=
    (keeps main_arg7 across hostOps1_3).trans <| (keeps main_arg7 across hostOps1_2).trans <|
      (keeps main_arg7 across hostOps1_1).trans <| (keeps main_arg7 across hostOps1).trans (W2_arg7 m ρ c)
  have h : V7 m ρ c main_v26 = StableHlo.after hostOps1_4 (W6 m ρ c) (Proc.devRef .tc main_v26) := rfl
  rw [h]
  generalize W6 m ρ c = Wp at h7 ⊢
  after_results
  rw [h7]
  funext k j
  exact slab_apply 0 (a7 m c) slices_S4x128x128_S1x128x128_0_0_0 shapeCasts_S1x128x128_S128x128 0 rfl k j

set_option maxHeartbeats 1000000 in
theorem row_V7_v29 : row (V7 m ρ c main_v29) = fun j => a8 m c (ix2 (0 : Fin 4) j) := by
  have h8 : (W6 m ρ c (Proc.devRef .tc main_arg8) : S4x128.Idx → EReal) = a8 m c :=
    (keeps main_arg8 across hostOps1_3).trans <| (keeps main_arg8 across hostOps1_2).trans <|
      (keeps main_arg8 across hostOps1_1).trans <| (keeps main_arg8 across hostOps1).trans (W2_arg8 m ρ c)
  have h : V7 m ρ c main_v29 = StableHlo.after hostOps1_4 (W6 m ρ c) (Proc.devRef .tc main_v29) := rfl
  rw [h]
  generalize W6 m ρ c = Wp at h8 ⊢
  after_results
  rw [h8]
  funext j
  exact biasRow_apply 0 (a8 m c) slices_S4x128_S1x128_0_0 shapeCasts_S1x128_S128 shapeCasts_S128_S1x128 0 rfl j

/-! ## Region 2's entry: the e-mail addresses -/

set_option maxHeartbeats 1000000 in
theorem V9_v17 : (V9 m ρ c main_v17 : S80000x128.Idx → EReal) = segE (F := Ideal) (a4 m c) (take500k (F := Ideal) (V2 m ρ c main_v1 : S500000x128.Idx → EReal) (a3 m c)) := by
  refine (keeps main_v17 across hostOps2).trans ((W8_of_ne m ρ c main_v17 (by decide)).trans ?_)
  have h3 := W6_v14 m ρ c
  have h2 : (W6 m ρ c (Proc.devRef .tc main_arg4) : IVec S500000 32) = a4 m c :=
    (keeps main_arg4 across hostOps1_3).trans <| (keeps main_arg4 across hostOps1_2).trans <|
      (keeps main_arg4 across hostOps1_1).trans <| (keeps main_arg4 across hostOps1).trans (W2_arg4 m ρ c)
  show StableHlo.after hostOps1_4 (W6 m ρ c) (Proc.devRef .tc main_v17) = _
  generalize W6 m ρ c = Wp at h2 h3 ⊢
  after_results
  rw [h2, h3]
  rfl

set_option maxHeartbeats 1000000 in
theorem V9_v24 : (V9 m ρ c main_v24 : S80000x1.Idx → EReal) = invE (F := Ideal) (a4 m c) := by
  refine (keeps main_v24 across hostOps2).trans ((W8_of_ne m ρ c main_v24 (by decide)).trans ?_)
  have h1 : (W6 m ρ c (Proc.devRef .tc main_v2) : S500000x1.Idx → EReal) = ones (F := Ideal) S500000x1 bcast_S_S500000x1 :=
    (keeps main_v2 across hostOps1_3).trans <| (keeps main_v2 across hostOps1_2).trans <|
      (keeps main_v2 across hostOps1_1).trans (W3_v2 m ρ c)
  have h2 : (W6 m ρ c (Proc.devRef .tc main_arg4) : IVec S500000 32) = a4 m c :=
    (keeps main_arg4 across hostOps1_3).trans <| (keeps main_arg4 across hostOps1_2).trans <|
      (keeps main_arg4 across hostOps1_1).trans <| (keeps main_arg4 across hostOps1).trans (W2_arg4 m ρ c)
  show StableHlo.after hostOps1_4 (W6 m ρ c) (Proc.devRef .tc main_v24) = _
  generalize W6 m ρ c = Wp at h1 h2 ⊢
  after_results
  rw [h1, h2]
  rfl

/-- The stacked first-layer weights as launched, at the cards' layer's exit. -/
theorem W8_arg7 : (W8 m ρ c (Proc.devRef .tc main_arg7) : S4x128x128.Idx → EReal) = a7 m c :=
  (W8_of_ne m ρ c main_arg7 (by decide)).trans <| (keeps7 main_arg7).trans (W2_arg7 m ρ c)
/-- The stacked first-layer biases as launched, at the cards' layer's exit. -/
theorem W8_arg8 : (W8 m ρ c (Proc.devRef .tc main_arg8) : S4x128.Idx → EReal) = a8 m c :=
  (W8_of_ne m ρ c main_arg8 (by decide)).trans <| (keeps7 main_arg8).trans (W2_arg8 m ρ c)

set_option maxHeartbeats 1000000 in
theorem cur_V9_v32 : cur (V9 m ρ c main_v32) = fun k j => a7 m c (ix3 (2 : Fin 4) k j) := by
  have h : V9 m ρ c main_v32 = StableHlo.after hostOps2 (W8 m ρ c) (Proc.devRef .tc main_v32) := rfl
  rw [h]
  after_results
  rw [W8_arg7 m ρ c]
  funext k j
  exact slab_apply 2 (a7 m c) slices_S4x128x128_S1x128x128_2_0_0 shapeCasts_S1x128x128_S128x128 2 rfl k j

set_option maxHeartbeats 1000000 in
theorem row_V9_v35 : row (V9 m ρ c main_v35) = fun j => a8 m c (ix2 (2 : Fin 4) j) := by
  have h : V9 m ρ c main_v35 = StableHlo.after hostOps2 (W8 m ρ c) (Proc.devRef .tc main_v35) := rfl
  rw [h]
  after_results
  rw [W8_arg8 m ρ c]
  funext j
  exact biasRow_apply 2 (a8 m c) slices_S4x128_S1x128_2_0 shapeCasts_S1x128_S128 shapeCasts_S128_S1x128 2 rfl j

/-! ## Region 3's entry: the transactions' first layer -/

/-- The projected features reach the transactions' first layer as the first dense layer left them. -/
theorem V11_v1 : (V11 m ρ c main_v1 : S500000x128.Idx → EReal) = V2 m ρ c main_v1 :=
  (keeps main_v1 across hostOps3).trans <| (W10_of_ne m ρ c main_v1 (by decide)).trans <|
  (keeps main_v1 across hostOps2).trans <| (W8_of_ne m ρ c main_v1 (by decide)).trans (keeps7 main_v1)

/-- The stacked first-layer biases as launched, at the e-mail addresses' layer's exit. -/
theorem W10_arg8 : (W10 m ρ c (Proc.devRef .tc main_arg8) : S4x128.Idx → EReal) = a8 m c :=
  (W10_of_ne m ρ c main_arg8 (by decide)).trans <| (keeps main_arg8 across hostOps2).trans (W8_arg8 m ρ c)
/-- The stacked own-feature weights as launched, at the e-mail addresses' layer's exit. -/
theorem W10_arg9 : (W10 m ρ c (Proc.devRef .tc main_arg9) : S4x128x128.Idx → EReal) = a9 m c :=
  (W10_of_ne m ρ c main_arg9 (by decide)).trans <| (keeps main_arg9 across hostOps2).trans <|
  (W8_of_ne m ρ c main_arg9 (by decide)).trans <| (keeps7 main_arg9).trans (W2_arg9 m ρ c)

set_option maxHeartbeats 1000000 in
theorem cur_V11_v41 : cur (V11 m ρ c main_v41)
    = fun k j => a9 m c (ix3 (1 : Fin 4) k j) + a9 m c (ix3 (3 : Fin 4) k j) := by
  have h : V11 m ρ c main_v41 = StableHlo.after hostOps3 (W10 m ρ c) (Proc.devRef .tc main_v41) := rfl
  rw [h]
  after_results
  rw [W10_arg9 m ρ c]
  funext k j
  refine (addf_apply _ _ (ix2 k j)).trans ?_
  exact congrArg₂ (· + ·)
    (slab_apply 1 (a9 m c) slices_S4x128x128_S1x128x128_1_0_0 shapeCasts_S1x128x128_S128x128 1 rfl k j)
    (slab_apply 3 (a9 m c) slices_S4x128x128_S1x128x128_3_0_0 shapeCasts_S1x128x128_S128x128 3 rfl k j)

set_option maxHeartbeats 1000000 in
theorem row_V11_v47 : row (V11 m ρ c main_v47)
    = fun j => a8 m c (ix2 (1 : Fin 4) j) + a8 m c (ix2 (3 : Fin 4) j) := by
  have h : V11 m ρ c main_v47 = StableHlo.after hostOps3 (W10 m ρ c) (Proc.devRef .tc main_v47) := rfl
  rw [h]
  after_results
  rw [W10_arg8 m ρ c]
  funext j
  exact (shapeCast_a_1a_apply
      (addf (F := Ideal) (φ := .f32)
        (shapeCast S128 (extractStridedSlice S1x128 ![1, 0] (a8 m c) slices_S4x128_S1x128_1_0) shapeCasts_S1x128_S128)
        (shapeCast S128 (extractStridedSlice S1x128 ![3, 0] (a8 m c) slices_S4x128_S1x128_3_0) shapeCasts_S1x128_S128))
      shapeCasts_S128_S1x128 (0 : Fin 1) j).trans
    (congrArg₂ (· + ·)
      (biasVec_apply 1 (a8 m c) slices_S4x128_S1x128_1_0 shapeCasts_S1x128_S128 1 rfl j)
      (biasVec_apply 3 (a8 m c) slices_S4x128_S1x128_3_0 shapeCasts_S1x128_S128 3 rfl j))

end Cert.KernelIdeal.Chain

end
-- ==== Proof.KChainB.lean ====
/-
  What the fused second layer of the kernel program finds in its operands when it is entered, read back through the
  host code: the per-transaction segment sums of the gathered card and e-mail features with their reciprocal
  counts, the transactions' first-layer output, the second layer's weight matrices and bias row sliced out of the
  stacked parameters (the two own-feature weights and the two biases added), the classifier's column and bias; and
  the program's result, the last layer's one-column output read as a vector.

  Every buffer is followed backwards through the segments of the program: a host stretch that does not write it and a
  region that does not hold it among its arrays leave it as it was; the stretch that computes it gives it as the
  stretch's operations applied to what the stretch found. An argument of the program is never written, so at every
  boundary it holds what it held at launch.
-/
import proofs.«422063_j25211458027581_2_alg».proof.Proof.Gen.KernelIdeal.Frame
import proofs.«422063_j25211458027581_2_alg».proof.Proof.KGlue
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.KernelIdeal.Glue Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A host stretch leaves a buffer none of its operations writes as it was. -/
local macro "skip_host " b:term : tactic =>
  `(tactic| exact StableHlo.after_of_forall_not_mem (b := Proc.devRef .tc $b) _ _ (List.forall_iff_forall_mem.mp (by
      simp only [hostOps0, hostOps1, hostOps1_1, hostOps1_2, hostOps1_3, hostOps1_4, hostOps2, hostOps3, hostOps4,
        hostOps4_1, hostOps4_2, hostOps4_3, hostOps5, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ## The arguments at the boundaries where the host code reads them -/

set_option maxHeartbeats 400000 in
theorem W12_arg2 : W12 m ρ c (Proc.devRef .tc main_arg2) = a2 m c := by
  have h1 : W18 m ρ c (Proc.devRef .tc main_arg2) = W17 m ρ c (Proc.devRef .tc main_arg2) := by skip_host main_arg2
  have h2 : W17 m ρ c (Proc.devRef .tc main_arg2) = W16 m ρ c (Proc.devRef .tc main_arg2) := W17_of_ne m ρ c main_arg2 (by decide)
  have h3 : W16 m ρ c (Proc.devRef .tc main_arg2) = W15 m ρ c (Proc.devRef .tc main_arg2) := by skip_host main_arg2
  have h4 : W15 m ρ c (Proc.devRef .tc main_arg2) = W14 m ρ c (Proc.devRef .tc main_arg2) := by skip_host main_arg2
  have h5 : W14 m ρ c (Proc.devRef .tc main_arg2) = W13 m ρ c (Proc.devRef .tc main_arg2) := by skip_host main_arg2
  have h6 : W13 m ρ c (Proc.devRef .tc main_arg2) = W12 m ρ c (Proc.devRef .tc main_arg2) := by skip_host main_arg2
  exact (((((h1.trans h2).trans h3).trans h4).trans h5).trans h6).symm.trans (W18_main_arg2 m ρ c)

set_option maxHeartbeats 400000 in
theorem W13_arg1 : W13 m ρ c (Proc.devRef .tc main_arg1) = a1 m c := by
  have h1 : W18 m ρ c (Proc.devRef .tc main_arg1) = W17 m ρ c (Proc.devRef .tc main_arg1) := by skip_host main_arg1
  have h2 : W17 m ρ c (Proc.devRef .tc main_arg1) = W16 m ρ c (Proc.devRef .tc main_arg1) := W17_of_ne m ρ c main_arg1 (by decide)
  have h3 : W16 m ρ c (Proc.devRef .tc main_arg1) = W15 m ρ c (Proc.devRef .tc main_arg1) := by skip_host main_arg1
  have h4 : W15 m ρ c (Proc.devRef .tc main_arg1) = W14 m ρ c (Proc.devRef .tc main_arg1) := by skip_host main_arg1
  have h5 : W14 m ρ c (Proc.devRef .tc main_arg1) = W13 m ρ c (Proc.devRef .tc main_arg1) := by skip_host main_arg1
  exact ((((h1.trans h2).trans h3).trans h4).trans h5).symm.trans (W18_main_arg1 m ρ c)

set_option maxHeartbeats 400000 in
theorem W14_arg4 : W14 m ρ c (Proc.devRef .tc main_arg4) = a4 m c := by
  have h1 : W18 m ρ c (Proc.devRef .tc main_arg4) = W17 m ρ c (Proc.devRef .tc main_arg4) := by skip_host main_arg4
  have h2 : W17 m ρ c (Proc.devRef .tc main_arg4) = W16 m ρ c (Proc.devRef .tc main_arg4) := W17_of_ne m ρ c main_arg4 (by decide)
  have h3 : W16 m ρ c (Proc.devRef .tc main_arg4) = W15 m ρ c (Proc.devRef .tc main_arg4) := by skip_host main_arg4
  have h4 : W15 m ρ c (Proc.devRef .tc main_arg4) = W14 m ρ c (Proc.devRef .tc main_arg4) := by skip_host main_arg4
  exact (((h1.trans h2).trans h3).trans h4).symm.trans (W18_main_arg4 m ρ c)

set_option maxHeartbeats 400000 in
theorem W15_arg3 : W15 m ρ c (Proc.devRef .tc main_arg3) = a3 m c := by
  have h1 : W18 m ρ c (Proc.devRef .tc main_arg3) = W17 m ρ c (Proc.devRef .tc main_arg3) := by skip_host main_arg3
  have h2 : W17 m ρ c (Proc.devRef .tc main_arg3) = W16 m ρ c (Proc.devRef .tc main_arg3) := W17_of_ne m ρ c main_arg3 (by decide)
  have h3 : W16 m ρ c (Proc.devRef .tc main_arg3) = W15 m ρ c (Proc.devRef .tc main_arg3) := by skip_host main_arg3
  exact ((h1.trans h2).trans h3).symm.trans (W18_main_arg3 m ρ c)

set_option maxHeartbeats 400000 in
theorem W15_arg10 : W15 m ρ c (Proc.devRef .tc main_arg10) = a10 m c := by
  have h1 : W18 m ρ c (Proc.devRef .tc main_arg10) = W17 m ρ c (Proc.devRef .tc main_arg10) := by skip_host main_arg10
  have h2 : W17 m ρ c (Proc.devRef .tc main_arg10) = W16 m ρ c (Proc.devRef .tc main_arg10) := W17_of_ne m ρ c main_arg10 (by decide)
  have h3 : W16 m ρ c (Proc.devRef .tc main_arg10) = W15 m ρ c (Proc.devRef .tc main_arg10) := by skip_host main_arg10
  exact ((h1.trans h2).trans h3).symm.trans (W18_main_arg10 m ρ c)

set_option maxHeartbeats 400000 in
theorem W15_arg11 : W15 m ρ c (Proc.devRef .tc main_arg11) = a11 m c := by
  have h1 : W18 m ρ c (Proc.devRef .tc main_arg11) = W17 m ρ c (Proc.devRef .tc main_arg11) := by skip_host main_arg11
  have h2 : W17 m ρ c (Proc.devRef .tc main_arg11) = W16 m ρ c (Proc.devRef .tc main_arg11) := W17_of_ne m ρ c main_arg11 (by decide)
  have h3 : W16 m ρ c (Proc.devRef .tc main_arg11) = W15 m ρ c (Proc.devRef .tc main_arg11) := by skip_host main_arg11
  exact ((h1.trans h2).trans h3).symm.trans (W18_main_arg11 m ρ c)

set_option maxHeartbeats 400000 in
theorem W15_arg12 : W15 m ρ c (Proc.devRef .tc main_arg12) = a12 m c := by
  have h1 : W18 m ρ c (Proc.devRef .tc main_arg12) = W17 m ρ c (Proc.devRef .tc main_arg12) := by skip_host main_arg12
  have h2 : W17 m ρ c (Proc.devRef .tc main_arg12) = W16 m ρ c (Proc.devRef .tc main_arg12) := W17_of_ne m ρ c main_arg12 (by decide)
  have h3 : W16 m ρ c (Proc.devRef .tc main_arg12) = W15 m ρ c (Proc.devRef .tc main_arg12) := by skip_host main_arg12
  exact ((h1.trans h2).trans h3).symm.trans (W18_main_arg12 m ρ c)

set_option maxHeartbeats 400000 in
theorem W15_arg14 : W15 m ρ c (Proc.devRef .tc main_arg14) = a14 m c := by
  have h1 : W18 m ρ c (Proc.devRef .tc main_arg14) = W17 m ρ c (Proc.devRef .tc main_arg14) := by skip_host main_arg14
  have h2 : W17 m ρ c (Proc.devRef .tc main_arg14) = W16 m ρ c (Proc.devRef .tc main_arg14) := W17_of_ne m ρ c main_arg14 (by decide)
  have h3 : W16 m ρ c (Proc.devRef .tc main_arg14) = W15 m ρ c (Proc.devRef .tc main_arg14) := by skip_host main_arg14
  exact ((h1.trans h2).trans h3).symm.trans (W18_main_arg14 m ρ c)

/-! ## The column of ones, written once before the first aggregation and read by every count -/

set_option maxHeartbeats 400000 in
theorem W3_v2_ones : (W3 m ρ c (Proc.devRef .tc main_v2) : S500000x1.Idx → EReal) = ones (F := Ideal) S500000x1 bcast_S_S500000x1 := by
  show StableHlo.after hostOps1 (W2 m ρ c) (Proc.devRef .tc main_v2) = _
  after_results
  rfl

set_option maxHeartbeats 800000 in
theorem W13_v2 : (W13 m ρ c (Proc.devRef .tc main_v2) : S500000x1.Idx → EReal) = ones (F := Ideal) S500000x1 bcast_S_S500000x1 := by
  have h1 : W13 m ρ c (Proc.devRef .tc main_v2) = W12 m ρ c (Proc.devRef .tc main_v2) := by skip_host main_v2
  have h2 : W12 m ρ c (Proc.devRef .tc main_v2) = W11 m ρ c (Proc.devRef .tc main_v2) := W12_of_ne m ρ c main_v2 (by decide)
  have h3 : W11 m ρ c (Proc.devRef .tc main_v2) = W10 m ρ c (Proc.devRef .tc main_v2) := by skip_host main_v2
  have h4 : W10 m ρ c (Proc.devRef .tc main_v2) = W9 m ρ c (Proc.devRef .tc main_v2) := W10_of_ne m ρ c main_v2 (by decide)
  have h5 : W9 m ρ c (Proc.devRef .tc main_v2) = W8 m ρ c (Proc.devRef .tc main_v2) := by skip_host main_v2
  have h6 : W8 m ρ c (Proc.devRef .tc main_v2) = W7 m ρ c (Proc.devRef .tc main_v2) := W8_of_ne m ρ c main_v2 (by decide)
  have h7 : W7 m ρ c (Proc.devRef .tc main_v2) = W6 m ρ c (Proc.devRef .tc main_v2) := by skip_host main_v2
  have h8 : W6 m ρ c (Proc.devRef .tc main_v2) = W5 m ρ c (Proc.devRef .tc main_v2) := by skip_host main_v2
  have h9 : W5 m ρ c (Proc.devRef .tc main_v2) = W4 m ρ c (Proc.devRef .tc main_v2) := by skip_host main_v2
  have h10 : W4 m ρ c (Proc.devRef .tc main_v2) = W3 m ρ c (Proc.devRef .tc main_v2) := by skip_host main_v2
  exact (((((((((h1.trans h2).trans h3).trans h4).trans h5).trans h6).trans h7).trans h8).trans h9).trans h10).trans (W3_v2_ones m ρ c)

/-! ## The cards' first-layer output, from region 1's exit to the gather that reads it -/

set_option maxHeartbeats 400000 in
theorem W12_v30 : (W12 m ρ c (Proc.devRef .tc main_v30) : S100000x128.Idx → EReal) = V8 m ρ c main_v30 := by
  have h1 : W12 m ρ c (Proc.devRef .tc main_v30) = W11 m ρ c (Proc.devRef .tc main_v30) := W12_of_ne m ρ c main_v30 (by decide)
  have h2 : W11 m ρ c (Proc.devRef .tc main_v30) = W10 m ρ c (Proc.devRef .tc main_v30) := by skip_host main_v30
  have h3 : W10 m ρ c (Proc.devRef .tc main_v30) = W9 m ρ c (Proc.devRef .tc main_v30) := W10_of_ne m ρ c main_v30 (by decide)
  have h4 : W9 m ρ c (Proc.devRef .tc main_v30) = W8 m ρ c (Proc.devRef .tc main_v30) := by skip_host main_v30
  exact (((h1.trans h2).trans h3).trans h4)

set_option maxHeartbeats 1000000 in
theorem W13_v49 : (W13 m ρ c (Proc.devRef .tc main_v49) : S500000x128.Idx → EReal)
    = take100k (F := Ideal) (V8 m ρ c main_v30 : S100000x128.Idx → EReal) (a2 m c) := by
  show StableHlo.after hostOps4 (W12 m ρ c) (Proc.devRef .tc main_v49) = _
  after_results
  rw [W12_v30, W12_arg2]
  simp only [StableHlo.TRef.ofBuf, StableHlo.TRef.toBuf, cast_eq]
  rfl

/-! ## The e-mail addresses' first-layer output, from region 2's exit to the gather that reads it -/

set_option maxHeartbeats 400000 in
theorem W14_v36 : (W14 m ρ c (Proc.devRef .tc main_v36) : S80000x128.Idx → EReal) = V10 m ρ c main_v36 := by
  have h1 : W14 m ρ c (Proc.devRef .tc main_v36) = W13 m ρ c (Proc.devRef .tc main_v36) := by skip_host main_v36
  have h2 : W13 m ρ c (Proc.devRef .tc main_v36) = W12 m ρ c (Proc.devRef .tc main_v36) := by skip_host main_v36
  have h3 : W12 m ρ c (Proc.devRef .tc main_v36) = W11 m ρ c (Proc.devRef .tc main_v36) := W12_of_ne m ρ c main_v36 (by decide)
  have h4 : W11 m ρ c (Proc.devRef .tc main_v36) = W10 m ρ c (Proc.devRef .tc main_v36) := by skip_host main_v36
  exact (((h1.trans h2).trans h3).trans h4)

set_option maxHeartbeats 1000000 in
theorem W15_v60 : (W15 m ρ c (Proc.devRef .tc main_v60) : S500000x128.Idx → EReal)
    = take80k (F := Ideal) (V10 m ρ c main_v36 : S80000x128.Idx → EReal) (a4 m c) := by
  have e1 := W14_v36 m ρ c
  have e2 := W14_arg4 m ρ c
  show StableHlo.after hostOps4_2 (W14 m ρ c) (Proc.devRef .tc main_v60) = _
  generalize W14 m ρ c = V at e1 e2 ⊢
  after_results
  rw [e1, e2]
  simp only [StableHlo.TRef.ofBuf, StableHlo.TRef.toBuf, cast_eq]
  rfl

set_option maxHeartbeats 400000 in
theorem W15_v2 : (W15 m ρ c (Proc.devRef .tc main_v2) : S500000x1.Idx → EReal) = ones (F := Ideal) S500000x1 bcast_S_S500000x1 := by
  have h1 : W15 m ρ c (Proc.devRef .tc main_v2) = W14 m ρ c (Proc.devRef .tc main_v2) := by skip_host main_v2
  have h2 : W14 m ρ c (Proc.devRef .tc main_v2) = W13 m ρ c (Proc.devRef .tc main_v2) := by skip_host main_v2
  exact (h1.trans h2).trans (W13_v2 m ρ c)

/-! ## The second layer's weights and bias, sliced out of the stacked parameters -/

/-- One of the four stacked matrices cut out along the leading axis reads, at `(0, k, j)`, the stack at `(r, k, j)`. -/
theorem slab16_apply (o : Nat) (X : S4x128x128.Idx → EReal) (h : S4x128x128.Slices ![o, 0, 0] S1x128x128)
    (r : Fin 4) (hr : r.val = o + (0 : Fin 1).val) (k j : Fin 128) :
    extractStridedSlice S1x128x128 ![o, 0, 0] X h (ix3 (0 : Fin 1) k j) = X (ix3 r k j) :=
  extractStridedSlice_apply _ _ _ _ _ (fun ax => by
    match ax with
    | ⟨0, _⟩ => exact hr
    | ⟨1, _⟩ => exact (Nat.zero_add _).symm
    | ⟨2, _⟩ => exact (Nat.zero_add _).symm)

set_option maxHeartbeats 1000000 in
theorem W16_v82 : (W16 m ρ c (Proc.devRef .tc main_v82) : S128x128.Idx → EReal)
    = shapeCast S128x128 (extractStridedSlice S1x128x128 ![1, 0, 0] (a10 m c) slices_S4x128x128_S1x128x128_1_0_0)
        shapeCasts_S1x128x128_S128x128 := by
  have e1 := W15_arg10 m ρ c
  show StableHlo.after hostOps4_3 (W15 m ρ c) (Proc.devRef .tc main_v82) = _
  generalize W15 m ρ c = V at e1 ⊢
  after_results
  rw [e1]
  all_goals rfl

set_option maxHeartbeats 1000000 in
theorem W16_v84 : (W16 m ρ c (Proc.devRef .tc main_v84) : S128x128.Idx → EReal)
    = shapeCast S128x128 (extractStridedSlice S1x128x128 ![3, 0, 0] (a10 m c) slices_S4x128x128_S1x128x128_3_0_0)
        shapeCasts_S1x128x128_S128x128 := by
  have e1 := W15_arg10 m ρ c
  show StableHlo.after hostOps4_3 (W15 m ρ c) (Proc.devRef .tc main_v84) = _
  generalize W15 m ρ c = V at e1 ⊢
  after_results
  rw [e1]
  all_goals rfl

set_option maxHeartbeats 1000000 in
theorem W16_v75 : (W16 m ρ c (Proc.devRef .tc main_v75) : S128x128.Idx → EReal)
    = addf (F := Ideal) (s := S128x128) (φ := .f32)
        (shapeCast S128x128 (extractStridedSlice S1x128x128 ![1, 0, 0] (a12 m c) slices_S4x128x128_S1x128x128_1_0_0)
          shapeCasts_S1x128x128_S128x128)
        (shapeCast S128x128 (extractStridedSlice S1x128x128 ![3, 0, 0] (a12 m c) slices_S4x128x128_S1x128x128_3_0_0)
          shapeCasts_S1x128x128_S128x128) := by
  have e1 := W15_arg12 m ρ c
  show StableHlo.after hostOps4_3 (W15 m ρ c) (Proc.devRef .tc main_v75) = _
  generalize W15 m ρ c = V at e1 ⊢
  after_results
  rw [e1]
  all_goals rfl

set_option maxHeartbeats 1000000 in
theorem W16_v85 : (W16 m ρ c (Proc.devRef .tc main_v85) : S1x128.Idx → EReal)
    = shapeCast S1x128 (addf (F := Ideal) (s := S128) (φ := .f32)
        (shapeCast S128 (extractStridedSlice S1x128 ![1, 0] (a11 m c) slices_S4x128_S1x128_1_0) shapeCasts_S1x128_S128)
        (shapeCast S128 (extractStridedSlice S1x128 ![3, 0] (a11 m c) slices_S4x128_S1x128_3_0) shapeCasts_S1x128_S128))
        shapeCasts_S128_S1x128 := by
  have e1 := W15_arg11 m ρ c
  show StableHlo.after hostOps4_3 (W15 m ρ c) (Proc.devRef .tc main_v85) = _
  generalize W15 m ρ c = V at e1 ⊢
  after_results
  rw [e1]
  all_goals rfl

set_option maxHeartbeats 400000 in
theorem W16_v86 : (W16 m ρ c (Proc.devRef .tc main_v86) : S1x1.Idx → EReal) = shapeCast S1x1 (a14 m c) shapeCasts_S1_S1x1 := by
  have e := W15_arg14 m ρ c
  show StableHlo.after hostOps4_3 (W15 m ρ c) (Proc.devRef .tc main_v86) = _
  generalize W15 m ρ c = V at e ⊢
  after_results
  rw [e]
  all_goals rfl

/-! ## Region 4's entry -/

set_option maxHeartbeats 400000 in
theorem V16_v52 : (V16 m ρ c main_v52 : S500000x128.Idx → EReal) = segT (F := Ideal) (a1 m c) (take100k (F := Ideal) (V8 m ρ c main_v30 : S100000x128.Idx → EReal) (a2 m c)) := by
  have h1 : W16 m ρ c (Proc.devRef .tc main_v52) = W15 m ρ c (Proc.devRef .tc main_v52) := by skip_host main_v52
  have h2 : W15 m ρ c (Proc.devRef .tc main_v52) = W14 m ρ c (Proc.devRef .tc main_v52) := by skip_host main_v52
  refine (h1.trans h2).trans ?_
  have e1 := W13_v49 m ρ c
  have e2 := W13_arg1 m ρ c
  show StableHlo.after hostOps4_1 (W13 m ρ c) (Proc.devRef .tc main_v52) = _
  generalize W13 m ρ c = V at e1 e2 ⊢
  after_results
  rw [e1, e2]
  all_goals rfl

set_option maxHeartbeats 400000 in
theorem V16_v59 : (V16 m ρ c main_v59 : S500000x1.Idx → EReal) = invT (F := Ideal) (a1 m c) := by
  have h1 : W16 m ρ c (Proc.devRef .tc main_v59) = W15 m ρ c (Proc.devRef .tc main_v59) := by skip_host main_v59
  have h2 : W15 m ρ c (Proc.devRef .tc main_v59) = W14 m ρ c (Proc.devRef .tc main_v59) := by skip_host main_v59
  refine (h1.trans h2).trans ?_
  have e1 := W13_v2 m ρ c
  have e2 := W13_arg1 m ρ c
  show StableHlo.after hostOps4_1 (W13 m ρ c) (Proc.devRef .tc main_v59) = _
  generalize W13 m ρ c = V at e1 e2 ⊢
  after_results
  rw [e1, e2]
  all_goals rfl

set_option maxHeartbeats 1000000 in
theorem V16_v63 : (V16 m ρ c main_v63 : S500000x128.Idx → EReal) = segT (F := Ideal) (a3 m c) (take80k (F := Ideal) (V10 m ρ c main_v36 : S80000x128.Idx → EReal) (a4 m c)) := by
  have e1 := W15_v60 m ρ c
  have e2 := W15_arg3 m ρ c
  show StableHlo.after hostOps4_3 (W15 m ρ c) (Proc.devRef .tc main_v63) = _
  generalize W15 m ρ c = V at e1 e2 ⊢
  after_results
  rw [e1, e2]
  all_goals rfl

set_option maxHeartbeats 1000000 in
theorem V16_v70 : (V16 m ρ c main_v70 : S500000x1.Idx → EReal) = invT (F := Ideal) (a3 m c) := by
  have e1 := W15_v2 m ρ c
  have e2 := W15_arg3 m ρ c
  show StableHlo.after hostOps4_3 (W15 m ρ c) (Proc.devRef .tc main_v70) = _
  generalize W15 m ρ c = V at e1 e2 ⊢
  after_results
  rw [e1, e2]
  all_goals rfl

set_option maxHeartbeats 400000 in
theorem V16_v48 : (V16 m ρ c main_v48 : S500000x128.Idx → EReal) = V12 m ρ c main_v48 := by
  have h1 : W16 m ρ c (Proc.devRef .tc main_v48) = W15 m ρ c (Proc.devRef .tc main_v48) := by skip_host main_v48
  have h2 : W15 m ρ c (Proc.devRef .tc main_v48) = W14 m ρ c (Proc.devRef .tc main_v48) := by skip_host main_v48
  have h3 : W14 m ρ c (Proc.devRef .tc main_v48) = W13 m ρ c (Proc.devRef .tc main_v48) := by skip_host main_v48
  have h4 : W13 m ρ c (Proc.devRef .tc main_v48) = W12 m ρ c (Proc.devRef .tc main_v48) := by skip_host main_v48
  exact (((h1.trans h2).trans h3).trans h4)
set_option maxHeartbeats 400000 in
theorem cur_V16_v82 : cur (V16 m ρ c main_v82) = fun k j => a10 m c (ix3 (1 : Fin 4) k j) := by
  funext k j
  show (W16 m ρ c (Proc.devRef .tc main_v82) : S128x128.Idx → EReal) (ix2 k j) = _
  rw [W16_v82]
  exact (shapeCast_1ab_ab_apply _ _ k j).trans (slab16_apply 1 (a10 m c) _ (1 : Fin 4) rfl k j)

set_option maxHeartbeats 400000 in
theorem cur_V16_v84 : cur (V16 m ρ c main_v84) = fun k j => a10 m c (ix3 (3 : Fin 4) k j) := by
  funext k j
  show (W16 m ρ c (Proc.devRef .tc main_v84) : S128x128.Idx → EReal) (ix2 k j) = _
  rw [W16_v84]
  exact (shapeCast_1ab_ab_apply _ _ k j).trans (slab16_apply 3 (a10 m c) _ (3 : Fin 4) rfl k j)

set_option maxHeartbeats 400000 in
theorem cur_V16_v75 : cur (V16 m ρ c main_v75)
    = fun k j => a12 m c (ix3 (1 : Fin 4) k j) + a12 m c (ix3 (3 : Fin 4) k j) := by
  funext k j
  show (W16 m ρ c (Proc.devRef .tc main_v75) : S128x128.Idx → EReal) (ix2 k j) = _
  rw [W16_v75, addf_apply]
  refine congrArg₂ (· + ·) ?_ ?_
  · exact (shapeCast_1ab_ab_apply _ _ k j).trans (slab16_apply 1 (a12 m c) _ (1 : Fin 4) rfl k j)
  · exact (shapeCast_1ab_ab_apply _ _ k j).trans (slab16_apply 3 (a12 m c) _ (3 : Fin 4) rfl k j)

set_option maxHeartbeats 400000 in
theorem row_V16_v85 : row (V16 m ρ c main_v85)
    = fun j => a11 m c (ix2 (1 : Fin 4) j) + a11 m c (ix2 (3 : Fin 4) j) := by
  funext j
  show (W16 m ρ c (Proc.devRef .tc main_v85) : S1x128.Idx → EReal) (ix2 (0 : Fin 1) j) = _
  rw [W16_v85]
  refine (shapeCast_a_1a_apply _ _ (0 : Fin 1) j).trans ?_
  rw [addf_apply]
  refine congrArg₂ (· + ·) ?_ ?_
  · exact (shapeCast_1a_a_apply _ _ j).trans (slice2_axis0_apply 1 (a11 m c) _ (0 : Fin 1) j (1 : Fin 4) rfl)
  · exact (shapeCast_1a_a_apply _ _ j).trans (slice2_axis0_apply 3 (a11 m c) _ (0 : Fin 1) j (3 : Fin 4) rfl)

set_option maxHeartbeats 400000 in
theorem V16_arg13 : (V16 m ρ c main_arg13 : S128x1.Idx → EReal) = a13 m c := by
  have h1 : W18 m ρ c (Proc.devRef .tc main_arg13) = W17 m ρ c (Proc.devRef .tc main_arg13) := by skip_host main_arg13
  have h2 : W17 m ρ c (Proc.devRef .tc main_arg13) = W16 m ρ c (Proc.devRef .tc main_arg13) :=
    (W17_arr m ρ c 9).trans (((dat4 (V16 m ρ) c).arrAt_in 9 rfl _).trans (A_eq4 (V16 m ρ) c 9))
  exact (h1.trans h2).symm.trans (W18_main_arg13 m ρ c)
set_option maxHeartbeats 400000 in
theorem V16_v86 : (V16 m ρ c main_v86 : S1x1.Idx → EReal) (ix2 (0 : Fin 1) (0 : Fin 1)) = a14 m c (ix1 (0 : Fin 1)) := by
  show (W16 m ρ c (Proc.devRef .tc main_v86) : S1x1.Idx → EReal) (ix2 (0 : Fin 1) (0 : Fin 1)) = _
  rw [W16_v86]
  exact shapeCast_a_1a_apply _ _ _ _

/-! ## The result -/

set_option maxHeartbeats 400000 in
theorem W18_v88 (e : Fin 500000) : (W18 m ρ c (Proc.devRef .tc main_v88) : S500000.Idx → EReal) (ix1 e)
    = (V17 m ρ c main_v87 : S500000x1.Idx → EReal) (ix2 e (0 : Fin 1)) := by
  have h : (W18 m ρ c (Proc.devRef .tc main_v88) : S500000.Idx → EReal)
      = shapeCast S500000 (V17 m ρ c main_v87 : S500000x1.Idx → EReal) shapeCasts_S500000x1_S500000 := by
    show StableHlo.after hostOps5 (W17 m ρ c) (Proc.devRef .tc main_v88) = _
    after_results
    rfl
  rw [h]
  refine shapeCast_apply (s := S500000x1) (t := S500000) _ _ _ _ ?_
  rw [Shape.rowMajor_val_two, Shape.rowMajor_val_one]
  show e.val * 1 + 0 = e.val
  omega

end Cert.KernelIdeal.Chain

end
-- ==== Proof.PreFacts.lean ====
/-
  What the precondition says, input by input: every entry of every float input is a real number (its absolute value
  is below plus infinity), and every entry of the four index inputs, read signed, lies inside the axis it indexes
  (transactions: 500000; cards: 100000; e-mail addresses: 80000).

  The precondition is a conjunction of fifteen tests, nested to the left, each of which asks something of every
  entry of one input. Each conjunct is read back on its own: a reduction by `and` over every axis that came out one
  had a one at every entry; at a float input
  the entry says `max x (-x) < +inf`, which leaves only the real numbers among the extended reals; at an index input
  it says `0 ≤ idx` and `idx < n`, both signed.
-/
import proofs.«422063_j25211458027581_2_alg».proof.Defs
import proofs.«422063_j25211458027581_2_alg».proof.Proof.Gen.KernelIdeal
import proofs.«422063_j25211458027581_2_alg».proof.Proof.Gen.Pre_finite_inputs
import proofs.«422063_j25211458027581_2_alg».proof.Proof.KTake
import proofs.«422063_j25211458027581_2_alg».proof.Proof.Spec
import Idealize.ShloMosaic.Lib.ReduceAll
import Idealize.ShloMosaic.Lib.StableHlo.Predicate

noncomputable section

namespace Cert.PreFacts

open Cert.KernelIdeal Idealize.ShloMosaic Idealize.ShloMosaic.TcCoe Idealize.ShloMosaic.ValueIdx Idealize.SL.Sem

/-- Every entry of an array is a real number. -/
def Finite {s : Shape} (x : s.Idx → EReal) : Prop := ∀ i, Cert.Spec.IsReal (x i)

/-- The precondition's content on one device's argument arrays. -/
structure Facts (m : (ℓ : Loc nD τ sig) → Buf (Elt Ideal) ℓ) (c : Dev nD) : Prop where
  fin0 : Finite (m ((c.tc : Thread nD τ).loc main_arg0) : S500000x64.Idx → EReal)
  fin5 : Finite (m ((c.tc : Thread nD τ).loc main_arg5) : S64x128.Idx → EReal)
  fin6 : Finite (m ((c.tc : Thread nD τ).loc main_arg6) : S128.Idx → EReal)
  fin7 : Finite (m ((c.tc : Thread nD τ).loc main_arg7) : S4x128x128.Idx → EReal)
  fin8 : Finite (m ((c.tc : Thread nD τ).loc main_arg8) : S4x128.Idx → EReal)
  fin9 : Finite (m ((c.tc : Thread nD τ).loc main_arg9) : S4x128x128.Idx → EReal)
  fin10 : Finite (m ((c.tc : Thread nD τ).loc main_arg10) : S4x128x128.Idx → EReal)
  fin11 : Finite (m ((c.tc : Thread nD τ).loc main_arg11) : S4x128.Idx → EReal)
  fin12 : Finite (m ((c.tc : Thread nD τ).loc main_arg12) : S4x128x128.Idx → EReal)
  fin13 : Finite (m ((c.tc : Thread nD τ).loc main_arg13) : S128x1.Idx → EReal)
  fin14 : Finite (m ((c.tc : Thread nD τ).loc main_arg14) : S1.Idx → EReal)
  rng1 : Cert.KernelIdeal.Glue.InRange 500000 (m ((c.tc : Thread nD τ).loc main_arg1))
  rng2 : Cert.KernelIdeal.Glue.InRange 100000 (m ((c.tc : Thread nD τ).loc main_arg2))
  rng3 : Cert.KernelIdeal.Glue.InRange 500000 (m ((c.tc : Thread nD τ).loc main_arg3))
  rng4 : Cert.KernelIdeal.Glue.InRange 80000 (m ((c.tc : Thread nD τ).loc main_arg4))

/-- The rank-0 shape has one index. -/
instance : Subsingleton (⟨0, ![]⟩ : Shape).Idx := ⟨fun a b => funext fun d => d.elim0⟩

/-- The f32 pattern with every exponent bit set and no fraction bit is plus infinity. -/
theorem ofBits_inf : Ideal.ofBits .f32 0x7F800000#32 = (⊤ : EReal) := by
  simp [Ideal.ofBits, Ideal.ieee]

/-- An extended real whose absolute value lies below plus infinity is a real number: `max x (-x)` is plus infinity
    at both infinities. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) :
    Cert.Spec.IsReal x := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- "Every entry of `x` has absolute value below plus infinity", read back: every entry of `x` is a real number. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 ix0 = 1#1) :
    Finite (x : s.Idx → EReal) :=
  fun i => isReal_of_abs_lt (x i) (Host.reduce_andi_all _ _ hr h0 ix0 e i)

/-- "Every entry of `idx` is at least zero and below `n`", both compared signed, read back: every entry of `idx`,
    read signed, lies in `[0, n)`. -/
theorem range_of_all {s : Shape} {axes : List (Fin s.rank)} (idx : IVec s 32) (n : Nat) (hn : n < 2 ^ 31)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
        (andi (cmpi .sge idx (broadcastInDim s ![] hb (constantI ⟨0, ![]⟩ 32 0#32)))
          (cmpi .slt idx (broadcastInDim s ![] hb (constantI ⟨0, ![]⟩ 32 (BitVec.ofNat 32 n)))))
        (constantI ⟨0, ![]⟩ 1 1#1) hr h0 ix0 = 1#1) (i : s.Idx) :
    0 ≤ (idx i).toInt ∧ (idx i).toInt < (n : ℤ) := by
  have h := Host.reduce_andi_all _ _ hr h0 ix0 e i
  obtain ⟨h1, h2⟩ := IntOp.andi_eq_one.1 h
  have a1 := IntOp.cmpi_sge.1 h1
  have a2 := IntOp.cmpi_slt.1 h2
  have z : (0#32 : BitVec 32).toInt = 0 := by decide
  have zn : (BitVec.ofNat 32 n).toInt = n := StableHlo.Predicate.toInt_ofNat_small n hn
  change (0#32 : BitVec 32).toInt ≤ (idx i).toInt at a1
  change (idx i).toInt < (BitVec.ofNat 32 n).toInt at a2
  rw [z] at a1; rw [zn] at a2
  exact ⟨a1, a2⟩

/-- The same for an index vector of 500000 entries, in the form the gathers ask for. -/
theorem inRange_of_all {axes : List (Fin (⟨1, ![500000]⟩ : Shape).rank)} (idx : IVec ⟨1, ![500000]⟩ 32) (n : Nat)
    (hn : n < 2 ^ 31)
    (hb : (⟨0, ![]⟩ : Shape).BroadcastsInDim ⟨1, ![500000]⟩ (![] : Fin 0 → Fin (⟨1, ![500000]⟩ : Shape).rank))
    (hr : (⟨1, ![500000]⟩ : Shape).ReducesTo axes ⟨0, ![]⟩) (h0 : 0 < (⟨0, ![]⟩ : Shape).numel)
    (e : Host.reduce IntOp.andi
        (andi (cmpi .sge idx (broadcastInDim ⟨1, ![500000]⟩ ![] hb (constantI ⟨0, ![]⟩ 32 0#32)))
          (cmpi .slt idx (broadcastInDim ⟨1, ![500000]⟩ ![] hb (constantI ⟨0, ![]⟩ 32 (BitVec.ofNat 32 n)))))
        (constantI ⟨0, ![]⟩ 1 1#1) hr h0 ix0 = 1#1) :
    Cert.KernelIdeal.Glue.InRange n idx :=
  fun p => range_of_all idx n hn hb hr h0 e (ix1 p)

/-- One conjunct off a conjunction of one-bit scalars. -/
theorem and_split {s : Shape} (a b : IVec s 1) (i : s.Idx) (h : andi a b i = 1#1) : a i = 1#1 ∧ b i = 1#1 :=
  IntOp.andi_eq_one.1 h

theorem decode (m : (ℓ : Loc nD τ sig) → Buf (Elt Ideal) ℓ) (h : Cert.Pre_KernelIdeal m) (c : Dev nD) : Facts m c := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, r4⟩ := and_split _ _ _ e
  obtain ⟨e, r3⟩ := and_split _ _ _ e
  obtain ⟨e, r2⟩ := and_split _ _ _ e
  obtain ⟨e, r1⟩ := and_split _ _ _ e
  obtain ⟨e, f14⟩ := and_split _ _ _ e
  obtain ⟨e, f13⟩ := and_split _ _ _ e
  obtain ⟨e, f12⟩ := and_split _ _ _ e
  obtain ⟨e, f11⟩ := and_split _ _ _ e
  obtain ⟨e, f10⟩ := and_split _ _ _ e
  obtain ⟨e, f9⟩ := and_split _ _ _ e
  obtain ⟨e, f8⟩ := and_split _ _ _ e
  obtain ⟨e, f7⟩ := and_split _ _ _ e
  obtain ⟨e, f6⟩ := and_split _ _ _ e
  obtain ⟨f0, f5⟩ := and_split _ _ _ e
  exact
    { fin0 := finite_of_all _ _ _ _ f0
      fin5 := finite_of_all _ _ _ _ f5
      fin6 := finite_of_all _ _ _ _ f6
      fin7 := finite_of_all _ _ _ _ f7
      fin8 := finite_of_all _ _ _ _ f8
      fin9 := finite_of_all _ _ _ _ f9
      fin10 := finite_of_all _ _ _ _ f10
      fin11 := finite_of_all _ _ _ _ f11
      fin12 := finite_of_all _ _ _ _ f12
      fin13 := finite_of_all _ _ _ _ f13
      fin14 := finite_of_all _ _ _ _ f14
      rng1 := inRange_of_all _ 500000 (by norm_num) _ _ _ r1
      rng2 := inRange_of_all _ 100000 (by norm_num) _ _ _ r2
      rng3 := inRange_of_all _ 500000 (by norm_num) _ _ _ r3
      rng4 := inRange_of_all _ 80000 (by norm_num) _ _ _ r4 }

end Cert.PreFacts

end
-- ==== Proof.SpecAlgebra.lean ====
/-
  The algebra that joins the two programs' dense layers, row by row, on the extended reals.

  Dividing a sum by a count clipped below at one is multiplying it by the reciprocal of that count: the clipped count is
  at least one, so it is not zero, and division off zero is the product with the inverse. A zero operand through a
  weight matrix contributes zero. Two relations that share the destination's own features fold their two products
  into one product with the sum of the two weight matrices: that is distributivity, which on the extended reals needs
  the features and the weights to be real numbers.
-/
import proofs.«422063_j25211458027581_2_alg».proof.Proof.Spec
import Mathlib.Data.EReal.Inv
import Mathlib.Algebra.BigOperators.Group.Finset.Basic
import Mathlib.Tactic.Abel

noncomputable section

namespace Cert.Spec

open Idealize.ShloMosaic

variable {M K N : Nat}

/-- A count clipped below at one is not zero: it is at least one. -/
theorem clip_ne_zero (c : EReal) : max c 1 ≠ 0 := by
  intro h0
  have h : (1 : EReal) ≤ max c 1 := le_max_right _ _
  rw [h0] at h
  exact absurd h (not_le.mpr zero_lt_one)

/-- Division by a clipped count is the product with its inverse. -/
theorem div_clip (x c : EReal) : Ideal.div x (max c 1) = x * (max c 1)⁻¹ := by
  unfold Ideal.div
  rw [if_neg (clip_ne_zero c)]

/-- The reciprocal of a clipped count is its inverse. -/
theorem recip_apply (cnt : Fin M → EReal) (r : Fin M) : recip cnt r = (max (cnt r) 1)⁻¹ := by
  unfold recip
  rw [div_clip, one_mul]

theorem isReal_zero : IsReal 0 := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem isReal_sum {ι : Type} (s : Finset ι) (f : ι → EReal) (h : ∀ i ∈ s, IsReal (f i)) : IsReal (∑ i ∈ s, f i) :=
  Finset.sum_induction f IsReal (fun _ _ => isReal_add) isReal_zero h

/-- Distributivity on real operands. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A product through the sum of two real weight matrices is the sum of the two products. -/
theorem sum_mul_add (x : Fin K → EReal) (W1 W3 : Fin K → EReal)
    (hx : ∀ k, IsReal (x k)) (h1 : ∀ k, IsReal (W1 k)) (h3 : ∀ k, IsReal (W3 k)) :
    (∑ k, x k * (W1 k + W3 k)) = (∑ k, x k * W1 k) + ∑ k, x k * W3 k := by
  rw [← Finset.sum_add_distrib]
  exact Finset.sum_congr rfl fun k _ => mul_add_of_isReal (hx k) (h1 k) (h3 k)

/-- The first layer's combine is the reference's relation with zero own features, positive part. -/
theorem sageCombine_eq (s : Mat M K) (cnt : Fin M → EReal) (Wl : Mat K N) (bl : Fin N → EReal) (Wr : Mat K N) :
    sageCombine s (recip cnt) Wl bl = fun r j => max (sageRef s cnt (fun _ _ => 0) Wl bl Wr r j) 0 := by
  funext r j
  unfold sageCombine sageRef
  simp only [recip_apply, div_clip, zero_mul, Finset.sum_const_zero, add_zero]

/-- Two relations with zero neighbour sums and shared own features are one affine map with the summed weights. -/
theorem linearRelu_eq (x : Mat M K) (cnt1 cnt3 : Fin M → EReal) (Wl1 Wl3 Wr1 Wr3 : Mat K N) (b1 b3 : Fin N → EReal)
    (hx : ∀ r k, IsReal (x r k)) (h1 : ∀ k j, IsReal (Wr1 k j)) (h3 : ∀ k j, IsReal (Wr3 k j)) :
    linearRelu x (fun k j => Wr1 k j + Wr3 k j) (fun j => b1 j + b3 j)
      = fun r j => max (sageRef (fun _ _ => 0) cnt1 x Wl1 b1 Wr1 r j + sageRef (fun _ _ => 0) cnt3 x Wl3 b3 Wr3 r j) 0 := by
  funext r j
  unfold linearRelu linear sageRef
  simp only [div_clip, zero_mul, Finset.sum_const_zero, zero_add]
  refine congrArg (fun v => max v 0) ?_
  rw [sum_mul_add (x r) (fun k => Wr1 k j) (fun k => Wr3 k j) (hx r) (fun k => h1 k j) (fun k => h3 k j)]
  abel

/-- The fused second layer and classifier is the reference's two relations, positive part, classifier. -/
theorem layer2_eq (s1 s3 t : Mat M K) (c1 c3 : Fin M → EReal) (Wl1 Wl3 Wr1 Wr3 : Mat K N) (b1 b3 cw : Fin N → EReal) (cb : EReal)
    (ht : ∀ r k, IsReal (t r k)) (h1 : ∀ k j, IsReal (Wr1 k j)) (h3 : ∀ k j, IsReal (Wr3 k j)) :
    layer2 s1 (recip c1) s3 (recip c3) t Wl1 Wl3 (fun k j => Wr1 k j + Wr3 k j) (fun j => b1 j + b3 j) cw cb
      = fun r => (∑ j, max (sageRef s1 c1 t Wl1 b1 Wr1 r j + sageRef s3 c3 t Wl3 b3 Wr3 r j) 0 * cw j) + cb := by
  funext r
  unfold layer2 sageRef
  simp only [recip_apply, div_clip]
  refine congrArg (fun v => v + cb) ?_
  refine Finset.sum_congr rfl fun j _ => ?_
  refine congrArg (fun v => max v 0 * cw j) ?_
  rw [sum_mul_add (t r) (fun k => Wr1 k j) (fun k => Wr3 k j) (ht r) (fun k => h1 k j) (fun k => h3 k j)]
  abel

/-- An affine map of real operands is real. -/
theorem linear_isReal (x : Mat M K) (W : Mat K N) (b : Fin N → EReal)
    (hx : ∀ r k, IsReal (x r k)) (hW : ∀ k j, IsReal (W k j)) (hb : ∀ j, IsReal (b j)) (r : Fin M) (j : Fin N) :
    IsReal (linear x W b r j) := by
  unfold linear
  exact isReal_add (isReal_sum _ _ fun k _ => isReal_mul (hx r k) (hW k j)) (hb j)

/-- So is its positive part. -/
theorem linearRelu_isReal (x : Mat M K) (W : Mat K N) (b : Fin N → EReal)
    (hx : ∀ r k, IsReal (x r k)) (hW : ∀ k j, IsReal (W k j)) (hb : ∀ j, IsReal (b j)) (r : Fin M) (j : Fin N) :
    IsReal (linearRelu x W b r j) := by
  unfold linearRelu
  rcases max_choice (linear x W b r j) 0 with h | h
  · rw [h]; exact linear_isReal x W b hx hW hb r j
  · rw [h]; exact isReal_zero

end Cert.Spec

end
-- ==== Proof.RRows1.lean ====
/-
  The reference's projected features and its first layer's card and e-mail outputs, row by row: each is my row
  function of the stage arrays it is computed from (the segment sum of the gathered features, the edge count) and of
  relation 0's (cards) or relation 2's (e-mail addresses) slice of the stacked parameters; the own-feature term is
  the zero matrix through `Wr`.
-/
import proofs.«422063_j25211458027581_2_alg».proof.Proof.RefRead
import proofs.«422063_j25211458027581_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.Gen Cert.ReferenceIdeal.ReadP Cert.Spec
open Idealize.ShloMosaic Idealize.ShloMosaic.ValueIdx

variable (x0 : S500000x64.Idx → EReal) (x1 x2 x3 x4 : IVec S500000 32) (x5 : S64x128.Idx → EReal) (x6 : S128.Idx → EReal)
  (x7 : S4x128x128.Idx → EReal) (x8 : S4x128.Idx → EReal) (x9 x10 : S4x128x128.Idx → EReal) (x11 : S4x128.Idx → EReal)
  (x12 : S4x128x128.Idx → EReal) (x13 : S128x1.Idx → EReal) (x14 : S1.Idx → EReal)

/-- The projected transaction features: an affine map of the input features. -/
theorem xt_rows : val_main_v3 (F := Ideal) x0 x5 x6 = unc (linear (cur x0) (cur x5) (vec x6)) := by
  funext i
  obtain ⟨r, j, rfl⟩ : ∃ (r : Fin 500000) (j : Fin 128), i = ix2 r j := ⟨i 0, i 1, eq_ix2 i⟩
  rw [val_main_v3_apply, val_main_v0_apply, val_main_v2_apply, val_main_v1_apply]
  have e1 : idx_main_v1 (idx_main_v2 (ix2 r j)) = ix1 j :=
    funext fun a => Fin.ext (by match a with | ⟨0, _⟩ => rfl)
  have el : ∀ k : Fin 64, lidx_main_v0 (ix2 r j) k = ix2 r k := fun k =>
    funext fun a => Fin.ext (by match a with | ⟨0, _⟩ => rfl | ⟨1, _⟩ => rfl)
  have er : ∀ k : Fin 64, ridx_main_v0 (ix2 r j) k = ix2 k j := fun k =>
    funext fun a => Fin.ext (by match a with | ⟨0, _⟩ => rfl | ⟨1, _⟩ => rfl)
  rw [e1]
  simp only [el, er, unc_ix2, linear, cur, vec, Ideal.addf_def]

set_option maxHeartbeats 400000 in
/-- The cards' first-layer output. -/
theorem c1_rows : val_main_v128 (F := Ideal) x0 x1 x2 x5 x6 x7 x8 x9
    = unc (fun r j => max (sageRef (cur (val_main_v21 (F := Ideal) x0 x1 x2 x5 x6)) (col (val_main_v25 (F := Ideal) x2)) (fun _ _ => 0) (slab x7 0) (rowOf x8 0) (slab x9 0) r j) 0) := by
  funext i
  obtain ⟨r, j, rfl⟩ : ∃ (r : Fin 100000) (j : Fin 128), i = ix2 r j := ⟨i 0, i 1, eq_ix2 i⟩
  -- the weight matrices: relation 0's slab, the unit axis dropped
  have eW : ∀ k : Fin 128, idx_main_v6 (idx_main_v7 (ridx_main_v30 (ix2 r j) k)) = ix3 (0 : Fin 4) k j := fun k =>
    funext fun a => Fin.ext (by
      match a with
      | ⟨0, _⟩ => rfl
      | ⟨1, _⟩ => show (k.val * 128 + j.val) / 128 % 128 = k.val; omega
      | ⟨2, _⟩ => show (k.val * 128 + j.val) % 128 = j.val; omega)
  have eR : ∀ k : Fin 128, idx_main_v10 (idx_main_v11 (ridx_main_v34 (ix2 r j) k)) = ix3 (0 : Fin 4) k j := fun k =>
    funext fun a => Fin.ext (by
      match a with
      | ⟨0, _⟩ => rfl
      | ⟨1, _⟩ => show (k.val * 128 + j.val) / 128 % 128 = k.val; omega
      | ⟨2, _⟩ => show (k.val * 128 + j.val) % 128 = j.val; omega)
  -- the bias: relation 0's row, broadcast down the rows
  have eB : idx_main_v8 (idx_main_v9 (idx_main_v31 (idx_main_v32 (ix2 r j)))) = ix2 (0 : Fin 4) j :=
    funext fun a => Fin.ext (by
      match a with
      | ⟨0, _⟩ => rfl
      | ⟨1, _⟩ => show j.val % 128 = j.val; omega)
  -- the contracted operand is read along row r; the clipped count is broadcast along the row
  have eS : ∀ k : Fin 128, lidx_main_v30 (ix2 r j) k = ix2 r k := fun k =>
    funext fun a => Fin.ext (by match a with | ⟨0, _⟩ => rfl | ⟨1, _⟩ => rfl)
  have eC : ∀ k : Fin 128, idx_main_v28 (ix2 r k) = ix2 r (0 : Fin 1) := fun k =>
    funext fun a => Fin.ext (by match a with | ⟨0, _⟩ => rfl | ⟨1, _⟩ => rfl)
  rw [val_main_v128_apply, val_main_v35_apply, val_main_v33_apply, val_main_v30_apply, val_main_v34_apply,
    val_main_v32_apply, val_main_v31_apply, val_main_v9_apply, val_main_v8_apply, val_main_call1_v0_apply,
    val_main_call1_cst_apply, eB]
  simp only [val_main_v29_apply, val_main_v28_apply, val_main_v27_apply, val_main_v26_apply, val_main_cst_5_apply,
    val_main_v7_apply, val_main_v6_apply, val_main_v4_apply, val_main_cst_apply, val_main_v11_apply,
    val_main_v10_apply, eW, eR, eS, eC]
  simp only [unc_ix2, sageRef, cur, col, slab, rowOf, Ideal.ofBits_def, Ideal.addf_def, Ideal.maximumf_def,
    Ideal.hostDivf_def, Ideal.ofBits_zero_f32, Cert.Spec.ofBits_one]

set_option maxHeartbeats 400000 in
/-- The e-mail addresses' first-layer output. -/
theorem e1_rows : val_main_v129 (F := Ideal) x0 x3 x4 x5 x6 x7 x8 x9
    = unc (fun r j => max (sageRef (cur (val_main_v51 (F := Ideal) x0 x3 x4 x5 x6)) (col (val_main_v55 (F := Ideal) x4)) (fun _ _ => 0) (slab x7 2) (rowOf x8 2) (slab x9 2) r j) 0) := by
  funext i
  obtain ⟨r, j, rfl⟩ : ∃ (r : Fin 80000) (j : Fin 128), i = ix2 r j := ⟨i 0, i 1, eq_ix2 i⟩
  -- the weight matrices: relation 2's slab, the unit axis dropped
  have eW : ∀ k : Fin 128, idx_main_v36 (idx_main_v37 (ridx_main_v60 (ix2 r j) k)) = ix3 (2 : Fin 4) k j := fun k =>
    funext fun a => Fin.ext (by
      match a with
      | ⟨0, _⟩ => rfl
      | ⟨1, _⟩ => show (k.val * 128 + j.val) / 128 % 128 = k.val; omega
      | ⟨2, _⟩ => show (k.val * 128 + j.val) % 128 = j.val; omega)
  have eR : ∀ k : Fin 128, idx_main_v40 (idx_main_v41 (ridx_main_v64 (ix2 r j) k)) = ix3 (2 : Fin 4) k j := fun k =>
    funext fun a => Fin.ext (by
      match a with
      | ⟨0, _⟩ => rfl
      | ⟨1, _⟩ => show (k.val * 128 + j.val) / 128 % 128 = k.val; omega
      | ⟨2, _⟩ => show (k.val * 128 + j.val) % 128 = j.val; omega)
  -- the bias: relation 2's row, broadcast down the rows
  have eB : idx_main_v38 (idx_main_v39 (idx_main_v61 (idx_main_v62 (ix2 r j)))) = ix2 (2 : Fin 4) j :=
    funext fun a => Fin.ext (by
      match a with
      | ⟨0, _⟩ => rfl
      | ⟨1, _⟩ => show j.val % 128 = j.val; omega)
  -- the contracted operand is read along row r; the clipped count is broadcast along the row
  have eS : ∀ k : Fin 128, lidx_main_v60 (ix2 r j) k = ix2 r k := fun k =>
    funext fun a => Fin.ext (by match a with | ⟨0, _⟩ => rfl | ⟨1, _⟩ => rfl)
  have eC : ∀ k : Fin 128, idx_main_v58 (ix2 r k) = ix2 r (0 : Fin 1) := fun k =>
    funext fun a => Fin.ext (by match a with | ⟨0, _⟩ => rfl | ⟨1, _⟩ => rfl)
  rw [val_main_v129_apply, val_main_v65_apply, val_main_v63_apply, val_main_v60_apply, val_main_v64_apply,
    val_main_v62_apply, val_main_v61_apply, val_main_v39_apply, val_main_v38_apply, val_main_call2_v0_apply,
    val_main_call2_cst_apply, eB]
  simp only [val_main_v59_apply, val_main_v58_apply, val_main_v57_apply, val_main_v56_apply, val_main_cst_11_apply,
    val_main_v37_apply, val_main_v36_apply, val_main_v5_apply, val_main_cst_0_apply, val_main_v41_apply,
    val_main_v40_apply, eW, eR, eS, eC]
  simp only [unc_ix2, sageRef, cur, col, slab, rowOf, Ideal.ofBits_def, Ideal.addf_def, Ideal.maximumf_def,
    Ideal.hostDivf_def, Ideal.ofBits_zero_f32, Cert.Spec.ofBits_one]

end Cert.ReferenceIdeal.Rows

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.RRows2.lean ====
/-
  The reference's first-layer output at the transactions, row by row: the positive part of the sum of two relations
  (from the cards and from the e-mail addresses), each my row function of its stage arrays; both neighbour sums are
  sums of gathered rows of a zero matrix, hence zero.
-/
import proofs.«422063_j25211458027581_2_alg».proof.Proof.RefRead
import proofs.«422063_j25211458027581_2_alg».proof.Proof.Spec
import proofs.«422063_j25211458027581_2_alg».proof.Proof.LibSegment
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.Gen Cert.ReferenceIdeal.ReadP Cert.Spec
open Idealize.ShloMosaic Idealize.ShloMosaic.ValueIdx

variable (x0 : S500000x64.Idx → EReal) (x1 x2 x3 x4 : IVec S500000 32) (x5 : S64x128.Idx → EReal) (x6 : S128.Idx → EReal)
  (x7 : S4x128x128.Idx → EReal) (x8 : S4x128.Idx → EReal) (x9 x10 : S4x128x128.Idx → EReal) (x11 : S4x128.Idx → EReal)
  (x12 : S4x128x128.Idx → EReal) (x13 : S128x1.Idx → EReal) (x14 : S1.Idx → EReal)

/-! ### The two neighbour sums are zero -/

/-- A segment sum by rows of update rows that are all zero, into an operand that is zero, is zero: at each entry
    it is the operand there plus a sum of zero updates. -/
theorem segZero (x : S500000x128.Idx → EReal) (idx : IVec S500000x1 32) (upd : S500000x128.Idx → EReal)
    (hx : ∀ i, x i = 0) (hu : ∀ i, upd i = 0) (c : Fin 500000) (b : Fin 128) :
    Host.scatterAdd (F := Ideal) (φ := .f32) scatter_S500000x128_S500000x1_S500000x128_1_0_0_1 x idx upd (ix2 c b) = 0 := by
  have e : scatter_S500000x128_S500000x1_S500000x128_1_0_0_1
      = Cert.LibSegment.segDims2 500000 500000 128 Facts₀.scatter_S500000x128_S500000x1_S500000x128_1_0_0_1_wf := rfl
  unfold Host.scatterAdd
  rw [Ideal.hostScatterAdd_def, e, Cert.LibSegment.scatterAdd_seg2, hx, Finset.sum_eq_zero (fun n _ => hu _), add_zero]

/-- Rows gathered from the zero card features are zero, whatever the indices. -/
theorem v78_zero (i : S500000x128.Idx) : val_main_v78 (F := Ideal) x2 i = 0 := by
  unfold val_main_v78 Host.gather
  rw [val_main_v4_apply, val_main_cst_apply, Ideal.ofBits_def, Ideal.ofBits_zero_f32]

/-- The operand of the cards' segment sum is the zero matrix. -/
theorem v79_zero (i : S500000x128.Idx) : val_main_v79 (F := Ideal) i = 0 := by
  rw [val_main_v79_apply, val_main_cst_14_apply, Ideal.ofBits_def, Ideal.ofBits_zero_f32]

/-- Rows gathered from the zero e-mail features are zero, whatever the indices. -/
theorem v108_zero (i : S500000x128.Idx) : val_main_v108 (F := Ideal) x4 i = 0 := by
  unfold val_main_v108 Host.gather
  rw [val_main_v5_apply, val_main_cst_0_apply, Ideal.ofBits_def, Ideal.ofBits_zero_f32]

/-- The operand of the e-mail addresses' segment sum is the zero matrix. -/
theorem v109_zero (i : S500000x128.Idx) : val_main_v109 (F := Ideal) i = 0 := by
  rw [val_main_v109_apply, val_main_cst_20_apply, Ideal.ofBits_def, Ideal.ofBits_zero_f32]

/-- The segment sum of rows gathered from the zero card features is zero. -/
theorem v81_zero : cur (val_main_v81 (F := Ideal) x1 x2) = fun _ _ => 0 := by
  funext r j
  unfold cur val_main_v81
  exact segZero _ _ _ v79_zero (v78_zero x2) r j

/-- The segment sum of rows gathered from the zero e-mail features is zero. -/
theorem v111_zero : cur (val_main_v111 (F := Ideal) x3 x4) = fun _ _ => 0 := by
  funext r j
  unfold cur val_main_v111
  exact segZero _ _ _ v109_zero (v108_zero x4) r j

/-! ## The first layer at the transactions -/

/-! ### Relation of the cards: index equations -/

theorem lidx_v90 (r : Fin 500000) (j k : Fin 128) : lidx_main_v90 (ix2 r j) k = ix2 r k :=
  funext fun a => Fin.ext (by match a with | ⟨0, _⟩ => rfl | ⟨1, _⟩ => rfl)

theorem ridx_v90 (r : Fin 500000) (j k : Fin 128) : ridx_main_v90 (ix2 r j) k = ix2 k j :=
  funext fun a => Fin.ext (by match a with | ⟨0, _⟩ => rfl | ⟨1, _⟩ => rfl)

theorem lidx_v94 (r : Fin 500000) (j k : Fin 128) : lidx_main_v94 (ix2 r j) k = ix2 r k :=
  funext fun a => Fin.ext (by match a with | ⟨0, _⟩ => rfl | ⟨1, _⟩ => rfl)

theorem ridx_v94 (r : Fin 500000) (j k : Fin 128) : ridx_main_v94 (ix2 r j) k = ix2 k j :=
  funext fun a => Fin.ext (by match a with | ⟨0, _⟩ => rfl | ⟨1, _⟩ => rfl)

theorem idx_v88 (r : Fin 500000) (k : Fin 128) : idx_main_v88 (ix2 r k) = ix2 r (0 : Fin 1) :=
  funext fun a => Fin.ext (by match a with | ⟨0, _⟩ => rfl | ⟨1, _⟩ => rfl)

/-- The slice of the stacked left weights followed by the reshape reads slab 1. -/
theorem widx_v67 (k j : Fin 128) : idx_main_v66 (idx_main_v67 (ix2 k j)) = ix3 (1 : Fin 4) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

/-- The slice of the stacked right weights followed by the reshape reads slab 1. -/
theorem widx_v71 (k j : Fin 128) : idx_main_v70 (idx_main_v71 (ix2 k j)) = ix3 (1 : Fin 4) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

/-- The slice of the stacked biases, the reshape and the two broadcasts read row 1. -/
theorem bidx_v92 (r : Fin 500000) (j : Fin 128) :
    idx_main_v68 (idx_main_v69 (idx_main_v91 (idx_main_v92 (ix2 r j)))) = ix2 (1 : Fin 4) j :=
  funext fun a => Fin.ext (by
    have hj := j.isLt
    match a with
    | ⟨0, _⟩ => rfl
    | ⟨1, _⟩ => show j.val % 128 = j.val; omega)

/-- Relation of the cards of the first layer at a transaction, entry by entry. -/
theorem rel_v95 (r : Fin 500000) (j : Fin 128) :
    val_main_v95 (F := Ideal) x0 x1 x2 x5 x6 x7 x8 x9 (ix2 r j)
      = sageRef (cur (val_main_v81 (F := Ideal) x1 x2)) (col (val_main_v85 (F := Ideal) x1)) (cur (val_main_v3 (F := Ideal) x0 x5 x6))
          (slab x7 1) (rowOf x8 1) (slab x9 1) r j := by
  rw [val_main_v95_apply, val_main_v93_apply, val_main_v90_apply, val_main_v94_apply]
  unfold sageRef
  simp only [Ideal.addf_def]
  refine congrArg₂ (· + ·) (congrArg₂ (· + ·) (Finset.sum_congr rfl fun k _ => ?_) ?_) (Finset.sum_congr rfl fun k _ => ?_)
  · rw [lidx_v90, ridx_v90, val_main_v89_apply, val_main_v88_apply, idx_v88, val_main_v87_apply, val_main_v86_apply,
      val_main_cst_17_apply, val_main_v67_apply, val_main_v66_apply, widx_v67]
    simp only [Ideal.hostDivf_def, Ideal.maximumf_def, Ideal.ofBits_def, Cert.Spec.ofBits_one, cur, col, slab]
  · rw [val_main_v92_apply, val_main_v91_apply, val_main_v69_apply, val_main_v68_apply, bidx_v92]
    rfl
  · rw [lidx_v94, ridx_v94, val_main_v71_apply, val_main_v70_apply, widx_v71]
    rfl

/-! ### Relation of the e-mail addresses: index equations -/

theorem lidx_v120 (r : Fin 500000) (j k : Fin 128) : lidx_main_v120 (ix2 r j) k = ix2 r k :=
  funext fun a => Fin.ext (by match a with | ⟨0, _⟩ => rfl | ⟨1, _⟩ => rfl)

theorem ridx_v120 (r : Fin 500000) (j k : Fin 128) : ridx_main_v120 (ix2 r j) k = ix2 k j :=
  funext fun a => Fin.ext (by match a with | ⟨0, _⟩ => rfl | ⟨1, _⟩ => rfl)

theorem lidx_v124 (r : Fin 500000) (j k : Fin 128) : lidx_main_v124 (ix2 r j) k = ix2 r k :=
  funext fun a => Fin.ext (by match a with | ⟨0, _⟩ => rfl | ⟨1, _⟩ => rfl)

theorem ridx_v124 (r : Fin 500000) (j k : Fin 128) : ridx_main_v124 (ix2 r j) k = ix2 k j :=
  funext fun a => Fin.ext (by match a with | ⟨0, _⟩ => rfl | ⟨1, _⟩ => rfl)

theorem idx_v118 (r : Fin 500000) (k : Fin 128) : idx_main_v118 (ix2 r k) = ix2 r (0 : Fin 1) :=
  funext fun a => Fin.ext (by match a with | ⟨0, _⟩ => rfl | ⟨1, _⟩ => rfl)

/-- The slice of the stacked left weights followed by the reshape reads slab 3. -/
theorem widx_v97 (k j : Fin 128) : idx_main_v96 (idx_main_v97 (ix2 k j)) = ix3 (3 : Fin 4) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

/-- The slice of the stacked right weights followed by the reshape reads slab 3. -/
theorem widx_v101 (k j : Fin 128) : idx_main_v100 (idx_main_v101 (ix2 k j)) = ix3 (3 : Fin 4) k j :=
  funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)

/-- The slice of the stacked biases, the reshape and the two broadcasts read row 3. -/
theorem bidx_v122 (r : Fin 500000) (j : Fin 128) :
    idx_main_v98 (idx_main_v99 (idx_main_v121 (idx_main_v122 (ix2 r j)))) = ix2 (3 : Fin 4) j :=
  funext fun a => Fin.ext (by
    have hj := j.isLt
    match a with
    | ⟨0, _⟩ => rfl
    | ⟨1, _⟩ => show j.val % 128 = j.val; omega)

/-- Relation of the e-mail addresses of the first layer at a transaction, entry by entry. -/
theorem rel_v125 (r : Fin 500000) (j : Fin 128) :
    val_main_v125 (F := Ideal) x0 x3 x4 x5 x6 x7 x8 x9 (ix2 r j)
      = sageRef (cur (val_main_v111 (F := Ideal) x3 x4)) (col (val_main_v115 (F := Ideal) x3)) (cur (val_main_v3 (F := Ideal) x0 x5 x6))
          (slab x7 3) (rowOf x8 3) (slab x9 3) r j := by
  rw [val_main_v125_apply, val_main_v123_apply, val_main_v120_apply, val_main_v124_apply]
  unfold sageRef
  simp only [Ideal.addf_def]
  refine congrArg₂ (· + ·) (congrArg₂ (· + ·) (Finset.sum_congr rfl fun k _ => ?_) ?_) (Finset.sum_congr rfl fun k _ => ?_)
  · rw [lidx_v120, ridx_v120, val_main_v119_apply, val_main_v118_apply, idx_v118, val_main_v117_apply, val_main_v116_apply,
      val_main_cst_23_apply, val_main_v97_apply, val_main_v96_apply, widx_v97]
    simp only [Ideal.hostDivf_def, Ideal.maximumf_def, Ideal.ofBits_def, Cert.Spec.ofBits_one, cur, col, slab]
  · rw [val_main_v122_apply, val_main_v121_apply, val_main_v99_apply, val_main_v98_apply, bidx_v122]
    rfl
  · rw [lidx_v124, ridx_v124, val_main_v101_apply, val_main_v100_apply, widx_v101]
    rfl

/-- The transactions' first-layer output. -/
theorem t1_rows : val_main_v127 (F := Ideal) x0 x1 x2 x3 x4 x5 x6 x7 x8 x9
    = unc (fun r j => max (sageRef (cur (val_main_v81 (F := Ideal) x1 x2)) (col (val_main_v85 (F := Ideal) x1)) (cur (val_main_v3 (F := Ideal) x0 x5 x6)) (slab x7 1) (rowOf x8 1) (slab x9 1) r j
        + sageRef (cur (val_main_v111 (F := Ideal) x3 x4)) (col (val_main_v115 (F := Ideal) x3)) (cur (val_main_v3 (F := Ideal) x0 x5 x6)) (slab x7 3) (rowOf x8 3) (slab x9 3) r j) 0) := by
  funext i
  obtain ⟨r, j, rfl⟩ : ∃ (r : Fin 500000) (j : Fin 128), i = ix2 r j := ⟨i 0, i 1, eq_ix2 i⟩
  rw [val_main_v127_apply, val_main_v126_apply, val_main_call0_v0_apply, val_main_call0_cst_apply, rel_v95, rel_v125, unc_ix2]
  simp only [Ideal.maximumf_def, Ideal.addf_def, Ideal.ofBits_def, Ideal.ofBits_zero_f32]

end Cert.ReferenceIdeal.Rows

end
-- ==== Proof.RRows3.lean ====
/-
  The reference's result at a transaction `e`: the second layer's two relations (from the cards' and from the e-mail
  addresses' first-layer outputs) with the transaction's own first-layer features, positive part, then the
  classifier's column and bias.
-/
import proofs.«422063_j25211458027581_2_alg».proof.Proof.RefRead
import proofs.«422063_j25211458027581_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Cert.ReferenceIdeal Cert.ReferenceIdeal.Gen Cert.ReferenceIdeal.ReadP Cert.Spec
open Idealize.ShloMosaic Idealize.ShloMosaic.ValueIdx

/-! ## The generated index maps at coordinates

Each operand index the reading lemmas produce, at an output index given by coordinates, is the index with the
expected coordinates: the contraction runs along the left operand's row and down the right operand's column; a
reshape of a one-slab slice of the stacked weights reads slab `1` (or `3`) at the same row and column. -/

section Indices

variable (r : Fin 500000) (j k : Fin 128)

private theorem lidx214 : lidx_main_v214 (ix2 r j) k = ix2 r k :=
  funext fun a => Fin.ext (by match a with | ⟨0, _⟩ => rfl | ⟨1, _⟩ => rfl)

private theorem lidx218 : lidx_main_v218 (ix2 r j) k = ix2 r k :=
  funext fun a => Fin.ext (by match a with | ⟨0, _⟩ => rfl | ⟨1, _⟩ => rfl)

private theorem lidx244 : lidx_main_v244 (ix2 r j) k = ix2 r k :=
  funext fun a => Fin.ext (by match a with | ⟨0, _⟩ => rfl | ⟨1, _⟩ => rfl)

private theorem lidx248 : lidx_main_v248 (ix2 r j) k = ix2 r k :=
  funext fun a => Fin.ext (by match a with | ⟨0, _⟩ => rfl | ⟨1, _⟩ => rfl)

private theorem idx212 : idx_main_v212 (ix2 r k) = ix2 r (0 : Fin 1) :=
  funext fun a => Fin.ext (by match a with | ⟨0, _⟩ => rfl | ⟨1, _⟩ => rfl)

private theorem idx242 : idx_main_v242 (ix2 r k) = ix2 r (0 : Fin 1) :=
  funext fun a => Fin.ext (by match a with | ⟨0, _⟩ => rfl | ⟨1, _⟩ => rfl)

private theorem w191 : idx_main_v190 (idx_main_v191 (ridx_main_v214 (ix2 r j) k)) = ix3 (1 : Fin 4) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

private theorem w195 : idx_main_v194 (idx_main_v195 (ridx_main_v218 (ix2 r j) k)) = ix3 (1 : Fin 4) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

private theorem w221 : idx_main_v220 (idx_main_v221 (ridx_main_v244 (ix2 r j) k)) = ix3 (3 : Fin 4) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

private theorem w225 : idx_main_v224 (idx_main_v225 (ridx_main_v248 (ix2 r j) k)) = ix3 (3 : Fin 4) k j :=
  funext fun a => Fin.ext (by
    have hk := k.isLt; have hj := j.isLt
    match a with
    | ⟨0, _⟩ => rfl
    | ⟨1, _⟩ => show (k.val * 128 + j.val) / 128 % 128 = k.val; omega
    | ⟨2, _⟩ => show (k.val * 128 + j.val) % 128 = j.val; omega)

private theorem b193 : idx_main_v192 (idx_main_v193 (idx_main_v215 (idx_main_v216 (ix2 r j)))) = ix2 (1 : Fin 4) j :=
  funext fun a => Fin.ext (by
    have hj := j.isLt
    match a with
    | ⟨0, _⟩ => rfl
    | ⟨1, _⟩ => show j.val % 128 = j.val; omega)

private theorem b223 : idx_main_v222 (idx_main_v223 (idx_main_v245 (idx_main_v246 (ix2 r j)))) = ix2 (3 : Fin 4) j :=
  funext fun a => Fin.ext (by
    have hj := j.isLt
    match a with
    | ⟨0, _⟩ => rfl
    | ⟨1, _⟩ => show j.val % 128 = j.val; omega)

private theorem idx256 : idx_main_v256 (ix1 r) = ix2 r (0 : Fin 1) :=
  funext fun a => Fin.ext (by
    match a with
    | ⟨0, _⟩ => show r.val / 1 = r.val; omega
    | ⟨1, _⟩ => rfl)

private theorem lidx252 : lidx_main_v252 (ix2 r (0 : Fin 1)) k = ix2 r k :=
  funext fun a => Fin.ext (by match a with | ⟨0, _⟩ => rfl | ⟨1, _⟩ => rfl)

private theorem ridx252 : ridx_main_v252 (ix2 r (0 : Fin 1)) k = ix2 k (0 : Fin 1) :=
  funext fun a => Fin.ext (by match a with | ⟨0, _⟩ => rfl | ⟨1, _⟩ => rfl)

private theorem idx253 : idx_main_v253 (idx_main_v254 (ix2 r (0 : Fin 1))) = ix1 (0 : Fin 1) :=
  funext fun a => Fin.ext (by match a with | ⟨0, _⟩ => rfl)

end Indices

variable (x0 : S500000x64.Idx → EReal) (x1 x2 x3 x4 : IVec S500000 32) (x5 : S64x128.Idx → EReal) (x6 : S128.Idx → EReal)
  (x7 : S4x128x128.Idx → EReal) (x8 : S4x128.Idx → EReal) (x9 x10 : S4x128x128.Idx → EReal) (x11 : S4x128.Idx → EReal)
  (x12 : S4x128x128.Idx → EReal) (x13 : S128x1.Idx → EReal) (x14 : S1.Idx → EReal)

/-! ## The second layer's stages at coordinates -/

/-- The f32 pattern of one, read at the extended reals. -/
private theorem one_bits : (FloatOps.ofBits (F := Ideal) .f32 0x3F800000#32) = 1 := ofBits_one

/-- The transaction's own features through slab `1` of the root weights. -/
private theorem self1 (r : Fin 500000) (j : Fin 128) :
    (val_main_v218 (F := Ideal) x0 x1 x2 x3 x4 x5 x6 x7 x8 x9 x12) (ix2 r j)
      = ∑ k : Fin 128, (val_main_v127 (F := Ideal) x0 x1 x2 x3 x4 x5 x6 x7 x8 x9) (ix2 r k) * x12 (ix3 (1 : Fin 4) k j) := by
  rw [val_main_v218_apply]
  refine Finset.sum_congr rfl fun k _ => ?_
  rw [val_main_v195_apply, val_main_v194_apply, lidx218, w195]

/-- The neighbours' sum divided by their clipped count, through slab `1` of the neighbour weights. -/
private theorem agg1 (r : Fin 500000) (j : Fin 128) :
    (val_main_v214 (F := Ideal) x0 x1 x2 x5 x6 x7 x8 x9 x10) (ix2 r j)
      = ∑ k : Fin 128, Ideal.div ((val_main_v205 (F := Ideal) x0 x1 x2 x5 x6 x7 x8 x9) (ix2 r k))
          (max ((val_main_v209 (F := Ideal) x1) (ix2 r (0 : Fin 1))) 1) * x10 (ix3 (1 : Fin 4) k j) := by
  rw [val_main_v214_apply]
  refine Finset.sum_congr rfl fun k _ => ?_
  rw [val_main_v213_apply, val_main_v212_apply, val_main_v211_apply, val_main_v210_apply,
    val_main_cst_41_apply, val_main_v191_apply, val_main_v190_apply, lidx214, idx212, w191, one_bits]
  rfl

/-- The bias row of slab `1`, broadcast over the rows. -/
private theorem bias1 (r : Fin 500000) (j : Fin 128) :
    (val_main_v216 (F := Ideal) x11) (ix2 r j) = x11 (ix2 (1 : Fin 4) j) := by
  rw [val_main_v216_apply, val_main_v215_apply, val_main_v193_apply, val_main_v192_apply, b193]

/-- Relation `1` at row `r`, column `j`. -/
private theorem rel1 (r : Fin 500000) (j : Fin 128) :
    (val_main_v219 (F := Ideal) x0 x1 x2 x3 x4 x5 x6 x7 x8 x9 x10 x11 x12) (ix2 r j)
      = sageRef (cur (val_main_v205 (F := Ideal) x0 x1 x2 x5 x6 x7 x8 x9)) (col (val_main_v209 (F := Ideal) x1))
          (cur (val_main_v127 (F := Ideal) x0 x1 x2 x3 x4 x5 x6 x7 x8 x9)) (slab x10 1) (rowOf x11 1) (slab x12 1) r j := by
  rw [val_main_v219_apply, val_main_v217_apply, agg1, bias1, self1]
  rfl

/-- The transaction's own features through slab `3` of the root weights. -/
private theorem self3 (r : Fin 500000) (j : Fin 128) :
    (val_main_v248 (F := Ideal) x0 x1 x2 x3 x4 x5 x6 x7 x8 x9 x12) (ix2 r j)
      = ∑ k : Fin 128, (val_main_v127 (F := Ideal) x0 x1 x2 x3 x4 x5 x6 x7 x8 x9) (ix2 r k) * x12 (ix3 (3 : Fin 4) k j) := by
  rw [val_main_v248_apply]
  refine Finset.sum_congr rfl fun k _ => ?_
  rw [val_main_v225_apply, val_main_v224_apply, lidx248, w225]

/-- The neighbours' sum divided by their clipped count, through slab `3` of the neighbour weights. -/
private theorem agg3 (r : Fin 500000) (j : Fin 128) :
    (val_main_v244 (F := Ideal) x0 x3 x4 x5 x6 x7 x8 x9 x10) (ix2 r j)
      = ∑ k : Fin 128, Ideal.div ((val_main_v235 (F := Ideal) x0 x3 x4 x5 x6 x7 x8 x9) (ix2 r k))
          (max ((val_main_v239 (F := Ideal) x3) (ix2 r (0 : Fin 1))) 1) * x10 (ix3 (3 : Fin 4) k j) := by
  rw [val_main_v244_apply]
  refine Finset.sum_congr rfl fun k _ => ?_
  rw [val_main_v243_apply, val_main_v242_apply, val_main_v241_apply, val_main_v240_apply,
    val_main_cst_47_apply, val_main_v221_apply, val_main_v220_apply, lidx244, idx242, w221, one_bits]
  rfl

/-- The bias row of slab `3`, broadcast over the rows. -/
private theorem bias3 (r : Fin 500000) (j : Fin 128) :
    (val_main_v246 (F := Ideal) x11) (ix2 r j) = x11 (ix2 (3 : Fin 4) j) := by
  rw [val_main_v246_apply, val_main_v245_apply, val_main_v223_apply, val_main_v222_apply, b223]

/-- Relation `3` at row `r`, column `j`. -/
private theorem rel3 (r : Fin 500000) (j : Fin 128) :
    (val_main_v249 (F := Ideal) x0 x1 x2 x3 x4 x5 x6 x7 x8 x9 x10 x11 x12) (ix2 r j)
      = sageRef (cur (val_main_v235 (F := Ideal) x0 x3 x4 x5 x6 x7 x8 x9)) (col (val_main_v239 (F := Ideal) x3))
          (cur (val_main_v127 (F := Ideal) x0 x1 x2 x3 x4 x5 x6 x7 x8 x9)) (slab x10 3) (rowOf x11 3) (slab x12 3) r j := by
  rw [val_main_v249_apply, val_main_v247_apply, agg3, bias3, self3]
  rfl

/-! ## The result -/

/-- The f32 pattern of zero, read at the extended reals. -/
private theorem zero_bits : (FloatOps.ofBits (F := Ideal) .f32 0x00000000#32) = 0 := Ideal.ofBits_zero_f32

/-- The result at transaction `e`. -/
theorem out_rows (e : Fin 500000) : (val_main_v256 (F := Ideal) x0 x1 x2 x3 x4 x5 x6 x7 x8 x9 x10 x11 x12 x13 x14) (ix1 e)
    = (∑ j, max (sageRef (cur (val_main_v205 (F := Ideal) x0 x1 x2 x5 x6 x7 x8 x9)) (col (val_main_v209 (F := Ideal) x1)) (cur (val_main_v127 (F := Ideal) x0 x1 x2 x3 x4 x5 x6 x7 x8 x9)) (slab x10 1) (rowOf x11 1) (slab x12 1) e j
        + sageRef (cur (val_main_v235 (F := Ideal) x0 x3 x4 x5 x6 x7 x8 x9)) (col (val_main_v239 (F := Ideal) x3)) (cur (val_main_v127 (F := Ideal) x0 x1 x2 x3 x4 x5 x6 x7 x8 x9)) (slab x10 3) (rowOf x11 3) (slab x12 3) e j) 0
          * x13 (ix2 j (0 : Fin 1))) + x14 (ix1 (0 : Fin 1)) := by
  rw [val_main_v256_apply, val_main_v255_apply, val_main_v252_apply, val_main_v254_apply, val_main_v253_apply, idx256, idx253,
    Ideal.addf_def]
  refine congrArg₂ (· + ·) (Finset.sum_congr rfl fun k _ => ?_) rfl
  rw [val_main_v251_apply, val_main_v250_apply, val_main_call3_v0_apply, val_main_call3_cst_apply, lidx252, ridx252,
    rel1, rel3, zero_bits]
  rfl

end Cert.ReferenceIdeal.Rows

end
-- ==== Proof.BridgeSparse.lean ====
/-
  The sparse stages of the two programs are the same functions.

  Between their dense layers both programs gather rows by an index input (negative indices wrapped by the axis length),
  add the gathered rows up per destination node, and count the edges per destination node. The kernel program's host
  code and the reference spell these with the same operations on the same constants; only the names of the records
  differ. Each equation below says so for one stage of the reference, for any array `X` standing for the dense stage
  the rows are gathered from; it holds in every float family, by unfolding the names.
-/
import proofs.«422063_j25211458027581_2_alg».proof.Proof.KGlue
import proofs.«422063_j25211458027581_2_alg».proof.Proof.RefRead

set_option maxRecDepth 16384

noncomputable section

namespace Cert.Bridge.Sparse

open Idealize.ShloMosaic

variable {F : FTy → Type} [FloatOps F]

/-! ## First layer: transactions to cards, transactions to e-mail addresses -/

theorem seg_v21 (X : FVec F Cert.KernelIdeal.S500000x128 .f32) (i1 i2 : IVec Cert.KernelIdeal.S500000 32) :
    Cert.KernelIdeal.Glue.segC (F := F) i2 (Host.gather Cert.KernelIdeal.gather_S500000x128_S500000x1_S500000x128_1_0_n_n_0_1_1128 X (Cert.KernelIdeal.Glue.wrapIdx 500000#32 i1))
      = Host.scatterAdd Cert.ReferenceIdeal.scatter_S100000x128_S500000x1_S500000x128_1_0_0_1 (Cert.ReferenceIdeal.ReadP.val_main_v19 (F := F)) (Cert.ReferenceIdeal.ReadP.val_main_v20 (F := F) i2)
          (Host.gather Cert.ReferenceIdeal.gather_S500000x128_S500000x1_S500000x128_1_0_n_n_0_1_1128 X (Cert.ReferenceIdeal.ReadP.val_main_v17 (F := F) i1)) := rfl

theorem cnt_v25 (i2 : IVec Cert.KernelIdeal.S500000 32) :
    Cert.KernelIdeal.Glue.cntC (F := F) i2 = Cert.ReferenceIdeal.ReadP.val_main_v25 (F := F) i2 := rfl

theorem seg_v51 (X : FVec F Cert.KernelIdeal.S500000x128 .f32) (i3 i4 : IVec Cert.KernelIdeal.S500000 32) :
    Cert.KernelIdeal.Glue.segE (F := F) i4 (Host.gather Cert.KernelIdeal.gather_S500000x128_S500000x1_S500000x128_1_0_n_n_0_1_1128 X (Cert.KernelIdeal.Glue.wrapIdx 500000#32 i3))
      = Host.scatterAdd Cert.ReferenceIdeal.scatter_S80000x128_S500000x1_S500000x128_1_0_0_1 (Cert.ReferenceIdeal.ReadP.val_main_v49 (F := F)) (Cert.ReferenceIdeal.ReadP.val_main_v50 (F := F) i4)
          (Host.gather Cert.ReferenceIdeal.gather_S500000x128_S500000x1_S500000x128_1_0_n_n_0_1_1128 X (Cert.ReferenceIdeal.ReadP.val_main_v47 (F := F) i3)) := rfl

theorem cnt_v55 (i4 : IVec Cert.KernelIdeal.S500000 32) :
    Cert.KernelIdeal.Glue.cntE (F := F) i4 = Cert.ReferenceIdeal.ReadP.val_main_v55 (F := F) i4 := rfl

/-! ## The counts at the transactions -/

theorem cnt_v85 (i1 : IVec Cert.KernelIdeal.S500000 32) :
    Cert.KernelIdeal.Glue.cntT (F := F) i1 = Cert.ReferenceIdeal.ReadP.val_main_v85 (F := F) i1 := rfl

theorem cnt_v115 (i3 : IVec Cert.KernelIdeal.S500000 32) :
    Cert.KernelIdeal.Glue.cntT (F := F) i3 = Cert.ReferenceIdeal.ReadP.val_main_v115 (F := F) i3 := rfl

theorem cnt_v209 (i1 : IVec Cert.KernelIdeal.S500000 32) :
    Cert.KernelIdeal.Glue.cntT (F := F) i1 = Cert.ReferenceIdeal.ReadP.val_main_v209 (F := F) i1 := rfl

theorem cnt_v239 (i3 : IVec Cert.KernelIdeal.S500000 32) :
    Cert.KernelIdeal.Glue.cntT (F := F) i3 = Cert.ReferenceIdeal.ReadP.val_main_v239 (F := F) i3 := rfl

/-! ## Second layer: cards to transactions, e-mail addresses to transactions -/

theorem seg_v205 (X : FVec F Cert.KernelIdeal.S100000x128 .f32) (i1 i2 : IVec Cert.KernelIdeal.S500000 32) :
    Cert.KernelIdeal.Glue.segT (F := F) i1 (Host.gather Cert.KernelIdeal.gather_S100000x128_S500000x1_S500000x128_1_0_n_n_0_1_1128 X (Cert.KernelIdeal.Glue.wrapIdx 100000#32 i2))
      = Host.scatterAdd Cert.ReferenceIdeal.scatter_S500000x128_S500000x1_S500000x128_1_0_0_1 (Cert.ReferenceIdeal.ReadP.val_main_v203 (F := F)) (Cert.ReferenceIdeal.ReadP.val_main_v204 (F := F) i1)
          (Host.gather Cert.ReferenceIdeal.gather_S100000x128_S500000x1_S500000x128_1_0_n_n_0_1_1128 X (Cert.ReferenceIdeal.ReadP.val_main_v201 (F := F) i2)) := rfl

theorem seg_v235 (X : FVec F Cert.KernelIdeal.S80000x128 .f32) (i3 i4 : IVec Cert.KernelIdeal.S500000 32) :
    Cert.KernelIdeal.Glue.segT (F := F) i3 (Host.gather Cert.KernelIdeal.gather_S80000x128_S500000x1_S500000x128_1_0_n_n_0_1_1128 X (Cert.KernelIdeal.Glue.wrapIdx 80000#32 i4))
      = Host.scatterAdd Cert.ReferenceIdeal.scatter_S500000x128_S500000x1_S500000x128_1_0_0_1 (Cert.ReferenceIdeal.ReadP.val_main_v233 (F := F)) (Cert.ReferenceIdeal.ReadP.val_main_v234 (F := F) i3)
          (Host.gather Cert.ReferenceIdeal.gather_S80000x128_S500000x1_S500000x128_1_0_n_n_0_1_1128 X (Cert.ReferenceIdeal.ReadP.val_main_v231 (F := F) i4)) := rfl

end Cert.Bridge.Sparse

end
-- ==== Proof.Bridge.lean ====
/-
  The two programs compute the same result.

  Stage by stage, the kernel program's dense layers (each a tiled kernel whose output array is one row function of
  its operands) meet the reference's: the projected features; the cards' and the e-mail addresses' first-layer
  outputs, where the kernel multiplies the neighbour sum by a reciprocal count and drops the zero own-feature term;
  the transactions' first-layer output, where the kernel drops the two zero aggregations and folds the two
  own-feature products into one with the summed weights (distributivity: the projected features and the weights are
  real numbers, the float inputs being finite); and the second layer fused with the classifier, folded the same way.
  Between the dense layers both programs gather rows and add them per destination node with the same operations; the
  kernel program's gather replaces a row whose index is out of range by the not-a-number pattern, which never happens
  here because every index input lies in range.
-/
import proofs.«422063_j25211458027581_2_alg».proof.Proof.KReg03
import proofs.«422063_j25211458027581_2_alg».proof.Proof.KReg12
import proofs.«422063_j25211458027581_2_alg».proof.Proof.KReg4
import proofs.«422063_j25211458027581_2_alg».proof.Proof.KChainA
import proofs.«422063_j25211458027581_2_alg».proof.Proof.KChainB
import proofs.«422063_j25211458027581_2_alg».proof.Proof.PreFacts
import proofs.«422063_j25211458027581_2_alg».proof.Proof.SpecAlgebra
import proofs.«422063_j25211458027581_2_alg».proof.Proof.RRows1
import proofs.«422063_j25211458027581_2_alg».proof.Proof.RRows2
import proofs.«422063_j25211458027581_2_alg».proof.Proof.RRows3
import proofs.«422063_j25211458027581_2_alg».proof.Proof.BridgeSparse

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Glue Cert.KernelIdeal.Chain Cert.KernelIdeal.RegionValue Cert.Spec

variable (m : (ℓ : Loc nD τ sig) → Buf (Elt Ideal) ℓ) (ρ : Dev nD → PrngReg) (c : Dev nD)

/-! ## The reference's stages at the kernel program's launch contents -/

/-- The reference's projected features. -/
abbrev rXT : S500000x128.Idx → EReal := Cert.ReferenceIdeal.ReadP.val_main_v3 (F := Ideal) (a0 m c) (a5 m c) (a6 m c)
/-- The reference's first-layer output at the cards. -/
abbrev rC1 : S100000x128.Idx → EReal := Cert.ReferenceIdeal.ReadP.val_main_v128 (F := Ideal) (a0 m c) (a1 m c) (a2 m c) (a5 m c) (a6 m c) (a7 m c) (a8 m c) (a9 m c)
/-- The reference's first-layer output at the e-mail addresses. -/
abbrev rE1 : S80000x128.Idx → EReal := Cert.ReferenceIdeal.ReadP.val_main_v129 (F := Ideal) (a0 m c) (a3 m c) (a4 m c) (a5 m c) (a6 m c) (a7 m c) (a8 m c) (a9 m c)
/-- The reference's first-layer output at the transactions. -/
abbrev rT1 : S500000x128.Idx → EReal := Cert.ReferenceIdeal.ReadP.val_main_v127 (F := Ideal) (a0 m c) (a1 m c) (a2 m c) (a3 m c) (a4 m c) (a5 m c) (a6 m c) (a7 m c) (a8 m c) (a9 m c)
/-- The reference's result. -/
abbrev rOut : S500000.Idx → EReal := Cert.ReferenceIdeal.ReadP.val_main_v256 (F := Ideal) (a0 m c) (a1 m c) (a2 m c) (a3 m c) (a4 m c) (a5 m c) (a6 m c) (a7 m c) (a8 m c) (a9 m c) (a10 m c) (a11 m c) (a12 m c) (a13 m c) (a14 m c)

/-! ## Which buffer each region's output window is -/

theorem out0_ref : Pipeline.arrRef spec0 3 = main_v1 := rfl
theorem out1_ref : Pipeline.arrRef spec1 4 = main_v30 := rfl
theorem out2_ref : Pipeline.arrRef spec2 4 = main_v36 := rfl
theorem out3_ref : Pipeline.arrRef spec3 3 = main_v48 := rfl
theorem out4_ref : Pipeline.arrRef spec4 11 = main_v87 := rfl

/-! ## Real numbers -/

theorem xt_isReal (hF : Cert.PreFacts.Facts m c) (r : Fin 500000) (k : Fin 128) : IsReal (cur (rXT m c) r k) := by
  show IsReal (rXT m c (ix2 r k))
  rw [show rXT m c = _ from Cert.ReferenceIdeal.Rows.xt_rows (a0 m c) (a5 m c) (a6 m c), unc_ix2]
  exact linear_isReal _ _ _ (fun r k => hF.fin0 _) (fun k j => hF.fin5 _) (fun j => hF.fin6 _) r k

/-! ## The projected features -/

theorem xt_eq : (V2 m ρ c main_v1 : S500000x128.Idx → EReal) = rXT m c := by
  have h : (V2 m ρ c main_v1 : S500000x128.Idx → EReal) = _ := (W2_arr m ρ c 3).trans (final0 (V1 m ρ) c)
  rw [V1_arg0, V1_arg5, row_V1_v0] at h
  exact h.trans (Cert.ReferenceIdeal.Rows.xt_rows (a0 m c) (a5 m c) (a6 m c)).symm

/-! ## The first layer at the cards and at the e-mail addresses -/

theorem c1_eq (hF : Cert.PreFacts.Facts m c) : (V8 m ρ c main_v30 : S100000x128.Idx → EReal) = rC1 m c := by
  have h : (V8 m ρ c main_v30 : S100000x128.Idx → EReal) = _ := (W8_arr m ρ c 4).trans (final1 (V7 m ρ) c)
  rw [V7_v6, V7_v13, cur_V7_v26, row_V7_v29, take500k_eq _ _ hF.rng1, col_invC, xt_eq m ρ c,
    Cert.Bridge.Sparse.seg_v21, Cert.Bridge.Sparse.cnt_v25] at h
  refine h.trans ?_
  rw [show rC1 m c = _ from Cert.ReferenceIdeal.Rows.c1_rows (a0 m c) (a1 m c) (a2 m c) (a5 m c) (a6 m c) (a7 m c) (a8 m c) (a9 m c)]
  exact congrArg unc (sageCombine_eq _ _ _ _ (slab (a9 m c) 0))

theorem e1_eq (hF : Cert.PreFacts.Facts m c) : (V10 m ρ c main_v36 : S80000x128.Idx → EReal) = rE1 m c := by
  have h : (V10 m ρ c main_v36 : S80000x128.Idx → EReal) = _ := (W10_arr m ρ c 4).trans (final2 (V9 m ρ) c)
  rw [V9_v17, V9_v24, cur_V9_v32, row_V9_v35, take500k_eq _ _ hF.rng3, col_invE, xt_eq m ρ c,
    Cert.Bridge.Sparse.seg_v51, Cert.Bridge.Sparse.cnt_v55] at h
  refine h.trans ?_
  rw [show rE1 m c = _ from Cert.ReferenceIdeal.Rows.e1_rows (a0 m c) (a3 m c) (a4 m c) (a5 m c) (a6 m c) (a7 m c) (a8 m c) (a9 m c)]
  exact congrArg unc (sageCombine_eq _ _ _ _ (slab (a9 m c) 2))

/-! ## The first layer at the transactions -/

/-- The kernel program's form of it: one affine map with the summed own-feature weights, positive part. -/
theorem t1_form : (V12 m ρ c main_v48 : S500000x128.Idx → EReal)
    = unc (linearRelu (cur (rXT m c)) (fun k j => slab (a9 m c) 1 k j + slab (a9 m c) 3 k j)
        (fun j => rowOf (a8 m c) 1 j + rowOf (a8 m c) 3 j)) := by
  have h : (V12 m ρ c main_v48 : S500000x128.Idx → EReal) = _ := (W12_arr m ρ c 3).trans (final3 (V11 m ρ) c)
  rw [V11_v1, cur_V11_v41, row_V11_v47, xt_eq m ρ c] at h
  exact h

theorem t1_eq (hF : Cert.PreFacts.Facts m c) : (V12 m ρ c main_v48 : S500000x128.Idx → EReal) = rT1 m c := by
  refine (t1_form m ρ c).trans ?_
  rw [show rT1 m c = _ from Cert.ReferenceIdeal.Rows.t1_rows (a0 m c) (a1 m c) (a2 m c) (a3 m c) (a4 m c) (a5 m c) (a6 m c) (a7 m c) (a8 m c) (a9 m c),
    Cert.ReferenceIdeal.Rows.v81_zero, Cert.ReferenceIdeal.Rows.v111_zero]
  exact congrArg unc (linearRelu_eq _ _ _ _ _ _ _ _ _ (xt_isReal m c hF) (fun k j => hF.fin9 _) (fun k j => hF.fin9 _))

include ρ in
theorem t1_isReal (hF : Cert.PreFacts.Facts m c) (r : Fin 500000) (k : Fin 128) : IsReal (cur (rT1 m c) r k) := by
  show IsReal (rT1 m c (ix2 r k))
  rw [← t1_eq m ρ c hF, t1_form m ρ c, unc_ix2]
  exact linearRelu_isReal _ _ _ (xt_isReal m c hF) (fun k j => isReal_add (hF.fin9 _) (hF.fin9 _))
    (fun j => isReal_add (hF.fin8 _) (hF.fin8 _)) r k

/-! ## The second layer and the classifier -/

theorem out_eq (hF : Cert.PreFacts.Facts m c) : (W18 m ρ c (Proc.devRef .tc main_v88) : S500000.Idx → EReal) = rOut m c := by
  funext i
  obtain ⟨e, rfl⟩ : ∃ e : Fin 500000, i = ix1 e := ⟨i 0, eq_ix1 i⟩
  have h : (V17 m ρ c main_v87 : S500000x1.Idx → EReal) = _ := (W17_arr m ρ c 11).trans (final4 (V16 m ρ) c)
  rw [V16_v52, V16_v59, V16_v63, V16_v70, V16_v48, cur_V16_v82, cur_V16_v84, cur_V16_v75, row_V16_v85,
    V16_arg13, V16_v86, take100k_eq _ _ hF.rng2, take80k_eq _ _ hF.rng4, col_invT, col_invT,
    c1_eq m ρ c hF, e1_eq m ρ c hF, t1_eq m ρ c hF,
    Cert.Bridge.Sparse.seg_v205, Cert.Bridge.Sparse.seg_v235, Cert.Bridge.Sparse.cnt_v209 (a1 m c), Cert.Bridge.Sparse.cnt_v239 (a3 m c)] at h
  rw [W18_v88, h, uncol_ix2,
    show rOut m c (ix1 e) = _ from Cert.ReferenceIdeal.Rows.out_rows (a0 m c) (a1 m c) (a2 m c) (a3 m c) (a4 m c) (a5 m c) (a6 m c) (a7 m c) (a8 m c) (a9 m c) (a10 m c) (a11 m c) (a12 m c) (a13 m c) (a14 m c) e]
  exact congrFun (layer2_eq _ _ _ _ _ _ _ _ _ _ _ _ _ (t1_isReal m ρ c hF) (fun k j => hF.fin12 _) (fun k j => hF.fin12 _)) e

end Cert.Bridge

end
-- ==== Proof.lean ====
/-
  The certificate of a two-layer heterogeneous graph network (transactions, cards, e-mail addresses; mean aggregation
  over typed edges; a linear classifier on the transactions): five tiled dense kernels with gathers and segment sums
  on the host between them, against the plain array program.

  The three frames: both kernel programs by their generated frame, the reference by its run with the result dropped.
  Nothing was rewritten by the idealization, so `preserves` is trivial. The value claim: the kernel program ends
  with its result buffer at the last segment boundary's contents, the reference at its composed term of the
  arguments; under the precondition (finite float inputs, index inputs in range) the two are one function of the
  arguments (Proof/Bridge.lean), and the two memories agree on the arguments.
-/
import proofs.«422063_j25211458027581_2_alg».proof.Defs
import proofs.«422063_j25211458027581_2_alg».proof.Proof.Gen.Kernel
import proofs.«422063_j25211458027581_2_alg».proof.Proof.Gen.Kernel.Frame
import proofs.«422063_j25211458027581_2_alg».proof.Proof.Gen.KernelIdeal
import proofs.«422063_j25211458027581_2_alg».proof.Proof.Gen.KernelIdeal.Frame
import proofs.«422063_j25211458027581_2_alg».proof.Proof.Gen.ReferenceIdeal
import proofs.«422063_j25211458027581_2_alg».proof.Proof.Gen.Pre_finite_inputs
import proofs.«422063_j25211458027581_2_alg».proof.Proof.KernelIdealRun
import proofs.«422063_j25211458027581_2_alg».proof.Proof.RefRun
import proofs.«422063_j25211458027581_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's composed term is its last stage. -/
theorem res_eq_stage (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v256 (F := Ideal) m c
      = Cert.ReferenceIdeal.ReadP.val_main_v256 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) := by
  unfold Cert.ReferenceIdeal.ValueP.res_main_v256; rfl

/-- Both programs run; the kernel program's result buffer ends at the last boundary's contents, the reference's at its
    last stage of arguments that agree with the kernel program's: one function of them under the precondition. -/
theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v88), Cert.KernelIdeal.Gen.run_valued (F := Ideal) m ρ, ?_⟩
  refine (θ_run Cert.ReferenceIdeal.defs _ _).mono (fun _ h c => ⟨(h c).1.trans ?_, (h c).2⟩) (Cert.ReferenceIdeal.ValueP.run (F := Ideal) m' ρ')
  rw [res_eq_stage, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.Bridge.out_eq m ρ c (Cert.PreFacts.decode m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
